-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x32 : Shape := ⟨2, ![2000000, 32]⟩
abbrev S2000000 : Shape := ⟨1, ![2000000]⟩
abbrev S1x32 : Shape := ⟨2, ![1, 32]⟩
abbrev S_ : Shape := ⟨0, ![]⟩

class Facts : Prop where
  bcast_S_S2000000x32 : S_.BroadcastsInDim S2000000x32 (![] : Fin 0 → Fin S2000000x32.rank)
  reducesTo_S2000000x32_S_d0_1 : S2000000x32.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg1 : IVec S2000000 32) (main_v13 : IVec S_ 1) (main_v15 : IVec S2000000 1) (main_c_5 : IVec S_ 1) : IVec S_ 1 :=
  let main_v16 : IVec S_ 1 := (fun x v => Host.reduce IntOp.andi x v reducesTo_S2000000_S_d0 h_S_) main_v15 main_c_5
  let main_v17 : IVec S_ 1 := andi main_v13 main_v16
  let main_c_6 : IVec S_ 32 := constantI S_ 32 16#32
  let main_v18 : IVec S2000000 32 := broadcastInDim S2000000 ![] bcast_S_S2000000 main_c_6
  let main_v19 : IVec S2000000 1 := cmpi .slt main_arg1 main_v18
  let main_c_7 : IVec S_ 1 := constantI S_ 1 1#1
  let main_v20 : IVec S_ 1 := (fun x v => Host.reduce IntOp.andi x v reducesTo_S2000000_S_d0 h_S_) main_v19 main_c_7
  let main_v21 : IVec S_ 1 := andi main_v17 main_v20
  main_v21

def fn {F : FTy → Type} [FloatOps F] (main_arg0 : FVec F S2000000x32 .f32) (main_arg1 : IVec S2000000 32) (main_arg2 : FVec F S1x32 .f32) (main_arg3 : FVec F S1x32 .f32) : IVec S_ 1 :=
  let main_v0 : FVec F S2000000x32 .f32 := Host.absf main_arg0
  let main_cst : FVec F S_ .f32 := constant S_ .f32 0x7F800000#32
  let main_v1 : FVec F S2000000x32 .f32 := broadcastInDim S2000000x32 ![] bcast_S_S2000000x32 main_cst
  let main_v2 : IVec S2000000x32 1 := cmpf .olt main_v0 main_v1
  let main_c : IVec S_ 1 := constantI S_ 1 1#1
  let main_v3 : IVec S_ 1 := (fun x v => Host.reduce IntOp.andi x v reducesTo_S2000000x32_S_d0_1 h_S_) main_v2 main_c
  let main_v4 : FVec F S1x32 .f32 := Host.absf main_arg2
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S1x32 .f32 := Host.absf main_arg3
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_c_4 : IVec S_ 32 := constantI S_ 32 0#32
  let main_v14 : IVec S2000000 32 := broadcastInDim S2000000 ![] bcast_S_S2000000 main_c_4
  let main_v15 : IVec S2000000 1 := cmpi .sge main_arg1 main_v14
  let main_c_5 : IVec S_ 1 := constantI S_ 1 1#1
  fn_part1 (F := F) main_arg1 main_v13 main_v15 main_c_5
-- ==== Kernel.lean ====
abbrev S2000000x32 : Shape := ⟨2, ![2000000, 32]⟩
abbrev S2000000 : Shape := ⟨1, ![2000000]⟩
abbrev S1x32 : Shape := ⟨2, ![1, 32]⟩
abbrev S2000000x1 : Shape := ⟨2, ![2000000, 1]⟩
abbrev S16x32 : Shape := ⟨2, ![16, 32]⟩
abbrev S16x1 : Shape := ⟨2, ![16, 1]⟩
abbrev S5000x32 : Shape := ⟨2, ![5000, 32]⟩
abbrev S5000x1 : Shape := ⟨2, ![5000, 1]⟩
abbrev S32 : Shape := ⟨1, ![32]⟩
abbrev S1 : Shape := ⟨1, ![1]⟩
abbrev S1x1 : Shape := ⟨2, ![1, 1]⟩
abbrev S_ : Shape := ⟨0, ![]⟩

abbrev nBuf : Space → Nat
  | .hbm => 28
  | .vmem => 17
  | .smem => 0
  | _ => 0

abbrev bufTy : (tb : Table) → Fin (tcTables nBuf tb) → BufTy
  | .hbm, ⟨0, _⟩ => ⟨S2000000x32, .f32⟩
  | .hbm, ⟨1, _⟩ => ⟨S2000000, .i32⟩
  | .hbm, ⟨2, _⟩ => ⟨S1x32, .f32⟩
  | .hbm, ⟨3, _⟩ => ⟨S1x32, .f32⟩
  | .hbm, ⟨4, _⟩ => ⟨S2000000x1, .i32⟩
  | .hbm, ⟨5, _⟩ => ⟨S16x32, .f32⟩
  | .hbm, ⟨6, _⟩ => ⟨S16x32, .f32⟩
  | .hbm, ⟨7, _⟩ => ⟨S16x1, .f32⟩
  | .hbm, ⟨8, _⟩ => ⟨S_, .f32⟩
  | .hbm, ⟨9, _⟩ => ⟨S16x1, .f32⟩
  | .hbm, ⟨10, _⟩ => ⟨S16x1, .f32⟩
  | .hbm, ⟨11, _⟩ => ⟨S16x32, .f32⟩
  | .hbm, ⟨12, _⟩ => ⟨S16x32, .f32⟩
  | .hbm, ⟨13, _⟩ => ⟨S16x32, .f32⟩
  | .hbm, ⟨14, _⟩ => ⟨S16x32, .f32⟩
  | .hbm, ⟨15, _⟩ => ⟨S16x32, .f32⟩
  | .hbm, ⟨16, _⟩ => ⟨S16x32, .f32⟩
  | .hbm, ⟨17, _⟩ => ⟨S_, .f32⟩
  | .hbm, ⟨18, _⟩ => ⟨S16x32, .f32⟩
  | .hbm, ⟨19, _⟩ => ⟨S16x32, .f32⟩
  | .hbm, ⟨20, _⟩ => ⟨S_, .f32⟩
  | .hbm, ⟨21, _⟩ => ⟨S16x32, .f32⟩
  | .hbm, ⟨22, _⟩ => ⟨S16x32, .f32⟩
  | .hbm, ⟨23, _⟩ => ⟨S16x32, .f32⟩
  | .hbm, ⟨24, _⟩ => ⟨S_, .f32⟩
  | .hbm, ⟨25, _⟩ => ⟨S16x32, .f32⟩
  | .hbm, ⟨26, _⟩ => ⟨S16x32, .f32⟩
  | .hbm, ⟨27, _⟩ => ⟨S2000000x32, .f32⟩
  | .local _ .vmem, ⟨0, _⟩ => ⟨S5000x32, .f32⟩
  | .local _ .vmem, ⟨1, _⟩ => ⟨S5000x32, .f32⟩
  | .local _ .vmem, ⟨2, _⟩ => ⟨S5000x1, .i32⟩
  | .local _ .vmem, ⟨3, _⟩ => ⟨S5000x1, .i32⟩
  | .local _ .vmem, ⟨4, _⟩ => ⟨S16x32, .f32⟩
  | .local _ .vmem, ⟨5, _⟩ => ⟨S16x32, .f32⟩
  | .local _ .vmem, ⟨6, _⟩ => ⟨S16x1, .f32⟩
  | .local _ .vmem, ⟨7, _⟩ => ⟨S5000x32, .f32⟩
  | .local _ .vmem, ⟨8, _⟩ => ⟨S5000x32, .f32⟩
  | .local _ .vmem, ⟨9, _⟩ => ⟨S5000x1, .i32⟩
  | .local _ .vmem, ⟨10, _⟩ => ⟨S5000x1, .i32⟩
  | .local _ .vmem, ⟨11, _⟩ => ⟨S16x32, .f32⟩
  | .local _ .vmem, ⟨12, _⟩ => ⟨S16x32, .f32⟩
  | .local _ .vmem, ⟨13, _⟩ => ⟨S1x32, .f32⟩
  | .local _ .vmem, ⟨14, _⟩ => ⟨S1x32, .f32⟩
  | .local _ .vmem, ⟨15, _⟩ => ⟨S5000x32, .f32⟩
  | .local _ .vmem, ⟨16, _⟩ => ⟨S5000x32, .f32⟩
  | _, _ => ⟨S2000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S2000000_S2000000x1 : S2000000.ShapeCasts S2000000x1
  inb_S16x32_S16x32_0_0 : ∀ a, (![0, 0] : Fin 2 → Nat) a + S16x32.size a ≤ S16x32.size a
  h_S16x32 : 0 < S16x32.numel
  inb_S16x1_S16x1_0_0 : ∀ a, (![0, 0] : Fin 2 → Nat) a + S16x1.size a ≤ S16x1.size a
  h_S16x1 : 0 < S16x1.numel
  inb_S5000x32_S5000x32_0_0 : ∀ a, (![0, 0] : Fin 2 → Nat) a + S5000x32.size a ≤ S5000x32.size a
  h_S5000x32 : 0 < S5000x32.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  natLt_1_32 : 1 < 32
  broadcasts_S5000x1_S5000x32 : S5000x1.Broadcasts S5000x32
  reduces_S5000x32_S32 : S5000x32.Reduces [0] S32
  shapeCasts_S32_S1x32 : S32.ShapeCasts S1x32
  reduces_S5000x1_S1 : S5000x1.Reduces [0] S1
  shapeCasts_S1_S1x1 : S1.ShapeCasts S1x1
  inb_S16x32_S1x32_0_0 : ∀ a, (![0, 0] : Fin 2 → Nat) a + S1x32.size a ≤ S16x32.size a
  h_S1x32 : 0 < S1x32.numel
  shapeCasts_S1x32_S32 : S1x32.ShapeCasts S32
  inb_S16x1_S1x1_0_0 : ∀ a, (![0, 0] : Fin 2 → Nat) a + S1x1.size a ≤ S16x1.size a
  h_S1x1 : 0 < S1x1.numel
  shapeCasts_S1x1_S1 : S1x1.ShapeCasts S1
  inb_S16x32_S1x32_1_0 : ∀ a, (![1, 0] : Fin 2 → Nat) a + S1x32.size a ≤ S16x32.size a
  inb_S16x1_S1x1_1_0 : ∀ a, (![1, 0] : Fin 2 → Nat) a + S1x1.size a ≤ S16x1.size a
  inb_S16x32_S1x32_2_0 : ∀ a, (![2, 0] : Fin 2 → Nat) a + S1x32.size a ≤ S16x32.size a
  inb_S16x1_S1x1_2_0 : ∀ a, (![2, 0] : Fin 2 → Nat) a + S1x1.size a ≤ S16x1.size a
  inb_S16x32_S1x32_3_0 : ∀ a, (![3, 0] : Fin 2 → Nat) a + S1x32.size a ≤ S16x32.size a
  inb_S16x1_S1x1_3_0 : ∀ a, (![3, 0] : Fin 2 → Nat) a + S1x1.size a ≤ S16x1.size a
  inb_S16x32_S1x32_4_0 : ∀ a, (![4, 0] : Fin 2 → Nat) a + S1x32.size a ≤ S16x32.size a
  inb_S16x1_S1x1_4_0 : ∀ a, (![4, 0] : Fin 2 → Nat) a + S1x1.size a ≤ S16x1.size a
  inb_S16x32_S1x32_5_0 : ∀ a, (![5, 0] : Fin 2 → Nat) a + S1x32.size a ≤ S16x32.size a
  inb_S16x1_S1x1_5_0 : ∀ a, (![5, 0] : Fin 2 → Nat) a + S1x1.size a ≤ S16x1.size a
  inb_S16x32_S1x32_6_0 : ∀ a, (![6, 0] : Fin 2 → Nat) a + S1x32.size a ≤ S16x32.size a
  inb_S16x1_S1x1_6_0 : ∀ a, (![6, 0] : Fin 2 → Nat) a + S1x1.size a ≤ S16x1.size a
  inb_S16x32_S1x32_7_0 : ∀ a, (![7, 0] : Fin 2 → Nat) a + S1x32.size a ≤ S16x32.size a
  inb_S16x1_S1x1_7_0 : ∀ a, (![7, 0] : Fin 2 → Nat) a + S1x1.size a ≤ S16x1.size a
  inb_S16x32_S1x32_8_0 : ∀ a, (![8, 0] : Fin 2 → Nat) a + S1x32.size a ≤ S16x32.size a
  inb_S16x1_S1x1_8_0 : ∀ a, (![8, 0] : Fin 2 → Nat) a + S1x1.size a ≤ S16x1.size a
  inb_S16x32_S1x32_9_0 : ∀ a, (![9, 0] : Fin 2 → Nat) a + S1x32.size a ≤ S16x32.size a
  inb_S16x1_S1x1_9_0 : ∀ a, (![9, 0] : Fin 2 → Nat) a + S1x1.size a ≤ S16x1.size a
  inb_S16x32_S1x32_10_0 : ∀ a, (![10, 0] : Fin 2 → Nat) a + S1x32.size a ≤ S16x32.size a
  inb_S16x1_S1x1_10_0 : ∀ a, (![10, 0] : Fin 2 → Nat) a + S1x1.size a ≤ S16x1.size a
  inb_S16x32_S1x32_11_0 : ∀ a, (![11, 0] : Fin 2 → Nat) a + S1x32.size a ≤ S16x32.size a
  inb_S16x1_S1x1_11_0 : ∀ a, (![11, 0] : Fin 2 → Nat) a + S1x1.size a ≤ S16x1.size a
  inb_S16x32_S1x32_12_0 : ∀ a, (![12, 0] : Fin 2 → Nat) a + S1x32.size a ≤ S16x32.size a
  inb_S16x1_S1x1_12_0 : ∀ a, (![12, 0] : Fin 2 → Nat) a + S1x1.size a ≤ S16x1.size a
  inb_S16x32_S1x32_13_0 : ∀ a, (![13, 0] : Fin 2 → Nat) a + S1x32.size a ≤ S16x32.size a
  inb_S16x1_S1x1_13_0 : ∀ a, (![13, 0] : Fin 2 → Nat) a + S1x1.size a ≤ S16x1.size a
  inb_S16x32_S1x32_14_0 : ∀ a, (![14, 0] : Fin 2 → Nat) a + S1x32.size a ≤ S16x32.size a
  inb_S16x1_S1x1_14_0 : ∀ a, (![14, 0] : Fin 2 → Nat) a + S1x1.size a ≤ S16x1.size a
  inb_S16x32_S1x32_15_0 : ∀ a, (![15, 0] : Fin 2 → Nat) a + S1x32.size a ≤ S16x32.size a
  inb_S16x1_S1x1_15_0 : ∀ a, (![15, 0] : Fin 2 → Nat) a + S1x1.size a ≤ S16x1.size a
  bcast_S_S16x1 : S_.BroadcastsInDim S16x1 (![] : Fin 0 → Fin S16x1.rank)
  bcast_S16x1_S16x32_0_1 : S16x1.BroadcastsInDim S16x32 (![0, 1] : Fin 2 → Fin S16x32.rank)
  bcast_S_S16x32 : S_.BroadcastsInDim S16x32 (![] : Fin 0 → Fin S16x32.rank)
  broadcasts_S1x32_S5000x32 : S1x32.Broadcasts S5000x32
  inb_S1x32_S1x32_0_0 : ∀ a, (![0, 0] : Fin 2 → Nat) a + S1x32.size a ≤ S1x32.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S2000000x32.size a
  hwx0_0 : ∀ i : grid0.Coords, EltTy.bits .f32 = 32 ∨ (Rect.block (s := S2000000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S2000000x1.size a
  hwx0_1 : ∀ i : grid0.Coords, EltTy.bits .i32 = 32 ∨ (Rect.block (s := S2000000x1) S5000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S2000000x32.size a
  hwx1_0 : ∀ i : grid1.Coords, EltTy.bits .f32 = 32 ∨ (Rect.block (s := S2000000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S2000000x1.size a
  hwx1_1 : ∀ i : grid1.Coords, EltTy.bits .i32 = 32 ∨ (Rect.block (s := S2000000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x32.size a ≤ S16x32.size a
  hwx1_3 : ∀ i : grid1.Coords, EltTy.bits .f32 = 32 ∨ (Rect.block (s := S16x32) S16x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S2000000x32.size a
  hwx1_6 : ∀ i : grid1.Coords, EltTy.bits .f32 = 32 ∨ (Rect.block (s := S2000000x32) S5000x32.size (cc1_transform_6 i) (hinb1_6 i)).WholeWords (EltTy.packing .f32)

variable [Facts₀]

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S16x32.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S16x32.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S16x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S16x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2000000x32 : Shape := ⟨2, ![2000000, 32]⟩
abbrev S2000000 : Shape := ⟨1, ![2000000]⟩
abbrev S1x32 : Shape := ⟨2, ![1, 32]⟩
abbrev S_ : Shape := ⟨0, ![]⟩
abbrev S16 : Shape := ⟨1, ![16]⟩
abbrev S2000000x1 : Shape := ⟨2, ![2000000, 1]⟩
abbrev S16x1 : Shape := ⟨2, ![16, 1]⟩
abbrev S16x32 : Shape := ⟨2, ![16, 32]⟩

abbrev nBuf : Space → Nat
  | .hbm => 58
  | .vmem => 0
  | .smem => 0
  | _ => 0

abbrev bufTy : (tb : Table) → Fin (tcTables nBuf tb) → BufTy
  | .hbm, ⟨0, _⟩ => ⟨S2000000x32, .f32⟩
  | .hbm, ⟨1, _⟩ => ⟨S2000000, .i32⟩
  | .hbm, ⟨2, _⟩ => ⟨S1x32, .f32⟩
  | .hbm, ⟨3, _⟩ => ⟨S1x32, .f32⟩
  | .hbm, ⟨4, _⟩ => ⟨S_, .f32⟩
  | .hbm, ⟨5, _⟩ => ⟨S2000000, .f32⟩
  | .hbm, ⟨6, _⟩ => ⟨S_, .f32⟩
  | .hbm, ⟨7, _⟩ => ⟨S16, .f32⟩
  | .hbm, ⟨8, _⟩ => ⟨S2000000x1, .i32⟩
  | .hbm, ⟨9, _⟩ => ⟨S16, .f32⟩
  | .hbm, ⟨10, _⟩ => ⟨S16x1, .f32⟩
  | .hbm, ⟨11, _⟩ => ⟨S_, .f32⟩
  | .hbm, ⟨12, _⟩ => ⟨S16x1, .f32⟩
  | .hbm, ⟨13, _⟩ => ⟨S16x1, .f32⟩
  | .hbm, ⟨14, _⟩ => ⟨S_, .f32⟩
  | .hbm, ⟨15, _⟩ => ⟨S16x32, .f32⟩
  | .hbm, ⟨16, _⟩ => ⟨S2000000x1, .i32⟩
  | .hbm, ⟨17, _⟩ => ⟨S16x32, .f32⟩
  | .hbm, ⟨18, _⟩ => ⟨S16x32, .f32⟩
  | .hbm, ⟨19, _⟩ => ⟨S16x32, .f32⟩
  | .hbm, ⟨20, _⟩ => ⟨S_, .i32⟩
  | .hbm, ⟨21, _⟩ => ⟨S2000000, .i32⟩
  | .hbm, ⟨22, _⟩ => ⟨S2000000, .i1⟩
  | .hbm, ⟨23, _⟩ => ⟨S_, .i32⟩
  | .hbm, ⟨24, _⟩ => ⟨S2000000, .i32⟩
  | .hbm, ⟨25, _⟩ => ⟨S2000000, .i32⟩
  | .hbm, ⟨26, _⟩ => ⟨S2000000, .i32⟩
  | .hbm, ⟨27, _⟩ => ⟨S2000000x1, .i32⟩
  | .hbm, ⟨28, _⟩ => ⟨S2000000x32, .f32⟩
  | .hbm, ⟨29, _⟩ => ⟨S2000000x32, .f32⟩
  | .hbm, ⟨30, _⟩ => ⟨S2000000x32, .f32⟩
  | .hbm, ⟨31, _⟩ => ⟨S_, .f32⟩
  | .hbm, ⟨32, _⟩ => ⟨S16x32, .f32⟩
  | .hbm, ⟨33, _⟩ => ⟨S2000000x1, .i32⟩
  | .hbm, ⟨34, _⟩ => ⟨S16x32, .f32⟩
  | .hbm, ⟨35, _⟩ => ⟨S16x32, .f32⟩
  | .hbm, ⟨36, _⟩ => ⟨S16x32, .f32⟩
  | .hbm, ⟨37, _⟩ => ⟨S_, .f32⟩
  | .hbm, ⟨38, _⟩ => ⟨S16x32, .f32⟩
  | .hbm, ⟨39, _⟩ => ⟨S16x32, .f32⟩
  | .hbm, ⟨40, _⟩ => ⟨S16x32, .f32⟩
  | .hbm, ⟨41, _⟩ => ⟨S_, .f32⟩
  | .hbm, ⟨42, _⟩ => ⟨S16x32, .f32⟩
  | .hbm, ⟨43, _⟩ => ⟨S16x32, .f32⟩
  | .hbm, ⟨44, _⟩ => ⟨S_, .i32⟩
  | .hbm, ⟨45, _⟩ => ⟨S2000000, .i32⟩
  | .hbm, ⟨46, _⟩ => ⟨S2000000, .i1⟩
  | .hbm, ⟨47, _⟩ => ⟨S_, .i32⟩
  | .hbm, ⟨48, _⟩ => ⟨S2000000, .i32⟩
  | .hbm, ⟨49, _⟩ => ⟨S2000000, .i32⟩
  | .hbm, ⟨50, _⟩ => ⟨S2000000, .i32⟩
  | .hbm, ⟨51, _⟩ => ⟨S2000000x1, .i32⟩
  | .hbm, ⟨52, _⟩ => ⟨S2000000x32, .f32⟩
  | .hbm, ⟨53, _⟩ => ⟨S2000000x32, .f32⟩
  | .hbm, ⟨54, _⟩ => ⟨S2000000x32, .f32⟩
  | .hbm, ⟨55, _⟩ => ⟨S2000000x32, .f32⟩
  | .hbm, ⟨56, _⟩ => ⟨S2000000x32, .f32⟩
  | .hbm, ⟨57, _⟩ => ⟨S2000000x32, .f32⟩
  | _, _ => ⟨S2000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S_S16 : S_.BroadcastsInDim S16 (![] : Fin 0 → Fin S16.rank)
  bcast_S2000000_S2000000x1_0 : S2000000.BroadcastsInDim S2000000x1 (![0] : Fin 1 → Fin S2000000x1.rank)
  bcast_S16_S16x1_0 : S16.BroadcastsInDim S16x1 (![0] : Fin 1 → Fin S16x1.rank)
  bcast_S_S16x1 : S_.BroadcastsInDim S16x1 (![] : Fin 0 → Fin S16x1.rank)
  bcast_S_S16x32 : S_.BroadcastsInDim S16x32 (![] : Fin 0 → Fin S16x32.rank)
  bcast_S16x1_S16x32_0_1 : S16x1.BroadcastsInDim S16x32 (![0, 1] : Fin 2 → Fin S16x32.rank)
  bcast_S1x32_S2000000x32_0_1 : S1x32.BroadcastsInDim S2000000x32 (![0, 1] : Fin 2 → Fin S2000000x32.rank)
  scatter_S16_S2000000x1_S2000000_n_0_0_1_wf : ScatterDims.WF S16 S2000000x1 S2000000 [] [0] [0] 1
  scatter_S16x32_S2000000x1_S2000000x32_1_0_0_1_wf : ScatterDims.WF S16x32 S2000000x1 S2000000x32 [1] [0] [0] 1
  gather_S16x32_S2000000x1_S2000000x32_1_0_n_n_0_1_132_wf : GatherDims.WF S16x32 S2000000x1 S2000000x32 [1] [0] [] [0] [] 1 ![1, 32]

variable [Facts₀]

def scatter_S16_S2000000x1_S2000000_n_0_0_1 : ScatterDims S16 S2000000x1 S2000000 where
  updateWindowDims := []
  insertedWindowDims := [0]
  scatterDimsToOperandDims := [0]
  indexVectorDim := 1
  wf := scatter_S16_S2000000x1_S2000000_n_0_0_1_wf
def scatter_S16x32_S2000000x1_S2000000x32_1_0_0_1 : ScatterDims S16x32 S2000000x1 S2000000x32 where
  updateWindowDims := [1]
  insertedWindowDims := [0]
  scatterDimsToOperandDims := [0]
  indexVectorDim := 1
  wf := scatter_S16x32_S2000000x1_S2000000x32_1_0_0_1_wf
def gather_S16x32_S2000000x1_S2000000x32_1_0_n_n_0_1_132 : GatherDims S16x32 S2000000x1 S2000000x32 where
  offsetDims := [1]
  collapsedSliceDims := [0]
  operandBatchingDims := []
  startIndicesBatchingDims := []
  startIndexMap := [0]
  indexVectorDim := 1
  sliceSizes := ![1, 32]
  wf := gather_S16x32_S2000000x1_S2000000x32_1_0_n_n_0_1_132_wf

class Facts : Prop extends Facts₀ where

variable [Facts]
-- ==== Proof.Spec.lean ====
/-
  The specification both programs are read against: per-instance normalisation of a point cloud.

  A point `n` (of 2,000,000) carries a feature row `x n` (32 channels) and an instance id `b n` (a 32-bit word);
  the instances are `0 … 15`. For an instance `c` and a channel `j`:
    * `seg b f c` is the sum of `f n` over the points of instance `c`;
    * `kmax b c` is the number of its points, or `1` when it has none;
    * `mean` is the instance's mean, `ex2` the mean of the squares;
    * the variance is written in two ways: `varK`, the mean of the squares less the square of the mean, clipped at
      zero (what the kernel computes from its two running sums), and `varR`, the mean of the squared deviations from
      the mean (what the reference computes);
    * `istd v = 1 / sqrt (v + ε)`;
    * the result at `(n, j)` is `(x n j - mean) * istd var * w j + β j` with the mean and the variance of the point's own
      instance `cls (b n)`.
  `outK` and `outR` are that result with the two variances. Over finite features the two variances are the same
  real number (Proof/Algebra.lean), so the two results are one function.
-/
import Idealize.ShloMosaic.PureOps.Ideal
import Idealize.ShloMosaic.PureOps.Ideal.Laws
import Idealize.ShloMosaic.Lib.ValueIdx

noncomputable section

namespace Cert.InstNorm

open Idealize.ShloMosaic Idealize.ShloMosaic.ValueIdx

/-- The number of points. -/
abbrev NP : Nat := 2000000

/-- The float `1.0` as both programs spell it. -/
abbrev oneW : EReal := Ideal.ofBits .f32 0x3F800000#32
/-- The float `1e-8` (rounded to f32) as both programs spell it. -/
abbrev epsW : EReal := Ideal.ofBits .f32 0x322BCC77#32

/-- `1.0` denotes the real one. -/
theorem oneW_eq : oneW = 1 := by
  simp [oneW, Ideal.ofBits, Ideal.ieee, -EReal.coe_mul]; norm_num

/-- The instance a word names: its value modulo 16 (the word itself when it is one of `0 … 15`). -/
def cls (v : BitVec 32) : Fin 16 := ⟨v.toNat % 16, Nat.mod_lt _ (by decide)⟩

theorem cls_ofNat (c : Fin 16) : cls (BitVec.ofNat 32 c.val) = c := by
  apply Fin.ext
  show (BitVec.ofNat 32 c.val).toNat % 16 = c.val
  have := c.isLt
  rw [BitVec.toNat_ofNat]
  omega

/-- The sum of `f` over the points of instance `c`. -/
def seg (b : Fin NP → BitVec 32) (f : Fin NP → EReal) (c : Fin 16) : EReal :=
  ∑ n, if b n = BitVec.ofNat 32 c.val then f n else 0

/-- The sum of `f` over the rows of one 5000-row block that belong to instance `c`. -/
def blkSeg (b : Fin 5000 → BitVec 32) (f : Fin 5000 → EReal) (c : Fin 16) : EReal :=
  ∑ r, if b r = BitVec.ofNat 32 c.val then f r else 0

/-- The number of points of instance `c`, at least one. -/
def kmax (b : Fin NP → BitVec 32) (c : Fin 16) : EReal := max (seg b (fun _ => 1) c) oneW

/-- The mean of channel `j` over instance `c`. -/
def mean (x : Fin NP → Fin 32 → EReal) (b : Fin NP → BitVec 32) (c : Fin 16) (j : Fin 32) : EReal :=
  Ideal.div (seg b (fun n => x n j) c) (kmax b c)

/-- The mean of the squares of channel `j` over instance `c`. -/
def ex2 (x : Fin NP → Fin 32 → EReal) (b : Fin NP → BitVec 32) (c : Fin 16) (j : Fin 32) : EReal :=
  Ideal.div (seg b (fun n => x n j * x n j) c) (kmax b c)

/-- The variance as the mean of the squares less the square of the mean, clipped at zero. -/
def varK (x : Fin NP → Fin 32 → EReal) (b : Fin NP → BitVec 32) (c : Fin 16) (j : Fin 32) : EReal :=
  max (ex2 x b c j - mean x b c j * mean x b c j) 0

/-- A point's deviation from the mean of its own instance. -/
def dev (x : Fin NP → Fin 32 → EReal) (b : Fin NP → BitVec 32) (n : Fin NP) (j : Fin 32) : EReal :=
  x n j - mean x b (cls (b n)) j

/-- The variance as the mean of the squared deviations. -/
def varR (x : Fin NP → Fin 32 → EReal) (b : Fin NP → BitVec 32) (c : Fin 16) (j : Fin 32) : EReal :=
  Ideal.div (seg b (fun n => dev x b n j * dev x b n j) c) (kmax b c)

/-- `1 / sqrt (v + ε)`. -/
def istd (v : EReal) : EReal := Ideal.div oneW (Ideal.sqrt (v + epsW))

/-- The normalised, scaled and shifted feature, with the variance computed from the two running sums. -/
def outK (x : Fin NP → Fin 32 → EReal) (b : Fin NP → BitVec 32) (w β : Fin 32 → EReal) (n : Fin NP) (j : Fin 32) : EReal :=
  dev x b n j * istd (varK x b (cls (b n)) j) * w j + β j

/-- The same with the variance computed from the squared deviations. -/
def outR (x : Fin NP → Fin 32 → EReal) (b : Fin NP → BitVec 32) (w β : Fin 32 → EReal) (n : Fin NP) (j : Fin 32) : EReal :=
  dev x b n j * istd (varR x b (cls (b n)) j) * w j + β j

end Cert.InstNorm

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.R0PiecesA.lean ====
/-
  The resetting case of the reduction kernel's body (the first grid point): the three running-sum buffers are zeroed and
  then gain the block's rows, so row `k` of each ends at the block's sum over instance `k` alone.

  The body stores a zero block into each buffer and then, for the instances `0 … 15` in turn, loads row `n`, adds to it
  the block's column sums over the rows whose id is `n` (the rows are selected by multiplying with the indicator of
  "id = n", which is `1` or `0`), and stores the row back. So each buffer is written by seventeen stores, the zero
  block first and then one row at a time. Reading the stores back, last first:
    * a row store is the last store that touches its row, and no other row (`canon_row_hit`, `canon_row_miss`);
    * after the zero block and the stores of rows `0 … n - 1`, every row from `n` on still reads zero (`Upto`), so the
      load that precedes the store of row `n` reads zeros (`Upto.load`) and the store writes `0 +` the block's sum;
    * a product with the indicator is the entry or zero, and the sum over the block's 5000 rows of those is the
      sum over the rows of the instance (`rowPay_apply`, `cntPay_apply`).
  The sixteen row stores are one induction step each (`Upto.step`), applied sixteen times to the list of stores.
-/
import proofs.«417694_j75883482186010_3_alg».proof.Proof.Spec
import proofs.«417694_j75883482186010_3_alg».proof.Proof.LibRowCasts
import proofs.«417694_j75883482186010_3_alg».proof.Proof.Gen.KernelIdeal.Frame
import Idealize.ShloMosaic.Lib.Pipeline.Value

set_option maxRecDepth 16384

noncomputable section

namespace Cert.KernelIdeal.R0

open Idealize.ShloMosaic Idealize.ShloMosaic.TcCoe Idealize.SL.Sem Idealize.ShloMosaic.ValueIdx
open Cert.KernelIdeal Cert.KernelIdeal.Gen Cert.InstNorm

variable (c : Dev nD) (i : grid0.Coords) (arg1 : Memref sig .tc .vmem S5000x32 .f32) (harg1 : arg1.IsWhole) (arg2 : Memref sig .tc .vmem S5000x1 .i32) (harg2 : arg2.IsWhole) (arg3 : Memref sig .tc .vmem S16x32 .f32) (harg3 : arg3.IsWhole) (arg4 : Memref sig .tc .vmem S16x32 .f32) (harg4 : arg4.IsWhole) (arg5 : Memref sig .tc .vmem S16x1 .f32) (harg5 : arg5.IsWhole) (hc0 : cond0_0 i)
  (x0 : Vec Ideal S5000x32 .f32) (x1 : Vec Ideal S5000x1 .i32)

namespace CaseA

open Idealize.ShloMosaic.RowCasts

/-! ## The block's arithmetic, read at an index -/

/-- The indicator of "the id is `cst`" as the kernel computes it: compare, widen the bit, convert to a float. -/
theorem mask_apply (ids : IVec ⟨2, ![5000, 1]⟩ 32) (cst : BitVec 32) (h : 1 < 32) (r : Fin 5000) :
    (sitofp .f32 (extui 32 (cmpi .eq ids (broadcast ⟨2, ![5000, 1]⟩ cst)) h) : FVec Ideal ⟨2, ![5000, 1]⟩ .f32)
        (ix2 r (0 : Fin 1))
      = if ids (ix2 r 0) = cst then 1 else 0 := by
  show ((((IntOp.cmpi .eq (ids (ix2 r 0)) cst).setWidth 32).toInt : ℝ) : EReal) = _
  unfold IntOp.cmpi
  by_cases e : ids (ix2 r 0) = cst
  · have hb : (ids (ix2 r 0) == cst) = true := beq_iff_eq.mpr e
    have h1 : ((BitVec.ofBool true).setWidth 32).toInt = 1 := by decide
    rw [if_pos e]; dsimp only; rw [hb, h1, Int.cast_one, EReal.coe_one]
  · have hb : (ids (ix2 r 0) == cst) = false := beq_eq_false_iff_ne.mpr e
    have h0 : ((BitVec.ofBool false).setWidth 32).toInt = 0 := by decide
    rw [if_neg e]; dsimp only; rw [hb, h0, Int.cast_zero, EReal.coe_zero]

/-- A row vector `[1, b]` read as the vector `[b]`. -/
theorem shapeCast_row_to_vec {α : Type} {b : ℕ} (w : (⟨2, ![1, b]⟩ : Shape).Idx → α)
    (h : (⟨2, ![1, b]⟩ : Shape).ShapeCasts ⟨1, ![b]⟩) (j : Fin b) :
    shapeCast ⟨1, ![b]⟩ w h (ix1 j) = w (ix2 (0 : Fin 1) j) :=
  shapeCast_apply w h _ _ (by
    rw [Shape.rowMajor_val_two, Shape.rowMajor_val_one]
    show 0 * b + j.val = j.val
    omega)

/-- The vector `[b]` read as a row vector `[1, b]`. -/
theorem shapeCast_vec_to_row {α : Type} {b : ℕ} (v : (⟨1, ![b]⟩ : Shape).Idx → α)
    (h : (⟨1, ![b]⟩ : Shape).ShapeCasts ⟨2, ![1, b]⟩) (u : Fin 1) (j : Fin b) :
    shapeCast ⟨2, ![1, b]⟩ v h (ix2 u j) = v (ix1 j) :=
  shapeCast_apply v h _ _ (by
    rw [Shape.rowMajor_val_two, Shape.rowMajor_val_one]
    show j.val = u.val * b + j.val
    have := u.isLt
    have : u.val = 0 := by omega
    rw [this]; omega)

/-- The sum over the rows of a `[5000, 32]` block times a column mask, at lane `j`. -/
theorem maskedSum_apply (v : FVec Ideal ⟨2, ![5000, 32]⟩ .f32) (msk : FVec Ideal ⟨2, ![5000, 1]⟩ .f32)
    (hb : (⟨2, ![5000, 1]⟩ : Shape).Broadcasts ⟨2, ![5000, 32]⟩)
    (hr : (⟨2, ![5000, 32]⟩ : Shape).Reduces [0] ⟨1, ![32]⟩)
    (hφ : FKind.Formats .f32) (hacc : (0x00000000#32 : BitVec 32) = 0x00000000#32) (j : Fin 32) :
    multiReduction .add [0] ⟨1, ![32]⟩ (mulf v (broadcastTo ⟨2, ![5000, 32]⟩ msk hb)) 0x00000000#32 hr hφ hacc (ix1 j)
      = ∑ r : Fin 5000, v (ix2 r j) * msk (ix2 r (0 : Fin 1)) := by
  refine (Ideal.multiReduction_add_single _ 0x00000000#32 hr hφ hacc (ix1 j)).trans ?_
  show ∑ r : Fin 5000, _ = _
  refine Finset.sum_congr rfl fun r _ => ?_
  have e : hr.lift (ix1 j) r = ix2 r j := by
    funext c; apply Fin.ext
    match c with
    | ⟨0, _⟩ => rfl
    | ⟨1, _⟩ => rfl
  rw [e, mulf_apply, broadcastTo_column_apply]

/-- The sum of a column mask `[5000, 1]` over its rows. -/
theorem maskCount_apply (msk : FVec Ideal ⟨2, ![5000, 1]⟩ .f32)
    (hr : (⟨2, ![5000, 1]⟩ : Shape).Reduces [0] ⟨1, ![1]⟩)
    (hφ : FKind.Formats .f32) (hacc : (0x00000000#32 : BitVec 32) = 0x00000000#32) (u : Fin 1) :
    multiReduction .add [0] ⟨1, ![1]⟩ msk 0x00000000#32 hr hφ hacc (ix1 u)
      = ∑ r : Fin 5000, msk (ix2 r (0 : Fin 1)) := by
  refine (Ideal.multiReduction_add_single _ 0x00000000#32 hr hφ hacc (ix1 u)).trans ?_
  show ∑ r : Fin 5000, _ = _
  refine Finset.sum_congr rfl fun r _ => ?_
  have e : hr.lift (ix1 u) r = ix2 r (0 : Fin 1) := by
    funext c; apply Fin.ext
    match c with
    | ⟨0, _⟩ => rfl
    | ⟨1, _⟩ => show (u : ℕ) = 0; have := u.isLt; omega
  rw [e]

/-! ## A buffer of 16 rows filled row by row after a reset -/

section Rows
variable {b : ℕ}

theorem hz2 : (![0, 0] : Fin 2 → Nat) = fun _ => 0 := funext fun a => by fin_cases a <;> rfl

/-- Row `n` of the buffer, as the rectangle a row store writes. Under it, as the last store, the buffer reads the
    store's payload; -/
theorem canon_row_hit (n : ℕ) (inb : ∀ a, (![n, 0] : Fin 2 → Nat) a + (![1, b] : Fin 2 → Nat) a ≤ (⟨2, ![16, b]⟩ : Shape).size a)
    (w : (Rect.unit (s := ⟨2, ![16, b]⟩) ![n, 0] ![1, b] inb).shape.Idx → Elt Ideal .f32)
    (L : List (View.Piece (Elt Ideal) ⟨2, ![16, b]⟩ .f32)) (k : Fin 16) (hk : k.val = n) (j : Fin b) :
    View.canon (⟨Rect.unit ![n, 0] ![1, b] inb, w⟩ :: L) (ix2 k j) = w (ix2 (0 : Fin 1) j) := by
  have e : (Rect.unit (s := ⟨2, ![16, b]⟩) ![n, 0] ![1, b] inb).emb (ix2 (0 : Fin 1) j) = ix2 k j := by
    funext a; apply Fin.ext
    match a with
    | ⟨0, _⟩ => show n + 1 * 0 = k.val; omega
    | ⟨1, _⟩ => show 0 + 1 * j.val = j.val; omega
  rw [← e]
  exact View.canon_cons_emb _ w L _

/-- off it, what the earlier stores left. -/
theorem canon_row_miss (n : ℕ) (inb : ∀ a, (![n, 0] : Fin 2 → Nat) a + (![1, b] : Fin 2 → Nat) a ≤ (⟨2, ![16, b]⟩ : Shape).size a)
    (w : (Rect.unit (s := ⟨2, ![16, b]⟩) ![n, 0] ![1, b] inb).shape.Idx → Elt Ideal .f32)
    (L : List (View.Piece (Elt Ideal) ⟨2, ![16, b]⟩ .f32)) (k : Fin 16) (hk : k.val ≠ n) (j : Fin b) :
    View.canon (⟨Rect.unit ![n, 0] ![1, b] inb, w⟩ :: L) (ix2 k j) = View.canon L (ix2 k j) := by
  refine View.canon_cons_of_not_mem _ L ?_
  rw [Rect.mem_set_unit]
  intro h
  have h0 := h 0
  change n ≤ k.val ∧ k.val < n + 1 at h0
  omega

/-- The state of the buffer after the reset and the stores of rows `0 … n - 1`: row `k < n` reads `G k`, the rows from
    `n` on read zero. -/
def Upto (G : Fin 16 → Fin b → EReal) (n : ℕ) (L : List (View.Piece (Elt Ideal) ⟨2, ![16, b]⟩ .f32)) : Prop :=
  ∀ (k : Fin 16) (j : Fin b), View.canon L (ix2 k j) = (if k.val < n then G k j else 0 : EReal)

/-- After the reset alone every row reads zero. -/
theorem Upto.base (G : Fin 16 → Fin b → EReal)
    (inb : ∀ a, (![0, 0] : Fin 2 → Nat) a + (⟨2, ![16, b]⟩ : Shape).size a ≤ (⟨2, ![16, b]⟩ : Shape).size a)
    (w : (⟨2, ![16, b]⟩ : Shape).Idx → Elt Ideal .f32) (hw : ∀ y, w y = (0 : EReal)) :
    Upto G 0 [⟨Rect.unit ![0, 0] (⟨2, ![16, b]⟩ : Shape).size inb, w⟩] := by
  intro k j
  rw [View.canon_unit_zero hz2 inb w, hw, if_neg (by omega)]

/-- The row load that precedes the store of row `n` reads zeros. -/
theorem Upto.load {G : Fin 16 → Fin b → EReal} {n : ℕ} {L : List (View.Piece (Elt Ideal) ⟨2, ![16, b]⟩ .f32)}
    (hL : Upto G n L) {sig : RefSig} {κ : Kind} {sp : Space} (v : View sig κ sp ⟨2, ![16, b]⟩ .f32) (hn : n < 16)
    (inb : ∀ a, (![n, 0] : Fin 2 → Nat) a + (![1, b] : Fin 2 → Nat) a ≤ (⟨2, ![16, b]⟩ : Shape).size a) (j : Fin b) :
    v.readCov L (Rect.unit (s := ⟨2, ![16, b]⟩) ![n, 0] ![1, b] inb).toLoadRect (ix2 (0 : Fin 1) j) = (0 : EReal) := by
  rw [View.readCov_eq_canon']
  have e : (Rect.unit (s := ⟨2, ![16, b]⟩) ![n, 0] ![1, b] inb).toLoadRect.idx (ix2 (0 : Fin 1) j) = ix2 (⟨n, hn⟩ : Fin 16) j := by
    funext a; apply Fin.ext
    match a with
    | ⟨0, _⟩ => show n + 1 * 0 = n; omega
    | ⟨1, _⟩ => show 0 + 1 * j.val = j.val; omega
  show View.canon L ((Rect.unit (s := ⟨2, ![16, b]⟩) ![n, 0] ![1, b] inb).toLoadRect.idx (ix2 (0 : Fin 1) j)) = 0
  rw [e, hL, if_neg (by simp)]

/-- The store of row `n`, whose payload at lane `j` is `G n j` given the state before it. -/
theorem Upto.step {G : Fin 16 → Fin b → EReal} {n : ℕ} (hn : n < 16) {L : List (View.Piece (Elt Ideal) ⟨2, ![16, b]⟩ .f32)}
    (hL : Upto G n L)
    (inb : ∀ a, (![n, 0] : Fin 2 → Nat) a + (![1, b] : Fin 2 → Nat) a ≤ (⟨2, ![16, b]⟩ : Shape).size a)
    (w : (Rect.unit (s := ⟨2, ![16, b]⟩) ![n, 0] ![1, b] inb).shape.Idx → Elt Ideal .f32)
    (hw : Upto G n L → ∀ j : Fin b, w (ix2 (0 : Fin 1) j) = G ⟨n, hn⟩ j) :
    Upto G (n + 1) (⟨Rect.unit ![n, 0] ![1, b] inb, w⟩ :: L) := by
  intro k j
  by_cases hk : k.val = n
  · rw [canon_row_hit n inb w L k hk j, if_pos (by omega), hw hL j]
    exact congrArg (fun t => G t j) (Fin.ext hk.symm)
  · rw [canon_row_miss n inb w L k hk j, hL k j]
    by_cases h1 : k.val < n
    · rw [if_pos h1, if_pos (by omega)]
    · rw [if_neg h1, if_neg (by omega)]

/-- After all sixteen rows, row `k` reads `G k`. -/
theorem Upto.final {G : Fin 16 → Fin b → EReal} {L : List (View.Piece (Elt Ideal) ⟨2, ![16, b]⟩ .f32)}
    (hL : Upto G 16 L) (k : Fin 16) (j : Fin b) : View.canon L (ix2 k j) = G k j :=
  (hL k j).trans (if_pos k.isLt)

end Rows

/-! ## What a row store writes, read at a lane -/

/-- The payload of the store of a row of sums: the row as loaded plus the block's masked column sums. Where the
    loaded row is zero, lane `j` is the sum of `x` over the rows whose id is `cst`. -/
theorem rowPay_apply {x : FVec Ideal ⟨2, ![5000, 32]⟩ .f32} {ids : IVec ⟨2, ![5000, 1]⟩ 32} {cst : BitVec 32}
    {ld : (⟨2, ![1, 32]⟩ : Shape).Idx → Elt Ideal .f32}
    {h1 h1' : (⟨2, ![1, 32]⟩ : Shape).ShapeCasts ⟨1, ![32]⟩} {h2 h2' : (⟨1, ![32]⟩ : Shape).ShapeCasts ⟨2, ![1, 32]⟩}
    {hb : (⟨2, ![5000, 1]⟩ : Shape).Broadcasts ⟨2, ![5000, 32]⟩}
    {hr : (⟨2, ![5000, 32]⟩ : Shape).Reduces [0] ⟨1, ![32]⟩}
    {hφ : FKind.Formats .f32} {hacc : (0x00000000#32 : BitVec 32) = 0x00000000#32} {h32 : 1 < 32}
    (j : Fin 32) (hld : ld (ix2 (0 : Fin 1) j) = (0 : EReal)) :
    shapeCast ⟨2, ![1, 32]⟩ (addf (F := Ideal) (shapeCast ⟨1, ![32]⟩ ld h1)
      (shapeCast ⟨1, ![32]⟩ (shapeCast ⟨2, ![1, 32]⟩
        (multiReduction .add [0] ⟨1, ![32]⟩
          (mulf x (broadcastTo ⟨2, ![5000, 32]⟩
            (sitofp .f32 (extui 32 (cmpi .eq ids (broadcast ⟨2, ![5000, 1]⟩ cst)) h32)) hb))
          0x00000000#32 hr hφ hacc) h2) h1')) h2' (ix2 (0 : Fin 1) j)
      = ∑ r : Fin 5000, if ids (ix2 r (0 : Fin 1)) = cst then x (ix2 r j) else 0 := by
  rw [shapeCast_vec_to_row, addf_apply, shapeCast_row_to_vec, shapeCast_row_to_vec, shapeCast_vec_to_row,
    maskedSum_apply, hld, zero_add]
  refine Finset.sum_congr rfl fun r _ => ?_
  rw [mask_apply, mul_ite, mul_one, mul_zero]

/-- The payload of the store of a row of the counts: the entry as loaded plus the number of the block's rows whose id
    is `cst`. -/
theorem cntPay_apply {ids : IVec ⟨2, ![5000, 1]⟩ 32} {cst : BitVec 32}
    {ld : (⟨2, ![1, 1]⟩ : Shape).Idx → Elt Ideal .f32}
    {g1 g1' : (⟨2, ![1, 1]⟩ : Shape).ShapeCasts ⟨1, ![1]⟩} {g2 g2' : (⟨1, ![1]⟩ : Shape).ShapeCasts ⟨2, ![1, 1]⟩}
    {hr : (⟨2, ![5000, 1]⟩ : Shape).Reduces [0] ⟨1, ![1]⟩}
    {hφ : FKind.Formats .f32} {hacc : (0x00000000#32 : BitVec 32) = 0x00000000#32} {h32 : 1 < 32}
    (u : Fin 1) (hld : ld (ix2 (0 : Fin 1) u) = (0 : EReal)) :
    shapeCast ⟨2, ![1, 1]⟩ (addf (F := Ideal) (shapeCast ⟨1, ![1]⟩ ld g1)
      (shapeCast ⟨1, ![1]⟩ (shapeCast ⟨2, ![1, 1]⟩
        (multiReduction .add [0] ⟨1, ![1]⟩
          (sitofp .f32 (extui 32 (cmpi .eq ids (broadcast ⟨2, ![5000, 1]⟩ cst)) h32))
          0x00000000#32 hr hφ hacc) g2) g1')) g2' (ix2 (0 : Fin 1) u)
      = ∑ r : Fin 5000, if ids (ix2 r (0 : Fin 1)) = cst then (1 : EReal) else 0 := by
  rw [shapeCast_vec_to_row, addf_apply, shapeCast_row_to_vec, shapeCast_row_to_vec, shapeCast_vec_to_row,
    maskCount_apply, hld, zero_add]
  refine Finset.sum_congr rfl fun r _ => ?_
  rw [mask_apply]

/-! ## The block loads read the blocks -/

theorem load_x (inb : ∀ a, (![0, 0] : Fin 2 → Nat) a + S5000x32.size a ≤ S5000x32.size a) :
    View.readAt (Elt Ideal) arg1.view (Rect.unit ![0, 0] S5000x32.size inb).toLoadRect (harg1.unread x0) = x0 := by
  simp only [View.readAt_eq_ld, harg1.read_unread, View.ld_unit_zero (S := S5000x32) hz2]

theorem load_ids (inb : ∀ a, (![0, 0] : Fin 2 → Nat) a + S5000x1.size a ≤ S5000x1.size a) :
    View.readAt (Elt Ideal) arg2.view (Rect.unit ![0, 0] S5000x1.size inb).toLoadRect (harg2.unread x1) = x1 := by
  simp only [View.readAt_eq_ld, harg2.read_unread, View.ld_unit_zero (S := S5000x1) hz2]

/-! ## The masked sums of the loaded block are the block's per-instance sums -/

theorem sum_eq_blkSeg (n : Fin 16) (j : Fin 32)
    (inb0 : ∀ a, (![0, 0] : Fin 2 → Nat) a + S5000x32.size a ≤ S5000x32.size a)
    (inb1 : ∀ a, (![0, 0] : Fin 2 → Nat) a + S5000x1.size a ≤ S5000x1.size a) :
    (∑ r : Fin 5000,
      if k0_pay8 (F := Ideal) (View.readAt (Elt Ideal) arg2.view (Rect.unit ![0, 0] S5000x1.size inb1).toLoadRect (harg2.unread x1))
          (ix2 r (0 : Fin 1)) = BitVec.ofNat 32 n.val
      then View.readAt (Elt Ideal) arg1.view (Rect.unit ![0, 0] S5000x32.size inb0).toLoadRect (harg1.unread x0) (ix2 r j)
      else (0 : EReal))
      = blkSeg (fun r => x1 (ix2 r 0)) (fun r => x0 (ix2 r j)) n := by
  rw [load_x arg1 harg1 x0, load_ids arg2 harg2 x1]
  exact congrArg (fun ids : IVec S5000x1 32 =>
    ∑ r : Fin 5000, if ids (ix2 r (0 : Fin 1)) = BitVec.ofNat 32 n.val then x0 (ix2 r j) else (0 : EReal)) (shapeCast_self x1 _)

theorem sumsq_eq_blkSeg (n : Fin 16) (j : Fin 32)
    (inb0 : ∀ a, (![0, 0] : Fin 2 → Nat) a + S5000x32.size a ≤ S5000x32.size a)
    (inb1 : ∀ a, (![0, 0] : Fin 2 → Nat) a + S5000x1.size a ≤ S5000x1.size a) :
    (∑ r : Fin 5000,
      if k0_pay8 (F := Ideal) (View.readAt (Elt Ideal) arg2.view (Rect.unit ![0, 0] S5000x1.size inb1).toLoadRect (harg2.unread x1))
          (ix2 r (0 : Fin 1)) = BitVec.ofNat 32 n.val
      then k0_pay7 (F := Ideal) (View.readAt (Elt Ideal) arg1.view (Rect.unit ![0, 0] S5000x32.size inb0).toLoadRect (harg1.unread x0)) (ix2 r j)
      else (0 : EReal))
      = blkSeg (fun r => x1 (ix2 r 0)) (fun r => x0 (ix2 r j) * x0 (ix2 r j)) n := by
  rw [load_x arg1 harg1 x0, load_ids arg2 harg2 x1]
  exact congrArg (fun ids : IVec S5000x1 32 =>
    ∑ r : Fin 5000, if ids (ix2 r (0 : Fin 1)) = BitVec.ofNat 32 n.val then x0 (ix2 r j) * x0 (ix2 r j) else (0 : EReal)) (shapeCast_self x1 _)

theorem cnt_eq_blkSeg (n : Fin 16)
    (inb1 : ∀ a, (![0, 0] : Fin 2 → Nat) a + S5000x1.size a ≤ S5000x1.size a) :
    (∑ r : Fin 5000,
      if k0_pay8 (F := Ideal) (View.readAt (Elt Ideal) arg2.view (Rect.unit ![0, 0] S5000x1.size inb1).toLoadRect (harg2.unread x1))
          (ix2 r (0 : Fin 1)) = BitVec.ofNat 32 n.val
      then (1 : EReal) else 0)
      = blkSeg (fun r => x1 (ix2 r 0)) (fun _ => 1) n := by
  rw [load_ids arg2 harg2 x1]
  exact congrArg (fun ids : IVec S5000x1 32 =>
    ∑ r : Fin 5000, if ids (ix2 r (0 : Fin 1)) = BitVec.ofNat 32 n.val then (1 : EReal) else 0) (shapeCast_self x1 _)

/-! ## One row store, whole: its payload at a lane is the block's sum over its instance -/

theorem row2_done {G : Fin 16 → Fin 32 → EReal} {n : ℕ} (hn : n < 16) {L : List (View.Piece (Elt Ideal) ⟨2, ![16, 32]⟩ .f32)}
    (hL : Upto G n L) {sg : RefSig} {κ : Kind} {sp : Space} {v : View sg κ sp ⟨2, ![16, 32]⟩ .f32}
    {inbr : ∀ a, (![n, 0] : Fin 2 → Nat) a + (![1, 32] : Fin 2 → Nat) a ≤ (⟨2, ![16, 32]⟩ : Shape).size a}
    {inb0 : ∀ a, (![0, 0] : Fin 2 → Nat) a + S5000x32.size a ≤ S5000x32.size a}
    {inb1 : ∀ a, (![0, 0] : Fin 2 → Nat) a + S5000x1.size a ≤ S5000x1.size a}
    {h1 h1' : (⟨2, ![1, 32]⟩ : Shape).ShapeCasts ⟨1, ![32]⟩} {h2 h2' : (⟨1, ![32]⟩ : Shape).ShapeCasts ⟨2, ![1, 32]⟩}
    {hb : (⟨2, ![5000, 1]⟩ : Shape).Broadcasts ⟨2, ![5000, 32]⟩}
    {hr : (⟨2, ![5000, 32]⟩ : Shape).Reduces [0] ⟨1, ![32]⟩}
    {h32 : 1 < 32} (j : Fin 32) :
    shapeCast ⟨2, ![1, 32]⟩ (addf (F := Ideal)
      (shapeCast ⟨1, ![32]⟩ (v.readCov L (Rect.unit (s := ⟨2, ![16, 32]⟩) ![n, 0] ![1, 32] inbr).toLoadRect) h1)
      (shapeCast ⟨1, ![32]⟩ (shapeCast ⟨2, ![1, 32]⟩
        (multiReduction .add [0] ⟨1, ![32]⟩
          (mulf (View.readAt (Elt Ideal) arg1.view (Rect.unit ![0, 0] S5000x32.size inb0).toLoadRect (harg1.unread x0))
            (broadcastTo ⟨2, ![5000, 32]⟩
              (sitofp .f32 (extui 32 (cmpi .eq
                (k0_pay8 (F := Ideal) (View.readAt (Elt Ideal) arg2.view (Rect.unit ![0, 0] S5000x1.size inb1).toLoadRect (harg2.unread x1)))
                (broadcast ⟨2, ![5000, 1]⟩ (BitVec.ofNat 32 n))) h32)) hb))
          0x00000000#32 hr (.inl rfl) rfl) h2) h1')) h2' (ix2 (0 : Fin 1) j)
      = blkSeg (fun r => x1 (ix2 r 0)) (fun r => x0 (ix2 r j)) ⟨n, hn⟩ :=
  (rowPay_apply j (hL.load v hn inbr j)).trans (sum_eq_blkSeg arg1 harg1 arg2 harg2 x0 x1 ⟨n, hn⟩ j inb0 inb1)

theorem row3_done {G : Fin 16 → Fin 32 → EReal} {n : ℕ} (hn : n < 16) {L : List (View.Piece (Elt Ideal) ⟨2, ![16, 32]⟩ .f32)}
    (hL : Upto G n L) {sg : RefSig} {κ : Kind} {sp : Space} {v : View sg κ sp ⟨2, ![16, 32]⟩ .f32}
    {inbr : ∀ a, (![n, 0] : Fin 2 → Nat) a + (![1, 32] : Fin 2 → Nat) a ≤ (⟨2, ![16, 32]⟩ : Shape).size a}
    {inb0 : ∀ a, (![0, 0] : Fin 2 → Nat) a + S5000x32.size a ≤ S5000x32.size a}
    {inb1 : ∀ a, (![0, 0] : Fin 2 → Nat) a + S5000x1.size a ≤ S5000x1.size a}
    {h1 h1' : (⟨2, ![1, 32]⟩ : Shape).ShapeCasts ⟨1, ![32]⟩} {h2 h2' : (⟨1, ![32]⟩ : Shape).ShapeCasts ⟨2, ![1, 32]⟩}
    {hb : (⟨2, ![5000, 1]⟩ : Shape).Broadcasts ⟨2, ![5000, 32]⟩}
    {hr : (⟨2, ![5000, 32]⟩ : Shape).Reduces [0] ⟨1, ![32]⟩}
    {h32 : 1 < 32} (j : Fin 32) :
    shapeCast ⟨2, ![1, 32]⟩ (addf (F := Ideal)
      (shapeCast ⟨1, ![32]⟩ (v.readCov L (Rect.unit (s := ⟨2, ![16, 32]⟩) ![n, 0] ![1, 32] inbr).toLoadRect) h1)
      (shapeCast ⟨1, ![32]⟩ (shapeCast ⟨2, ![1, 32]⟩
        (multiReduction .add [0] ⟨1, ![32]⟩
          (mulf (k0_pay7 (F := Ideal) (View.readAt (Elt Ideal) arg1.view (Rect.unit ![0, 0] S5000x32.size inb0).toLoadRect (harg1.unread x0)))
            (broadcastTo ⟨2, ![5000, 32]⟩
              (sitofp .f32 (extui 32 (cmpi .eq
                (k0_pay8 (F := Ideal) (View.readAt (Elt Ideal) arg2.view (Rect.unit ![0, 0] S5000x1.size inb1).toLoadRect (harg2.unread x1)))
                (broadcast ⟨2, ![5000, 1]⟩ (BitVec.ofNat 32 n))) h32)) hb))
          0x00000000#32 hr (.inl rfl) rfl) h2) h1')) h2' (ix2 (0 : Fin 1) j)
      = blkSeg (fun r => x1 (ix2 r 0)) (fun r => x0 (ix2 r j) * x0 (ix2 r j)) ⟨n, hn⟩ :=
  (rowPay_apply j (hL.load v hn inbr j)).trans (sumsq_eq_blkSeg arg1 harg1 arg2 harg2 x0 x1 ⟨n, hn⟩ j inb0 inb1)

theorem row4_done {G : Fin 16 → Fin 1 → EReal} {n : ℕ} (hn : n < 16) {L : List (View.Piece (Elt Ideal) ⟨2, ![16, 1]⟩ .f32)}
    (hL : Upto G n L) {sg : RefSig} {κ : Kind} {sp : Space} {v : View sg κ sp ⟨2, ![16, 1]⟩ .f32}
    {inbr : ∀ a, (![n, 0] : Fin 2 → Nat) a + (![1, 1] : Fin 2 → Nat) a ≤ (⟨2, ![16, 1]⟩ : Shape).size a}
    {inb1 : ∀ a, (![0, 0] : Fin 2 → Nat) a + S5000x1.size a ≤ S5000x1.size a}
    {g1 g1' : (⟨2, ![1, 1]⟩ : Shape).ShapeCasts ⟨1, ![1]⟩} {g2 g2' : (⟨1, ![1]⟩ : Shape).ShapeCasts ⟨2, ![1, 1]⟩}
    {hr : (⟨2, ![5000, 1]⟩ : Shape).Reduces [0] ⟨1, ![1]⟩}
    {h32 : 1 < 32} (u : Fin 1) :
    shapeCast ⟨2, ![1, 1]⟩ (addf (F := Ideal)
      (shapeCast ⟨1, ![1]⟩ (v.readCov L (Rect.unit (s := ⟨2, ![16, 1]⟩) ![n, 0] ![1, 1] inbr).toLoadRect) g1)
      (shapeCast ⟨1, ![1]⟩ (shapeCast ⟨2, ![1, 1]⟩
        (multiReduction .add [0] ⟨1, ![1]⟩
          (sitofp .f32 (extui 32 (cmpi .eq
            (k0_pay8 (F := Ideal) (View.readAt (Elt Ideal) arg2.view (Rect.unit ![0, 0] S5000x1.size inb1).toLoadRect (harg2.unread x1)))
            (broadcast ⟨2, ![5000, 1]⟩ (BitVec.ofNat 32 n))) h32))
          0x00000000#32 hr (.inl rfl) rfl) g2) g1')) g2' (ix2 (0 : Fin 1) u)
      = blkSeg (fun r => x1 (ix2 r 0)) (fun _ => 1) ⟨n, hn⟩ :=
  (cntPay_apply u (hL.load v hn inbr u)).trans (cnt_eq_blkSeg arg2 harg2 x1 ⟨n, hn⟩ inb1)

end CaseA

open CaseA

/-! ## The three buffers after the body -/

theorem outA_2 (k : Fin 16) (j : Fin 32) :
    out0_A_2 (F := Ideal) c i arg1 harg1 arg2 harg2 arg3 harg3 arg4 harg4 arg5 harg5 hc0 x0 x1 (ix2 k j)
      = blkSeg (fun r => x1 (ix2 r 0)) (fun r => x0 (ix2 r j)) k := by
  unfold out0_A_2
  rw [View.read_writes_eq_canon _ _ _ (cover0_A_2 c i arg1 harg1 arg2 harg2 arg3 harg3 arg4 harg4 arg5 harg5 hc0 x0 x1)]
  refine Upto.final (G := fun k j => blkSeg (fun r => x1 (ix2 r 0)) (fun r => x0 (ix2 r j)) k) ?_ k j
  unfold kernelRun0_A
  dsimp only
  sl_unfold_words
  iterate 16 (refine Upto.step (by decide) ?_ _ _ ?_)
  · exact Upto.base _ _ _ (fun y => Ideal.ofBits_zero_f32)
  all_goals
    intro hL j
    exact row2_done arg1 harg1 arg2 harg2 x0 x1 _ hL j

theorem outA_3 (k : Fin 16) (j : Fin 32) :
    out0_A_3 (F := Ideal) c i arg1 harg1 arg2 harg2 arg3 harg3 arg4 harg4 arg5 harg5 hc0 x0 x1 (ix2 k j)
      = blkSeg (fun r => x1 (ix2 r 0)) (fun r => x0 (ix2 r j) * x0 (ix2 r j)) k := by
  unfold out0_A_3
  rw [View.read_writes_eq_canon _ _ _ (cover0_A_3 c i arg1 harg1 arg2 harg2 arg3 harg3 arg4 harg4 arg5 harg5 hc0 x0 x1)]
  refine Upto.final (G := fun k j => blkSeg (fun r => x1 (ix2 r 0)) (fun r => x0 (ix2 r j) * x0 (ix2 r j)) k) ?_ k j
  unfold kernelRun0_A
  dsimp only
  sl_unfold_words
  iterate 16 (refine Upto.step (by decide) ?_ _ _ ?_)
  · exact Upto.base _ _ _ (fun y => Ideal.ofBits_zero_f32)
  all_goals
    intro hL j
    exact row3_done arg1 harg1 arg2 harg2 x0 x1 _ hL j

theorem outA_4 (k : Fin 16) :
    out0_A_4 (F := Ideal) c i arg1 harg1 arg2 harg2 arg3 harg3 arg4 harg4 arg5 harg5 hc0 x0 x1 (ix2 k 0)
      = blkSeg (fun r => x1 (ix2 r 0)) (fun _ => 1) k := by
  unfold out0_A_4
  rw [View.read_writes_eq_canon _ _ _ (cover0_A_4 c i arg1 harg1 arg2 harg2 arg3 harg3 arg4 harg4 arg5 harg5 hc0 x0 x1)]
  refine Upto.final (G := fun k (_ : Fin 1) => blkSeg (fun r => x1 (ix2 r 0)) (fun _ => 1) k) ?_ k 0
  unfold kernelRun0_A
  dsimp only
  sl_unfold_words
  iterate 16 (refine Upto.step (by decide) ?_ _ _ ?_)
  · exact Upto.base _ _ _ (fun y => Ideal.ofBits_zero_f32)
  all_goals
    intro hL u
    exact row4_done arg2 harg2 x1 _ hL u

end Cert.KernelIdeal.R0

end
-- ==== Proof.R0PiecesB.lean ====
/-
  The accumulating case of the reduction kernel's body (every grid point but the first): what it leaves in the three
  running-sum buffers, read at an entry. Row `k` of each buffer gains the block's rows of instance `k`: their
  features, the squares of their features, and their number.

  Each buffer is left by sixteen one-row stores. Row `r`'s store holds the row's old content plus the sum, over the
  block's 5000 rows, of the feature (its square, or one) times a mask that is one where the row's id word is `r`
  and zero elsewhere. The sixteen stores are read as one function of (row, column): each store's payload is shown to
  be that function on its own row, column by column.
-/
import proofs.«417694_j75883482186010_3_alg».proof.Proof.Spec
import proofs.«417694_j75883482186010_3_alg».proof.Proof.Gen.KernelIdeal.Frame
import proofs.«417694_j75883482186010_3_alg».proof.Proof.LibRowCasts
import Idealize.ShloMosaic.Lib.Pipeline.Value
import Idealize.ShloMosaic.Lib.ValueLayout

set_option maxRecDepth 16384

noncomputable section

namespace Cert.KernelIdeal.R0.AccCase

open Idealize.ShloMosaic Idealize.ShloMosaic.TcCoe Idealize.SL.Sem Idealize.ShloMosaic.ValueIdx Idealize.ShloMosaic.RowCasts
open Cert.KernelIdeal Cert.KernelIdeal.Gen Cert.InstNorm
open scoped BigOperators

theorem hz : (![0, 0] : Fin 2 → Nat) = fun _ => 0 := funext fun a => by fin_cases a <;> rfl

/-! ## The block's arithmetic at an entry -/

/-- The mask at a row: one where the row's word is the instance's, zero elsewhere. -/
theorem mask_apply (X1 : IVec S5000x1 32) (cw : BitVec 32) (h : 1 < 32) (q : Fin 5000) :
    (sitofp .f32 (extui 32 (cmpi .eq X1 (broadcast S5000x1 cw)) h) : FVec Ideal S5000x1 .f32) (ix2 q (0 : Fin 1))
      = if X1 (ix2 q 0) = cw then 1 else 0 := by
  show ((((IntOp.cmpi .eq (X1 (ix2 q 0)) cw).setWidth 32).toInt : ℝ) : EReal) = _
  unfold IntOp.cmpi
  by_cases e : X1 (ix2 q 0) = cw
  · rw [if_pos e, show (X1 (ix2 q 0) == cw) = true from beq_iff_eq.mpr e,
      show ((BitVec.ofBool true).setWidth 32).toInt = 1 from by decide]
    simp
  · rw [if_neg e, show (X1 (ix2 q 0) == cw) = false from beq_eq_false_iff_ne.mpr e,
      show ((BitVec.ofBool false).setWidth 32).toInt = 0 from by decide]
    simp

/-- The sum over the rows of a 5000×32 block, at a column: the sum of the column's 5000 entries. -/
theorem rowSum_apply (src : FVec Ideal S5000x32 .f32) (h : S5000x32.Reduces [0] S32) (hφ : FKind.Formats .f32)
    (hacc : (0x00000000#32 : BitVec 32) = 0x00000000#32) (jj : Fin 32) :
    multiReduction .add [0] S32 src 0x00000000#32 h hφ hacc (ix1 jj) = ∑ q : Fin 5000, src (ix2 q jj) := by
  refine (Ideal.multiReduction_add_single src 0x00000000#32 h hφ hacc (ix1 jj)).trans ?_
  refine Finset.sum_congr rfl fun q _ => congrArg src ?_
  funext a
  match a with
  | ⟨0, _⟩ => rfl
  | ⟨1, _⟩ => rfl

/-- The sum over the rows of a 5000×1 column: the sum of its 5000 entries. -/
theorem colSum_apply (src : FVec Ideal S5000x1 .f32) (h : S5000x1.Reduces [0] S1) (hφ : FKind.Formats .f32)
    (hacc : (0x00000000#32 : BitVec 32) = 0x00000000#32) (u : Fin 1) :
    multiReduction .add [0] S1 src 0x00000000#32 h hφ hacc (ix1 u) = ∑ q : Fin 5000, src (ix2 q (0 : Fin 1)) := by
  refine (Ideal.multiReduction_add_single src 0x00000000#32 h hφ hacc (ix1 u)).trans ?_
  refine Finset.sum_congr rfl fun q _ => congrArg src ?_
  funext a
  match a with
  | ⟨0, _⟩ => rfl
  | ⟨1, _⟩ => exact Subsingleton.elim (α := Fin 1) _ _

/-- A masked sum over the block's rows is the block's sum over the instance. -/
theorem sum_mask (b : Fin 5000 → BitVec 32) (f : Fin 5000 → EReal) (r : Nat) (hr : r < 16) :
    (∑ q, f q * (if b q = BitVec.ofNat 32 r then 1 else 0)) = blkSeg b f ⟨r, hr⟩ := by
  unfold blkSeg
  refine Finset.sum_congr rfl fun q _ => ?_
  show _ = if b q = BitVec.ofNat 32 r then f q else 0
  rw [mul_ite, mul_one, mul_zero]

/-- The sum of the mask itself is the number of the block's rows of the instance. -/
theorem sum_mask_one (b : Fin 5000 → BitVec 32) (r : Nat) (hr : r < 16) :
    (∑ q, (if b q = BitVec.ofNat 32 r then (1 : EReal) else 0)) = blkSeg b (fun _ => 1) ⟨r, hr⟩ := rfl

/-! ## One-row rectangles of a 16-row buffer -/

theorem row_lt {n r : Nat} (inb : ∀ a, (![r, 0] : Fin 2 → Nat) a + (⟨2, ![1, n]⟩ : Shape).size a ≤ (⟨2, ![16, n]⟩ : Shape).size a) :
    r < 16 := by
  have := inb 0
  change r + 1 ≤ 16 at this
  omega

/-- Where the one-row rectangle at row `r` puts its column `jj`: at `(r, jj)`. -/
theorem idx_row {n r : Nat} (inb : ∀ a, (![r, 0] : Fin 2 → Nat) a + (⟨2, ![1, n]⟩ : Shape).size a ≤ (⟨2, ![16, n]⟩ : Shape).size a)
    (u : Fin 1) (jj : Fin n) :
    (Rect.unit (s := ⟨2, ![16, n]⟩) ![r, 0] (⟨2, ![1, n]⟩ : Shape).size inb).toLoadRect.idx (ix2 u jj)
      = ix2 (⟨r, row_lt inb⟩ : Fin 16) jj := by
  funext a
  apply Fin.ext
  match a with
  | ⟨0, _⟩ => show r + 1 * u.val = r; omega
  | ⟨1, _⟩ => show 0 + 1 * jj.val = jj.val; omega

/-- A one-row piece agrees with a function of (row, column) on its row once it does so column by column. -/
theorem row_piece {n r : Nat} (inb : ∀ a, (![r, 0] : Fin 2 → Nat) a + (⟨2, ![1, n]⟩ : Shape).size a ≤ (⟨2, ![16, n]⟩ : Shape).size a)
    (P : (⟨2, ![1, n]⟩ : Shape).Idx → EReal) (g : Fin 16 → Fin n → EReal)
    (h : ∀ jj : Fin n, P (ix2 (0 : Fin 1) jj) = g ⟨r, row_lt inb⟩ jj)
    (x : (⟨2, ![1, n]⟩ : Shape).Idx) :
    P x = g ((Rect.unit (s := ⟨2, ![16, n]⟩) ![r, 0] (⟨2, ![1, n]⟩ : Shape).size inb).emb x 0)
      ((Rect.unit (s := ⟨2, ![16, n]⟩) ![r, 0] (⟨2, ![1, n]⟩ : Shape).size inb).emb x 1) := by
  obtain ⟨u, jj, rfl⟩ : ∃ (u : Fin 1) (jj : Fin n), x = ix2 u jj := ⟨x 0, x 1, eq_ix2 x⟩
  obtain rfl : u = 0 := Subsingleton.elim _ _
  refine (h jj).trans ?_
  have e := idx_row inb 0 jj
  exact (congrArg (fun y : (⟨2, ![16, n]⟩ : Shape).Idx => g (y 0) (y 1)) e).symm

end Cert.KernelIdeal.R0.AccCase

namespace Cert.KernelIdeal.R0

open Idealize.ShloMosaic Idealize.ShloMosaic.TcCoe Idealize.SL.Sem Idealize.ShloMosaic.ValueIdx
open Cert.KernelIdeal Cert.KernelIdeal.Gen Cert.InstNorm
open Idealize.ShloMosaic.RowCasts Cert.KernelIdeal.R0.AccCase
open scoped BigOperators

/-- Opens the body's named intermediate values. -/
local macro "open_payloads" : tactic => `(tactic| simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91])

variable (c : Dev nD) (i : grid0.Coords) (arg1 : Memref sig .tc .vmem S5000x32 .f32) (harg1 : arg1.IsWhole) (arg2 : Memref sig .tc .vmem S5000x1 .i32) (harg2 : arg2.IsWhole) (arg3 : Memref sig .tc .vmem S16x32 .f32) (harg3 : arg3.IsWhole) (arg4 : Memref sig .tc .vmem S16x32 .f32) (harg4 : arg4.IsWhole) (arg5 : Memref sig .tc .vmem S16x1 .f32) (harg5 : arg5.IsWhole) (hc0 : ¬cond0_0 i)
  (x0 : Vec Ideal S5000x32 .f32) (x1 : Vec Ideal S5000x1 .i32) (xo2 xo3 : Vec Ideal S16x32 .f32) (xo4 : Vec Ideal S16x1 .f32)

theorem outB_2 (k : Fin 16) (j : Fin 32) :
    out0_B_2 (F := Ideal) c i arg1 harg1 arg2 harg2 arg3 harg3 arg4 harg4 arg5 harg5 hc0 x0 x1 xo2 xo3 xo4 (ix2 k j)
      = xo2 (ix2 k j) + blkSeg (fun r => x1 (ix2 r 0)) (fun r => x0 (ix2 r j)) k := by
  unfold out0_B_2
  rw [View.read_writes_eq_canon _ _ _ (cover0_B_2 c i arg1 harg1 arg2 harg2 arg3 harg3 arg4 harg4 arg5 harg5 hc0 x0 x1 xo2 xo3 xo4)]
  obtain ⟨g, hg⟩ : ∃ g : Fin 16 → Fin 32 → EReal,
      g = fun k j => xo2 (ix2 k j) + blkSeg (fun r => x1 (ix2 r 0)) (fun r => x0 (ix2 r j)) k := ⟨_, rfl⟩
  refine (View.canon_apply_of_pieces (fun y : S16x32.Idx => g (y 0) (y 1)) _ ?_ (ix2 k j)
    (cover0_B_2 c i arg1 harg1 arg2 harg2 arg3 harg3 arg4 harg4 arg5 harg5 hc0 x0 x1 xo2 xo3 xo4 (ix2 k j))).trans (by rw [hg])
  unfold kernelRun0_B
  dsimp only
  sl_unfold_words
  simp only [List.forall_mem_cons, List.not_mem_nil, false_imp_iff, implies_true, and_true]
  refine ⟨?_, ?_, ?_, ?_, ?_, ?_, ?_, ?_, ?_, ?_, ?_, ?_, ?_, ?_, ?_, ?_⟩
  all_goals
    refine row_piece _ _ g fun jj => ?_
    open_payloads
    simp only [View.readAt_eq_ld, harg1.read_unread, harg2.read_unread, harg3.read_unread,
      View.ld_unit_zero (S := S5000x32) hz, View.ld_unit_zero (S := S5000x1) hz, shapeCast_self]
    simp only [shapeCast_a_1a_apply, addf_apply, shapeCast_1a_a_apply]
    rw [rowSum_apply]
    simp only [mulf_apply, broadcastTo_column_apply, mask_apply, View.ld]
    subst hg
    exact congrArg₂ (· + ·) (congrArg xo2 (idx_row _ 0 jj))
      (sum_mask (fun r => x1 (ix2 r 0)) (fun r => x0 (ix2 r jj)) _ _)

theorem outB_3 (k : Fin 16) (j : Fin 32) :
    out0_B_3 (F := Ideal) c i arg1 harg1 arg2 harg2 arg3 harg3 arg4 harg4 arg5 harg5 hc0 x0 x1 xo2 xo3 xo4 (ix2 k j)
      = xo3 (ix2 k j) + blkSeg (fun r => x1 (ix2 r 0)) (fun r => x0 (ix2 r j) * x0 (ix2 r j)) k := by
  unfold out0_B_3
  rw [View.read_writes_eq_canon _ _ _ (cover0_B_3 c i arg1 harg1 arg2 harg2 arg3 harg3 arg4 harg4 arg5 harg5 hc0 x0 x1 xo2 xo3 xo4)]
  obtain ⟨g, hg⟩ : ∃ g : Fin 16 → Fin 32 → EReal,
      g = fun k j => xo3 (ix2 k j) + blkSeg (fun r => x1 (ix2 r 0)) (fun r => x0 (ix2 r j) * x0 (ix2 r j)) k := ⟨_, rfl⟩
  refine (View.canon_apply_of_pieces (fun y : S16x32.Idx => g (y 0) (y 1)) _ ?_ (ix2 k j)
    (cover0_B_3 c i arg1 harg1 arg2 harg2 arg3 harg3 arg4 harg4 arg5 harg5 hc0 x0 x1 xo2 xo3 xo4 (ix2 k j))).trans (by rw [hg])
  unfold kernelRun0_B
  dsimp only
  sl_unfold_words
  simp only [List.forall_mem_cons, List.not_mem_nil, false_imp_iff, implies_true, and_true]
  refine ⟨?_, ?_, ?_, ?_, ?_, ?_, ?_, ?_, ?_, ?_, ?_, ?_, ?_, ?_, ?_, ?_⟩
  all_goals
    refine row_piece _ _ g fun jj => ?_
    open_payloads
    simp only [View.readAt_eq_ld, harg1.read_unread, harg2.read_unread, harg4.read_unread,
      View.ld_unit_zero (S := S5000x32) hz, View.ld_unit_zero (S := S5000x1) hz, shapeCast_self]
    simp only [shapeCast_a_1a_apply, addf_apply, shapeCast_1a_a_apply]
    rw [rowSum_apply]
    simp only [mulf_apply, broadcastTo_column_apply, mask_apply, View.ld]
    subst hg
    exact congrArg₂ (· + ·) (congrArg xo3 (idx_row _ 0 jj))
      (sum_mask (fun r => x1 (ix2 r 0)) (fun r => x0 (ix2 r jj) * x0 (ix2 r jj)) _ _)

theorem outB_4 (k : Fin 16) :
    out0_B_4 (F := Ideal) c i arg1 harg1 arg2 harg2 arg3 harg3 arg4 harg4 arg5 harg5 hc0 x0 x1 xo2 xo3 xo4 (ix2 k 0)
      = xo4 (ix2 k 0) + blkSeg (fun r => x1 (ix2 r 0)) (fun _ => 1) k := by
  unfold out0_B_4
  rw [View.read_writes_eq_canon _ _ _ (cover0_B_4 c i arg1 harg1 arg2 harg2 arg3 harg3 arg4 harg4 arg5 harg5 hc0 x0 x1 xo2 xo3 xo4)]
  obtain ⟨g, hg⟩ : ∃ g : Fin 16 → Fin 1 → EReal,
      g = fun k u => xo4 (ix2 k u) + blkSeg (fun r => x1 (ix2 r 0)) (fun _ => 1) k := ⟨_, rfl⟩
  refine (View.canon_apply_of_pieces (fun y : S16x1.Idx => g (y 0) (y 1)) _ ?_ (ix2 k 0)
    (cover0_B_4 c i arg1 harg1 arg2 harg2 arg3 harg3 arg4 harg4 arg5 harg5 hc0 x0 x1 xo2 xo3 xo4 (ix2 k 0))).trans (by rw [hg])
  unfold kernelRun0_B
  dsimp only
  sl_unfold_words
  simp only [List.forall_mem_cons, List.not_mem_nil, false_imp_iff, implies_true, and_true]
  refine ⟨?_, ?_, ?_, ?_, ?_, ?_, ?_, ?_, ?_, ?_, ?_, ?_, ?_, ?_, ?_, ?_⟩
  all_goals
    refine row_piece _ _ g fun jj => ?_
    open_payloads
    simp only [View.readAt_eq_ld, harg1.read_unread, harg2.read_unread, harg5.read_unread,
      View.ld_unit_zero (S := S5000x32) hz, View.ld_unit_zero (S := S5000x1) hz, shapeCast_self]
    simp only [shapeCast_a_1a_apply, addf_apply, shapeCast_1a_a_apply]
    rw [colSum_apply]
    simp only [mask_apply, View.ld]
    subst hg
    exact congrArg₂ (· + ·) (congrArg xo4 (idx_row _ 0 jj))
      (sum_mask_one (fun r => x1 (ix2 r 0)) _ _)

end Cert.KernelIdeal.R0

end
-- ==== Proof.R0Final.lean ====
/-
  The reduction kernel's three result arrays after its 400 grid points: entry `(k, j)` of the first is the sum of
  channel `j` over all points of instance `k`, of the second the sum of its squares, and entry `k` of the third the
  number of points of instance `k` — the running sums after the last block, by induction on the grid point.
-/
import proofs.«417694_j75883482186010_3_alg».proof.Proof.Spec
import proofs.«417694_j75883482186010_3_alg».proof.Proof.Gen.KernelIdeal.Frame
import Idealize.ShloMosaic.Lib.Pipeline.Value
import proofs.«417694_j75883482186010_3_alg».proof.Proof.R0PiecesA
import proofs.«417694_j75883482186010_3_alg».proof.Proof.R0PiecesB
set_option maxRecDepth 16384

noncomputable section

namespace Cert.KernelIdeal.R0

open Idealize.ShloMosaic Idealize.ShloMosaic.TcCoe Idealize.SL.Sem Idealize.ShloMosaic.ValueIdx
open Cert.KernelIdeal Cert.KernelIdeal.Gen Cert.InstNorm

variable (V : (c : Dev nD) → (b : Ref sig .tc) → Buf (Elt Ideal) ((c : Thread nD τ).loc b))

/-- The feature array and the id column as the region finds them. -/
abbrev xarr (c : Dev nD) : S2000000x32.Idx → EReal := V c main_arg0
abbrev barr (c : Dev nD) : S2000000x1.Idx → BitVec 32 := V c main_v0

namespace Final

/-! ## The partial sums -/

/-- The sum of `f` over the points before row `5000 * T` that belong to instance `k`. -/
def segUpTo {N : Nat} (T : Nat) (b : Fin N → BitVec 32) (f : Fin N → EReal) (k : Fin 16) : EReal :=
  ∑ n : Fin N, if n.val < 5000 * T ∧ b n = BitVec.ofNat 32 k.val then f n else 0

/-- Row `r` of block `T`, as a point. -/
def blkRow {N : Nat} (T : Nat) (hT : 5000 * (T + 1) ≤ N) : Fin 5000 ↪ Fin N :=
  ⟨fun r => ⟨5000 * T + r.val, by have := r.isLt; omega⟩, fun r r' h => by
    have := congrArg Fin.val h; apply Fin.ext; simp only at this; omega⟩

/-- Its row number. -/
theorem blkRow_val {N : Nat} (T : Nat) (hT : 5000 * (T + 1) ≤ N) (r : Fin 5000) :
    (blkRow T hT r).val = 5000 * T + r.val := rfl

/-- The points whose row lies in `[5000 T, 5000 (T + 1))` are exactly the rows of block `T`. -/
theorem filter_blk {N : Nat} (T : Nat) (hT : 5000 * (T + 1) ≤ N) :
    (Finset.univ.filter fun n : Fin N => 5000 * T ≤ n.val ∧ n.val < 5000 * (T + 1)) = Finset.univ.map (blkRow T hT) := by
  ext n
  rw [Finset.mem_filter, Finset.mem_map]
  constructor
  · rintro ⟨-, h1, h2⟩
    refine ⟨⟨n.val - 5000 * T, by omega⟩, Finset.mem_univ _, Fin.ext ?_⟩
    rw [blkRow_val]
    show 5000 * T + (n.val - 5000 * T) = n.val
    omega
  · rintro ⟨r, -, rfl⟩
    have := r.isLt
    refine ⟨Finset.mem_univ _, ?_⟩
    rw [blkRow_val]
    omega

/-- One more block: the partial sum through block `T` is the partial sum before it plus the block's own sum. A point
    of instance `k` counts on the left exactly when it lies before the block or in it, never both; the points in the
    block are then re-indexed by their row. -/
theorem segUpTo_succ {N : Nat} (T : Nat) (hT : 5000 * (T + 1) ≤ N) (b : Fin N → BitVec 32) (f : Fin N → EReal) (k : Fin 16) :
    segUpTo (T + 1) b f k = segUpTo T b f k + blkSeg (fun r => b (blkRow T hT r)) (fun r => f (blkRow T hT r)) k := by
  unfold segUpTo blkSeg
  rw [← Finset.sum_map Finset.univ (blkRow T hT) (fun n => if b n = BitVec.ofNat 32 k.val then f n else 0),
    ← filter_blk T hT, Finset.sum_filter, ← Finset.sum_add_distrib]
  refine Finset.sum_congr rfl fun n _ => ?_
  by_cases hb : b n = BitVec.ofNat 32 k.val
  · by_cases h1 : n.val < 5000 * T
    · rw [if_pos ⟨by omega, hb⟩, if_pos ⟨h1, hb⟩, if_neg (by omega), add_zero]
    · by_cases h2 : n.val < 5000 * (T + 1)
      · rw [if_pos ⟨h2, hb⟩, if_neg (fun h => h1 h.1), if_pos ⟨by omega, h2⟩, if_pos hb, zero_add]
      · rw [if_neg (fun h => h2 h.1), if_neg (fun h => h1 h.1), if_neg (fun h => h2 h.2), add_zero]
  · rw [if_neg (fun h => hb h.2), if_neg (fun h => hb h.2)]
    by_cases h3 : 5000 * T ≤ n.val ∧ n.val < 5000 * (T + 1)
    · rw [if_pos h3, if_neg hb, add_zero]
    · rw [if_neg h3, add_zero]

/-- Before the first block the partial sum is empty. -/
theorem segUpTo_zero {N : Nat} (b : Fin N → BitVec 32) (f : Fin N → EReal) (k : Fin 16) : segUpTo 0 b f k = 0 := by
  unfold segUpTo
  exact Finset.sum_eq_zero fun n _ => if_neg (fun h => by omega)

/-- Once the blocks reach the last point the partial sum is the whole sum. -/
theorem segUpTo_all {N : Nat} (T : Nat) (hN : N ≤ 5000 * T) (b : Fin N → BitVec 32) (f : Fin N → EReal) (k : Fin 16) :
    segUpTo T b f k = ∑ n : Fin N, if b n = BitVec.ofNat 32 k.val then f n else 0 := by
  unfold segUpTo
  refine Finset.sum_congr rfl fun n _ => ?_
  have := n.isLt
  by_cases hb : b n = BitVec.ofNat 32 k.val
  · rw [if_pos ⟨by omega, hb⟩, if_pos hb]
  · rw [if_neg (fun h => hb h.2), if_neg hb]

/-! ## The blocks the two input windows read -/

/-- The id of a point, and channel `j`'s feature of a point, as the region finds them. -/
abbrev bcol (c : Dev nD) : Fin NP → BitVec 32 := fun n => barr V c (ix2 n 0)
abbrev xcol (c : Dev nD) (j : Fin 32) : Fin NP → EReal := fun n => xarr V c (ix2 n j)

/-- The feature block and the id block of grid point `t`. -/
abbrev xblk (c : Dev nD) (t : Fin cfg0.N) : Vec Ideal S5000x32 .f32 := iblk0 V c 0 t
abbrev bblk (c : Dev nD) (t : Fin cfg0.N) : Vec Ideal S5000x1 .i32 := iblk0 V c 1 t

/-- Both input windows step along the rows with the grid point and stay at column block 0. -/
theorem hindex : ∀ t : Fin grid0.N, (win0_0.index t 0 = t.val ∧ win0_0.index t 1 = 0) ∧ (win0_1.index t 0 = t.val ∧ win0_1.index t 1 = 0) := by
  decide +kernel

/-- Block `t` lies inside the 2,000,000 points. -/
theorem blk_le (t : Fin cfg0.N) : 5000 * (t.val + 1) ≤ NP := by
  have hN : cfg0.N = 400 := N_0
  have := t.isLt
  show 5000 * (t.val + 1) ≤ 2000000
  omega

/-- Entry `(r, j)` of the feature block of point `t` is the feature array at row `5000 t + r`. -/
theorem xblk_apply (c : Dev nD) (t : Fin cfg0.N) (r : Fin 5000) (j : Fin 32) :
    xblk V c t (ix2 r j) = xcol V c j (blkRow t.val (blk_le t) r) := by
  show iblk0 V c 0 t (ix2 r j) = V c main_arg0 _
  unfold iblk0
  rw [View.read_apply]
  show V c main_arg0 _ = V c main_arg0 _
  congr 1
  funext a
  apply Fin.ext
  have hi := (hindex t).1
  match a with
  | ⟨0, _⟩ => show win0_0.index t 0 * 5000 + 1 * r.val = 5000 * t.val + r.val; rw [hi.1]; omega
  | ⟨1, _⟩ => show win0_0.index t 1 * 32 + 1 * j.val = j.val; rw [hi.2]; omega

/-- Entry `(r, 0)` of the id block of point `t` is the id of point `5000 t + r`. -/
theorem bblk_apply (c : Dev nD) (t : Fin cfg0.N) (r : Fin 5000) :
    bblk V c t (ix2 r 0) = bcol V c (blkRow t.val (blk_le t) r) := by
  show iblk0 V c 1 t (ix2 r 0) = V c main_v0 _
  unfold iblk0
  rw [View.read_apply]
  show V c main_v0 _ = V c main_v0 _
  congr 1
  funext a
  apply Fin.ext
  have hi := (hindex t).2
  match a with
  | ⟨0, _⟩ => show win0_1.index t 0 * 5000 + 1 * r.val = 5000 * t.val + r.val; rw [hi.1]; omega
  | ⟨1, _⟩ => show win0_1.index t 1 * 1 + 1 * (0 : Fin 1).val = (0 : Fin 1).val; rw [hi.2]; rfl

/-- One grid point's step: the partial sum before block `t`, plus the block's sum of a row function `g` that reads
    `f` at the block's rows, is the partial sum after block `t`. -/
theorem seg_step (c : Dev nD) (t : Fin cfg0.N) (k : Fin 16) (f : Fin NP → EReal) (g : Fin 5000 → EReal)
    (hg : ∀ r, g r = f (blkRow t.val (blk_le t) r)) :
    segUpTo t.val (bcol V c) f k + blkSeg (fun r => bblk V c t (ix2 r 0)) g k = segUpTo (t.val + 1) (bcol V c) f k := by
  rw [segUpTo_succ t.val (blk_le t)]
  have e1 : (fun r : Fin 5000 => bblk V c t (ix2 r 0)) = fun r => bcol V c (blkRow t.val (blk_le t) r) :=
    funext fun r => bblk_apply V c t r
  obtain rfl : g = fun r => f (blkRow t.val (blk_le t) r) := funext hg
  exact congrArg (fun bb => segUpTo t.val (bcol V c) f k + blkSeg bb (fun r => f (blkRow t.val (blk_le t) r)) k) e1

/-! ## The running sums after each grid point -/

/-- After grid point `n` the three accumulators hold, at row `k`, the sums over the points of instance `k` among
    the first `n + 1` blocks: of the features, of their squares, and of ones. By induction on the point: the first
    point resets and adds its block, every later one adds its block to what the point before left. -/
theorem acc_eq (c : Dev nD) : ∀ (n : ℕ) (h : n < cfg0.N) (k : Fin 16),
    (∀ j : Fin 32, (outsAt0 (F := Ideal) V c n h).1 (ix2 k j) = segUpTo (n + 1) (bcol V c) (xcol V c j) k)
    ∧ (∀ j : Fin 32, (outsAt0 (F := Ideal) V c n h).2.1 (ix2 k j)
        = segUpTo (n + 1) (bcol V c) (fun m => xcol V c j m * xcol V c j m) k)
    ∧ (outsAt0 (F := Ideal) V c n h).2.2 (ix2 k 0) = segUpTo (n + 1) (bcol V c) (fun _ => 1) k
  | 0, h, k => by
    rw [outsAt0_A (F := Ideal) V c ⟨0, h⟩ rfl]
    dsimp only
    have z : ∀ f : Fin NP → EReal, segUpTo (N := NP) 0 (bcol V c) f k = 0 := fun f => segUpTo_zero _ _ _
    refine ⟨fun j => ?_, fun j => ?_, ?_⟩
    · refine (outA_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (xblk V c ⟨0, h⟩) (bblk V c ⟨0, h⟩) k j).trans ?_
      have s := seg_step V c ⟨0, h⟩ k (xcol V c j) (fun r => xblk V c ⟨0, h⟩ (ix2 r j)) (fun r => xblk_apply V c ⟨0, h⟩ r j)
      rw [show segUpTo (N := NP) (⟨0, h⟩ : Fin cfg0.N).val (bcol V c) (xcol V c j) k = 0 from z _, zero_add] at s
      exact s
    · refine (outA_3 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (xblk V c ⟨0, h⟩) (bblk V c ⟨0, h⟩) k j).trans ?_
      have s := seg_step V c ⟨0, h⟩ k (fun m => xcol V c j m * xcol V c j m)
        (fun r => xblk V c ⟨0, h⟩ (ix2 r j) * xblk V c ⟨0, h⟩ (ix2 r j)) (fun r => by rw [xblk_apply V c ⟨0, h⟩ r j])
      rw [show segUpTo (N := NP) (⟨0, h⟩ : Fin cfg0.N).val (bcol V c) (fun m => xcol V c j m * xcol V c j m) k = 0 from z _, zero_add] at s
      exact s
    · refine (outA_4 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (xblk V c ⟨0, h⟩) (bblk V c ⟨0, h⟩) k).trans ?_
      have s := seg_step V c ⟨0, h⟩ k (fun _ => 1) (fun _ => 1) (fun _ => rfl)
      rw [show segUpTo (N := NP) (⟨0, h⟩ : Fin cfg0.N).val (bcol V c) (fun _ => 1) k = 0 from z _, zero_add] at s
      exact s
  | n + 1, h, k => by
    have hN : cfg0.N = 400 := N_0
    have hB : ¬(⟨n + 1, h⟩ : Fin cfg0.N).val % 400 = 0 := by dsimp only; omega
    obtain ⟨ih2, ih3, ih4⟩ := acc_eq c n (Nat.lt_of_succ_lt h) k
    rw [outsAt0_B (F := Ideal) V c ⟨n + 1, h⟩ hB]
    dsimp only
    refine ⟨fun j => ?_, fun j => ?_, ?_⟩
    · refine (outB_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (xblk V c ⟨n + 1, h⟩) (bblk V c ⟨n + 1, h⟩)
        (outsAt0 (F := Ideal) V c n (Nat.lt_of_succ_lt h)).1 (outsAt0 (F := Ideal) V c n (Nat.lt_of_succ_lt h)).2.1 (outsAt0 (F := Ideal) V c n (Nat.lt_of_succ_lt h)).2.2 k j).trans ?_
      rw [ih2 j]
      exact seg_step V c ⟨n + 1, h⟩ k (xcol V c j) (fun r => xblk V c ⟨n + 1, h⟩ (ix2 r j)) (fun r => xblk_apply V c ⟨n + 1, h⟩ r j)
    · refine (outB_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (xblk V c ⟨n + 1, h⟩) (bblk V c ⟨n + 1, h⟩)
        (outsAt0 (F := Ideal) V c n (Nat.lt_of_succ_lt h)).1 (outsAt0 (F := Ideal) V c n (Nat.lt_of_succ_lt h)).2.1 (outsAt0 (F := Ideal) V c n (Nat.lt_of_succ_lt h)).2.2 k j).trans ?_
      rw [ih3 j]
      exact seg_step V c ⟨n + 1, h⟩ k (fun m => xcol V c j m * xcol V c j m)
        (fun r => xblk V c ⟨n + 1, h⟩ (ix2 r j) * xblk V c ⟨n + 1, h⟩ (ix2 r j)) (fun r => by rw [xblk_apply V c ⟨n + 1, h⟩ r j])
    · refine (outB_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (xblk V c ⟨n + 1, h⟩) (bblk V c ⟨n + 1, h⟩)
        (outsAt0 (F := Ideal) V c n (Nat.lt_of_succ_lt h)).1 (outsAt0 (F := Ideal) V c n (Nat.lt_of_succ_lt h)).2.1 (outsAt0 (F := Ideal) V c n (Nat.lt_of_succ_lt h)).2.2 k).trans ?_
      rw [ih4]
      exact seg_step V c ⟨n + 1, h⟩ k (fun _ => 1) (fun _ => 1) (fun _ => rfl)

/-! ## The write-back -/

/-- The last grid point. -/
theorem h399 : 399 < cfg0.N := lt_of_lt_of_eq (by decide : 399 < 400) N_0.symm
abbrev tLast : Fin cfg0.N := ⟨399, h399⟩

/-- The three output windows stay at block (0, 0) at every grid point. -/
structure OutIndex (t : Fin grid0.N) : Prop where
  w2 : win0_2.index t 0 = 0 ∧ win0_2.index t 1 = 0
  w3 : win0_3.index t 0 = 0 ∧ win0_3.index t 1 = 0
  w4 : win0_4.index t 0 = 0 ∧ win0_4.index t 1 = 0

/-- Decided over the grid. -/
theorem hindexO' : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) := by
  decide +kernel

theorem hindexO (t : Fin grid0.N) : OutIndex t := ⟨(hindexO' t).1, (hindexO' t).2.1, (hindexO' t).2.2⟩

/-- What result 0 ends holding. -/
abbrev G2 (c : Dev nD) : Vec Ideal S16x32 .f32 := fun i => segUpTo (N := NP) 400 (bcol V c) (xcol V c (i 1)) (i 0)

/-- After the last grid point accumulator 0 is that array. -/
theorem acc2_last (c : Dev nD) (t : Fin cfg0.N) (h3 : t.val = 399) : (outsAt0 (F := Ideal) V c t.val t.isLt).1 = G2 V c := by
  funext i
  obtain ⟨k, j, rfl⟩ : ∃ k j, i = ix2 k j := ⟨i 0, i 1, eq_ix2 i⟩
  refine ((acc_eq V c t.val t.isLt k).1 j).trans ?_
  rw [h3]

/-- Block (0, 0) of a 16x32 array read through zero offsets is the array, at every grid point. -/
theorem cut_read2 (t : Fin cfg0.N) (X : Vec Ideal S16x32 .f32) :
    (cfg0.win 2).cut (grid0.coords t) X = ((cfg0.win 2).blk t).view.read (Elt Ideal) X := by
  have hz' : (fun a => win0_2.index t a * main_v1_0.ty.shape.size a) = fun _ => 0 := funext fun a =>
    match a with
    | ⟨0, _⟩ => (show win0_2.index t 0 * 16 = 0 by rw [(hindexO t).w2.1])
    | ⟨1, _⟩ => (show win0_2.index t 1 * 32 = 0 by rw [(hindexO t).w2.2])
  exact (Memref.read_access_unit_zero (Elt Ideal) main_v1_0 hz' (fun a => by rw [congrFun hz' a]; simp) X).symm

/-- The one write-back of result 0, at point 399, writes that array. -/
theorem flushed2_eq (c : Dev nD) (t : Fin cfg0.N) (hf : (cfg0.win 2).flush t = true) :
    (dat0 (F := Ideal) V c).flushed 2 t = ((cfg0.win 2).blk t).view.read (Elt Ideal) (G2 V c) := by
  have hN : cfg0.N = 400 := N_0
  have h3 : t.val = 399 := by have := (flush0_2 t).mp hf; have := t.isLt; omega
  show (cfg0.win 2).cut (grid0.coords t) ((dat0 (F := Ideal) V c).after 2 t) = _
  rw [after0_2, acc2_last V c t h3]
  exact cut_read2 t (G2 V c)

/-- Result 0 is written back at point 399. -/
theorem flush2_last : (cfg0.win 2).flush tLast = true := (flush0_2 tLast).mpr (by decide)

/-- Point 399's block of result 0 is the whole array. -/
theorem cover2 (c : Dev nD) (i : ((cfg0.win 2).arr.view.loc ((c : Dev nD).tc : Thread nD τ)).2.ty.Idx) :
    i ∈ ((cfg0.win 2).blk tLast).view.set := by
  show i ∈ ((View.whole main_v1_0).slice (win0_2.rect tLast)).set
  rw [View.set_slice_whole, Rect.mem_set_unit]
  intro a
  have h0 : (i 0 : Nat) < 16 := (i 0).isLt
  have h1 : (i 1 : Nat) < 32 := (i 1).isLt
  match a with
  | ⟨0, _⟩ => show win0_2.index tLast 0 * win0_2.size 0 ≤ (i 0 : Nat) ∧ (i 0 : Nat) < win0_2.index tLast 0 * win0_2.size 0 + win0_2.xsize (grid0.coords tLast) 0
              rw [(hindexO tLast).w2.1, show win0_2.xsize (grid0.coords tLast) 0 = 16 from by decide +kernel]; omega
  | ⟨1, _⟩ => show win0_2.index tLast 1 * win0_2.size 1 ≤ (i 1 : Nat) ∧ (i 1 : Nat) < win0_2.index tLast 1 * win0_2.size 1 + win0_2.xsize (grid0.coords tLast) 1
              rw [(hindexO tLast).w2.2, show win0_2.xsize (grid0.coords tLast) 1 = 32 from by decide +kernel]; omega

/-- So result 0 ends holding that array. -/
theorem final2 (c : Dev nD) : (dat0 (F := Ideal) V c).arrAt 2 cfg0.N = G2 V c :=
  (dat0 (F := Ideal) V c).arrAt_eq_of_cover 2 (G2 V c) (flushed2_eq V c) fun i => ⟨tLast, flush2_last, cover2 c i⟩

/-- What result 1 ends holding. -/
abbrev G3 (c : Dev nD) : Vec Ideal S16x32 .f32 := fun i => segUpTo (N := NP) 400 (bcol V c) (fun m => xcol V c (i 1) m * xcol V c (i 1) m) (i 0)

/-- After the last grid point accumulator 1 is that array. -/
theorem acc3_last (c : Dev nD) (t : Fin cfg0.N) (h3 : t.val = 399) : (outsAt0 (F := Ideal) V c t.val t.isLt).2.1 = G3 V c := by
  funext i
  obtain ⟨k, j, rfl⟩ : ∃ k j, i = ix2 k j := ⟨i 0, i 1, eq_ix2 i⟩
  refine ((acc_eq V c t.val t.isLt k).2.1 j).trans ?_
  rw [h3]

/-- Block (0, 0) of a 16x32 array read through zero offsets is the array, at every grid point. -/
theorem cut_read3 (t : Fin cfg0.N) (X : Vec Ideal S16x32 .f32) :
    (cfg0.win 3).cut (grid0.coords t) X = ((cfg0.win 3).blk t).view.read (Elt Ideal) X := by
  have hz' : (fun a => win0_3.index t a * main_v1_1.ty.shape.size a) = fun _ => 0 := funext fun a =>
    match a with
    | ⟨0, _⟩ => (show win0_3.index t 0 * 16 = 0 by rw [(hindexO t).w3.1])
    | ⟨1, _⟩ => (show win0_3.index t 1 * 32 = 0 by rw [(hindexO t).w3.2])
  exact (Memref.read_access_unit_zero (Elt Ideal) main_v1_1 hz' (fun a => by rw [congrFun hz' a]; simp) X).symm

/-- The one write-back of result 1, at point 399, writes that array. -/
theorem flushed3_eq (c : Dev nD) (t : Fin cfg0.N) (hf : (cfg0.win 3).flush t = true) :
    (dat0 (F := Ideal) V c).flushed 3 t = ((cfg0.win 3).blk t).view.read (Elt Ideal) (G3 V c) := by
  have hN : cfg0.N = 400 := N_0
  have h3 : t.val = 399 := by have := (flush0_3 t).mp hf; have := t.isLt; omega
  show (cfg0.win 3).cut (grid0.coords t) ((dat0 (F := Ideal) V c).after 3 t) = _
  rw [after0_3, acc3_last V c t h3]
  exact cut_read3 t (G3 V c)

/-- Result 1 is written back at point 399. -/
theorem flush3_last : (cfg0.win 3).flush tLast = true := (flush0_3 tLast).mpr (by decide)

/-- Point 399's block of result 1 is the whole array. -/
theorem cover3 (c : Dev nD) (i : ((cfg0.win 3).arr.view.loc ((c : Dev nD).tc : Thread nD τ)).2.ty.Idx) :
    i ∈ ((cfg0.win 3).blk tLast).view.set := by
  show i ∈ ((View.whole main_v1_1).slice (win0_3.rect tLast)).set
  rw [View.set_slice_whole, Rect.mem_set_unit]
  intro a
  have h0 : (i 0 : Nat) < 16 := (i 0).isLt
  have h1 : (i 1 : Nat) < 32 := (i 1).isLt
  match a with
  | ⟨0, _⟩ => show win0_3.index tLast 0 * win0_3.size 0 ≤ (i 0 : Nat) ∧ (i 0 : Nat) < win0_3.index tLast 0 * win0_3.size 0 + win0_3.xsize (grid0.coords tLast) 0
              rw [(hindexO tLast).w3.1, show win0_3.xsize (grid0.coords tLast) 0 = 16 from by decide +kernel]; omega
  | ⟨1, _⟩ => show win0_3.index tLast 1 * win0_3.size 1 ≤ (i 1 : Nat) ∧ (i 1 : Nat) < win0_3.index tLast 1 * win0_3.size 1 + win0_3.xsize (grid0.coords tLast) 1
              rw [(hindexO tLast).w3.2, show win0_3.xsize (grid0.coords tLast) 1 = 32 from by decide +kernel]; omega

/-- So result 1 ends holding that array. -/
theorem final3 (c : Dev nD) : (dat0 (F := Ideal) V c).arrAt 3 cfg0.N = G3 V c :=
  (dat0 (F := Ideal) V c).arrAt_eq_of_cover 3 (G3 V c) (flushed3_eq V c) fun i => ⟨tLast, flush3_last, cover3 c i⟩

/-- What result 2 ends holding. -/
abbrev G4 (c : Dev nD) : Vec Ideal S16x1 .f32 := fun i => segUpTo (N := NP) 400 (bcol V c) (fun _ => 1) (i 0)

/-- After the last grid point accumulator 2 is that array. -/
theorem acc4_last (c : Dev nD) (t : Fin cfg0.N) (h3 : t.val = 399) : (outsAt0 (F := Ideal) V c t.val t.isLt).2.2 = G4 V c := by
  funext i
  obtain ⟨k, j, rfl⟩ : ∃ k j, i = ix2 k j := ⟨i 0, i 1, eq_ix2 i⟩
  obtain rfl : j = 0 := Subsingleton.elim _ _
  refine (acc_eq V c t.val t.isLt k).2.2.trans ?_
  rw [h3]

/-- Block (0, 0) of a 16x1 array read through zero offsets is the array, at every grid point. -/
theorem cut_read4 (t : Fin cfg0.N) (X : Vec Ideal S16x1 .f32) :
    (cfg0.win 4).cut (grid0.coords t) X = ((cfg0.win 4).blk t).view.read (Elt Ideal) X := by
  have hz' : (fun a => win0_4.index t a * main_v1_2.ty.shape.size a) = fun _ => 0 := funext fun a =>
    match a with
    | ⟨0, _⟩ => (show win0_4.index t 0 * 16 = 0 by rw [(hindexO t).w4.1])
    | ⟨1, _⟩ => (show win0_4.index t 1 * 1 = 0 by rw [(hindexO t).w4.2])
  exact (Memref.read_access_unit_zero (Elt Ideal) main_v1_2 hz' (fun a => by rw [congrFun hz' a]; simp) X).symm

/-- The one write-back of result 2, at point 399, writes that array. -/
theorem flushed4_eq (c : Dev nD) (t : Fin cfg0.N) (hf : (cfg0.win 4).flush t = true) :
    (dat0 (F := Ideal) V c).flushed 4 t = ((cfg0.win 4).blk t).view.read (Elt Ideal) (G4 V c) := by
  have hN : cfg0.N = 400 := N_0
  have h3 : t.val = 399 := by have := (flush0_4 t).mp hf; have := t.isLt; omega
  show (cfg0.win 4).cut (grid0.coords t) ((dat0 (F := Ideal) V c).after 4 t) = _
  rw [after0_4, acc4_last V c t h3]
  exact cut_read4 t (G4 V c)

/-- Result 2 is written back at point 399. -/
theorem flush4_last : (cfg0.win 4).flush tLast = true := (flush0_4 tLast).mpr (by decide)

/-- Point 399's block of result 2 is the whole array. -/
theorem cover4 (c : Dev nD) (i : ((cfg0.win 4).arr.view.loc ((c : Dev nD).tc : Thread nD τ)).2.ty.Idx) :
    i ∈ ((cfg0.win 4).blk tLast).view.set := by
  show i ∈ ((View.whole main_v1_2).slice (win0_4.rect tLast)).set
  rw [View.set_slice_whole, Rect.mem_set_unit]
  intro a
  have h0 : (i 0 : Nat) < 16 := (i 0).isLt
  have h1 : (i 1 : Nat) < 1 := (i 1).isLt
  match a with
  | ⟨0, _⟩ => show win0_4.index tLast 0 * win0_4.size 0 ≤ (i 0 : Nat) ∧ (i 0 : Nat) < win0_4.index tLast 0 * win0_4.size 0 + win0_4.xsize (grid0.coords tLast) 0
              rw [(hindexO tLast).w4.1, show win0_4.xsize (grid0.coords tLast) 0 = 16 from by decide +kernel]; omega
  | ⟨1, _⟩ => show win0_4.index tLast 1 * win0_4.size 1 ≤ (i 1 : Nat) ∧ (i 1 : Nat) < win0_4.index tLast 1 * win0_4.size 1 + win0_4.xsize (grid0.coords tLast) 1
              rw [(hindexO tLast).w4.2, show win0_4.xsize (grid0.coords tLast) 1 = 1 from by decide +kernel]; omega

/-- So result 2 ends holding that array. -/
theorem final4 (c : Dev nD) : (dat0 (F := Ideal) V c).arrAt 4 cfg0.N = G4 V c :=
  (dat0 (F := Ideal) V c).arrAt_eq_of_cover 4 (G4 V c) (flushed4_eq V c) fun i => ⟨tLast, flush4_last, cover4 c i⟩
/-! ## The three results -/

/-- All 400 blocks are all the points. -/
theorem segUpTo_last (b : Fin NP → BitVec 32) (f : Fin NP → EReal) (k : Fin 16) : segUpTo 400 b f k = seg b f k :=
  segUpTo_all 400 (by decide) b f k

end Final

open Final

theorem sum_final (c : Dev nD) (k : Fin 16) (j : Fin 32) :
    (dat0 (F := Ideal) V c).arrAt 2 cfg0.N (ix2 k j)
      = seg (fun n => barr V c (ix2 n 0)) (fun n => xarr V c (ix2 n j)) k :=
  (congrFun (final2 V c) (ix2 k j)).trans (segUpTo_last (bcol V c) (xcol V c j) k)

theorem sumsq_final (c : Dev nD) (k : Fin 16) (j : Fin 32) :
    (dat0 (F := Ideal) V c).arrAt 3 cfg0.N (ix2 k j)
      = seg (fun n => barr V c (ix2 n 0)) (fun n => xarr V c (ix2 n j) * xarr V c (ix2 n j)) k :=
  (congrFun (final3 V c) (ix2 k j)).trans (segUpTo_last (bcol V c) (fun m => xcol V c j m * xcol V c j m) k)

theorem count_final (c : Dev nD) (k : Fin 16) :
    (dat0 (F := Ideal) V c).arrAt 4 cfg0.N (ix2 k 0)
      = seg (fun n => barr V c (ix2 n 0)) (fun _ => 1) k :=
  (congrFun (final4 V c) (ix2 k 0)).trans (segUpTo_last (bcol V c) (fun _ => 1) k)

end Cert.KernelIdeal.R0

end
-- ==== Proof.R1Payload.lean ====
/-
  The normalising kernel's body at one entry of its block. A row whose id is instance `k` picks, out of the sixteen
  masked terms the body adds up, row `k` of the mean table and row `k` of the inverse-deviation table (every other
  mask is zero), so the stored value is `(x - mean k) * istd k * w + β`.
-/
import proofs.«417694_j75883482186010_3_alg».proof.Proof.Spec
import proofs.«417694_j75883482186010_3_alg».proof.Proof.Gen.KernelIdeal.Frame
import proofs.«417694_j75883482186010_3_alg».proof.Proof.LibRowCasts
import Idealize.ShloMosaic.Lib.Pipeline.Value
import Idealize.ShloMosaic.Lib.ValueLayout

set_option maxRecDepth 16384

noncomputable section

namespace Cert.KernelIdeal.R1

open Idealize.ShloMosaic Idealize.ShloMosaic.TcCoe Idealize.SL.Sem Idealize.ShloMosaic.ValueIdx
open Cert.KernelIdeal Cert.KernelIdeal.Gen Cert.InstNorm

namespace Payload

/-! ## The mask of one instance, as a number -/

/-- The word comparison "equal", widened and read as a signed integer, is `1` where the words agree and `0` elsewhere. -/
theorem mask_word (a b : BitVec 32) :
    (FloatOps.sitofp (F := Ideal) .f32 ((IntOp.cmpi .eq a b).setWidth 32) : EReal) = if a = b then 1 else 0 := by
  by_cases h : a = b
  · subst h
    have e : (IntOp.cmpi .eq a a).setWidth 32 = 1#32 := by
      show BitVec.setWidth 32 (BitVec.ofBool (a == a)) = 1#32
      rw [beq_self_eq_true]; rfl
    rw [e, if_pos rfl]
    show (((1#32 : BitVec 32).toInt : ℝ) : EReal) = 1
    norm_num
  · have hf : (a == b) = false := beq_eq_false_iff_ne.mpr h
    have e : (IntOp.cmpi .eq a b).setWidth 32 = 0#32 := by
      show BitVec.setWidth 32 (BitVec.ofBool (a == b)) = 0#32
      rw [hf]; rfl
    rw [e, if_neg h]
    show (((0#32 : BitVec 32).toInt : ℝ) : EReal) = 0
    norm_num

/-! ## Sixteen masked rows collapse to one -/

/-- Of sixteen terms `[b = c] · T c`, `c = 0 … 15`, added to zero in order, only the one with `c = k` survives when
    `b` is the word of `k`: in the extended reals `0 · y = 0` and `1 · y = y` for every `y`, finite or not. -/
theorem pick16 (T : Fin 16 → EReal) (k : Fin 16) (b : BitVec 32) (hb : b = BitVec.ofNat 32 k.val) :
    0 + (if b = 0#32 then 1 else 0) * T ⟨0, by decide⟩ + (if b = 1#32 then 1 else 0) * T ⟨1, by decide⟩
      + (if b = 2#32 then 1 else 0) * T ⟨2, by decide⟩ + (if b = 3#32 then 1 else 0) * T ⟨3, by decide⟩
      + (if b = 4#32 then 1 else 0) * T ⟨4, by decide⟩ + (if b = 5#32 then 1 else 0) * T ⟨5, by decide⟩
      + (if b = 6#32 then 1 else 0) * T ⟨6, by decide⟩ + (if b = 7#32 then 1 else 0) * T ⟨7, by decide⟩
      + (if b = 8#32 then 1 else 0) * T ⟨8, by decide⟩ + (if b = 9#32 then 1 else 0) * T ⟨9, by decide⟩
      + (if b = 10#32 then 1 else 0) * T ⟨10, by decide⟩ + (if b = 11#32 then 1 else 0) * T ⟨11, by decide⟩
      + (if b = 12#32 then 1 else 0) * T ⟨12, by decide⟩ + (if b = 13#32 then 1 else 0) * T ⟨13, by decide⟩
      + (if b = 14#32 then 1 else 0) * T ⟨14, by decide⟩ + (if b = 15#32 then (1 : EReal) else 0) * T ⟨15, by decide⟩
      = T k := by
  subst hb
  fin_cases k <;> simp

/-! ## The body's layout operations at an entry -/

/-- A one-row rectangle at row `n` of a sixteen-row table lies inside it only if `n` is below sixteen. -/
theorem row_lt (n : Nat) (inb : ∀ a, (![n, 0] : Fin 2 → Nat) a + S1x32.size a ≤ S16x32.size a) : n < 16 := by
  have h : n + 1 ≤ 16 := inb 0
  omega

/-- A load of row `n` of a sixteen-row table reads, at lane `j`, the table at `(n, j)`: the rectangle's row is its
    offset plus one times the row inside it. -/
theorem ld_row (x : Vec Ideal S16x32 .f32) (n : Nat)
    (inb : ∀ a, (![n, 0] : Fin 2 → Nat) a + S1x32.size a ≤ S16x32.size a) (j : Fin 32) :
    View.ld x (Rect.unit (s := S16x32) ![n, 0] S1x32.size inb) (ix2 (0 : Fin 1) j)
      = x (ix2 (⟨n, row_lt n inb⟩ : Fin 16) j) := by
  show x _ = x _
  congr 1
  funext a
  match a with
  | ⟨0, _⟩ => exact Fin.ext (by show n + 1 * 0 = n; omega)
  | ⟨1, _⟩ => exact Fin.ext (by show 0 + 1 * j.val = j.val; omega)

/-- A column broadcast over the 32 lanes reads, at `(r, j)`, the column at row `r`. -/
theorem col_apply {α : Type} (m : S5000x1.Idx → α) (hb : S5000x1.Broadcasts S5000x32) (r : Fin 5000) (j : Fin 32) :
    broadcastTo S5000x32 m hb (ix2 r j) = m (ix2 r (0 : Fin 1)) :=
  RowCasts.broadcastTo_column_apply m hb r j

/-- A row broadcast over the 5000 rows reads, at `(r, j)`, the row at lane `j`. -/
theorem row_apply {α : Type} (v : S1x32.Idx → α) (hb : S1x32.Broadcasts S5000x32) (r : Fin 5000) (j : Fin 32) :
    broadcastTo S5000x32 v hb (ix2 r j) = v (ix2 (0 : Fin 1) j) :=
  broadcastTo_1b_ab_apply v hb r j

/-- A row flattened to a vector and cast back is the row. -/
theorem cast_apply {α : Type} (v : S1x32.Idx → α) (hc1 : S1x32.ShapeCasts S32) (hc2 : S32.ShapeCasts S1x32) (j : Fin 32) :
    shapeCast S1x32 (shapeCast S32 v hc1) hc2 (ix2 (0 : Fin 1) j) = v (ix2 (0 : Fin 1) j) := by
  rw [shapeCast_a_1a_apply, shapeCast_1a_a_apply]

/-- The mask of instance word `c` at a row: `1` where the row's id is `c`, `0` elsewhere. -/
theorem mask_apply (a : IVec S5000x1 32) (c : BitVec 32) (h : 1 < 32) (r : Fin 5000) :
    (sitofp .f32 (extui 32 (cmpi .eq a (broadcast S5000x1 c)) h) : FVec Ideal S5000x1 .f32) (ix2 r (0 : Fin 1))
      = if a (ix2 r (0 : Fin 1)) = c then 1 else 0 := mask_word _ _

end Payload

open Payload

/-! ## The stored value at an entry -/

/-- The body's one store, read at row `r` and lane `j` of the block, when the row's id is instance `k`: the two
    sixteen-term sums are the mean and the inverse deviation of instance `k` at lane `j`. -/
theorem out1_apply (x0 : Vec Ideal S5000x32 .f32) (x1 : Vec Ideal S5000x1 .i32) (x2 x3 : Vec Ideal S16x32 .f32)
    (x4 x5 : Vec Ideal S1x32 .f32) (r : Fin 5000) (j : Fin 32) (k : Fin 16)
    (hk : x1 (ix2 r 0) = BitVec.ofNat 32 k.val) :
    out1_6 (F := Ideal) x0 x1 x2 x3 x4 x5 (ix2 r j)
      = (x0 (ix2 r j) - x2 (ix2 k j)) * x3 (ix2 k j) * x4 (ix2 0 j) + x5 (ix2 0 j) := by
  have hz : (![0, 0] : Fin 2 → Nat) = fun _ => 0 := by
    funext a; match a with | ⟨0, _⟩ => rfl | ⟨1, _⟩ => rfl
  -- the one store covers the block, and the feature, id, scale and shift loads read their whole blocks
  unfold out1_6
  rw [View.canon_unit_zero hz]
  simp only [View.ld_unit_zero (S := S5000x32) hz, View.ld_unit_zero (S := S5000x1) hz,
    View.ld_unit_zero (S := S1x32) hz]
  -- the pointwise chain at `(r, j)`: each of the sixteen steps adds `mask c * (row c of the table)`
  simp only [k1_pay1, k1_pay2, k1_pay3, k1_pay4, k1_pay5, k1_pay6, k1_pay7, k1_pay8, k1_pay9, k1_pay10, k1_pay11,
    k1_pay12, k1_pay13, k1_pay14, k1_pay15, k1_pay16, k1_pay17, k1_pay18, k1_pay19, k1_pay20, k1_pay21, k1_pay22,
    k1_pay23, k1_pay24, k1_pay25, k1_pay26, k1_pay27, k1_pay28, k1_pay29, k1_pay30, k1_pay31, k1_pay32, k1_pay33,
    k1_pay34, k1_pay35,
    addf_apply, subf_apply, mulf_apply, broadcast_apply, col_apply, row_apply, cast_apply, mask_apply,
    shapeCast_self, Ideal.ofBits_def, Ideal.ofBits_zero_f32]
  -- the table rows the sixteen loads read
  repeat rw [ld_row]
  -- the row's id is `k`: only term `k` of each sum survives
  rw [pick16 (fun c => x2 (ix2 c j)) k _ hk, pick16 (fun c => x3 (ix2 c j)) k _ hk]

end Cert.KernelIdeal.R1

end
-- ==== Proof.R1Final.lean ====
/-
  The normalising kernel's result array after its 400 grid points: block `t` holds rows `5000 t … 5000 t + 4999`, each
  written once, so entry `(n, j)` is the body's value at that row read against the whole arrays.
-/
import proofs.«417694_j75883482186010_3_alg».proof.Proof.Spec
import proofs.«417694_j75883482186010_3_alg».proof.Proof.Gen.KernelIdeal.Frame
import Idealize.ShloMosaic.Lib.Pipeline.Value
import proofs.«417694_j75883482186010_3_alg».proof.Proof.R1Payload
set_option maxRecDepth 16384

noncomputable section

namespace Cert.KernelIdeal.R1

open Idealize.ShloMosaic Idealize.ShloMosaic.TcCoe Idealize.SL.Sem Idealize.ShloMosaic.ValueIdx
open Cert.KernelIdeal Cert.KernelIdeal.Gen Cert.InstNorm

variable (V : (c : Dev nD) → (b : Ref sig .tc) → Buf (Elt Ideal) ((c : Thread nD τ).loc b))

/-- The arrays as the region finds them: features, id column, mean table, inverse-deviation table, scale, shift. -/
abbrev xarr (c : Dev nD) : S2000000x32.Idx → EReal := V c main_arg0
abbrev barr (c : Dev nD) : S2000000x1.Idx → BitVec 32 := V c main_v0
abbrev marr (c : Dev nD) : S16x32.Idx → EReal := V c main_v5
abbrev sarr (c : Dev nD) : S16x32.Idx → EReal := V c main_v16
abbrev warr (c : Dev nD) : S1x32.Idx → EReal := V c main_arg2
abbrev betarr (c : Dev nD) : S1x32.Idx → EReal := V c main_arg3

/-! ## Where each window's block sits -/

/-- The three row windows (features, id column, result) are at block `(t, 0)` at grid point `t`. -/
theorem rowWindow_index : ∀ t : Fin cfg1.N, (win1_0.index t 0 = t.val ∧ win1_0.index t 1 = 0)
    ∧ (win1_1.index t 0 = t.val ∧ win1_1.index t 1 = 0)
    ∧ (win1_6.index t 0 = t.val ∧ win1_6.index t 1 = 0) :=
  (by decide +kernel : ∀ t : Fin grid1.N, _)

/-- The four table windows (means, inverse deviations, scale, shift) are at block `(0, 0)` at every grid point. -/
theorem tableWindow_index : ∀ t : Fin cfg1.N, (win1_2.index t 0 = 0 ∧ win1_2.index t 1 = 0)
    ∧ (win1_3.index t 0 = 0 ∧ win1_3.index t 1 = 0)
    ∧ (win1_4.index t 0 = 0 ∧ win1_4.index t 1 = 0)
    ∧ (win1_5.index t 0 = 0 ∧ win1_5.index t 1 = 0) :=
  (by decide +kernel : ∀ t : Fin grid1.N, _)

/-! ## The blocks read against the whole arrays -/

/-- Row `r` of the feature block at point `t` is row `5000 t + r` of the feature array. -/
theorem featureBlock_apply (c : Dev nD) (t : Fin cfg1.N) (r : Fin 5000) (j : Fin 32) (n : Fin NP)
    (hn : n.val = 5000 * t.val + r.val) :
    (iblk1 (F := Ideal) V c 0 t : Vec Ideal S5000x32 .f32) (ix2 r j) = xarr V c (ix2 n j) := by
  unfold iblk1
  rw [View.read_apply]
  show V c main_arg0 _ = V c main_arg0 _
  congr 1
  funext a
  apply Fin.ext
  obtain ⟨⟨e0, e1⟩, -, -⟩ := rowWindow_index t
  match a with
  | ⟨0, _⟩ => show win1_0.index t 0 * 5000 + 1 * r.val = n.val; rw [e0, hn]; omega
  | ⟨1, _⟩ => show win1_0.index t 1 * 32 + 1 * j.val = j.val; rw [e1]; omega

/-- Row `r` of the id block at point `t` is row `5000 t + r` of the id column. -/
theorem idBlock_apply (c : Dev nD) (t : Fin cfg1.N) (r : Fin 5000) (n : Fin NP)
    (hn : n.val = 5000 * t.val + r.val) :
    (iblk1 (F := Ideal) V c 1 t : Vec Ideal S5000x1 .i32) (ix2 r 0) = barr V c (ix2 n 0) := by
  unfold iblk1
  rw [View.read_apply]
  show V c main_v0 _ = V c main_v0 _
  congr 1
  funext a
  apply Fin.ext
  obtain ⟨-, ⟨e0, e1⟩, -⟩ := rowWindow_index t
  match a with
  | ⟨0, _⟩ => show win1_1.index t 0 * 5000 + 1 * r.val = n.val; rw [e0, hn]; omega
  | ⟨1, _⟩ => show win1_1.index t 1 * 1 + 1 * 0 = 0; rw [e1]

/-- The mean table's block is the whole table at every point. -/
theorem meanBlock_eq (c : Dev nD) (t : Fin cfg1.N) : (iblk1 (F := Ideal) V c 2 t : Vec Ideal S16x32 .f32) = marr V c := by
  funext y
  unfold iblk1
  rw [View.read_apply]
  show V c main_v5 _ = V c main_v5 y
  congr 1
  funext a
  apply Fin.ext
  obtain ⟨⟨e0, e1⟩, -, -, -⟩ := tableWindow_index t
  match a with
  | ⟨0, _⟩ => show win1_2.index t 0 * 16 + 1 * (y 0).val = (y 0).val; rw [e0]; omega
  | ⟨1, _⟩ => show win1_2.index t 1 * 32 + 1 * (y 1).val = (y 1).val; rw [e1]; omega

/-- The inverse-deviation table's block is the whole table at every point. -/
theorem istdBlock_eq (c : Dev nD) (t : Fin cfg1.N) : (iblk1 (F := Ideal) V c 3 t : Vec Ideal S16x32 .f32) = sarr V c := by
  funext y
  unfold iblk1
  rw [View.read_apply]
  show V c main_v16 _ = V c main_v16 y
  congr 1
  funext a
  apply Fin.ext
  obtain ⟨-, ⟨e0, e1⟩, -, -⟩ := tableWindow_index t
  match a with
  | ⟨0, _⟩ => show win1_3.index t 0 * 16 + 1 * (y 0).val = (y 0).val; rw [e0]; omega
  | ⟨1, _⟩ => show win1_3.index t 1 * 32 + 1 * (y 1).val = (y 1).val; rw [e1]; omega

/-- The scale row's block is the whole row at every point. -/
theorem scaleBlock_eq (c : Dev nD) (t : Fin cfg1.N) : (iblk1 (F := Ideal) V c 4 t : Vec Ideal S1x32 .f32) = warr V c := by
  funext y
  unfold iblk1
  rw [View.read_apply]
  show V c main_arg2 _ = V c main_arg2 y
  congr 1
  funext a
  apply Fin.ext
  obtain ⟨-, -, ⟨e0, e1⟩, -⟩ := tableWindow_index t
  match a with
  | ⟨0, _⟩ => show win1_4.index t 0 * 1 + 1 * (y 0).val = (y 0).val; rw [e0]; omega
  | ⟨1, _⟩ => show win1_4.index t 1 * 32 + 1 * (y 1).val = (y 1).val; rw [e1]; omega

/-- The shift row's block is the whole row at every point. -/
theorem shiftBlock_eq (c : Dev nD) (t : Fin cfg1.N) : (iblk1 (F := Ideal) V c 5 t : Vec Ideal S1x32 .f32) = betarr V c := by
  funext y
  unfold iblk1
  rw [View.read_apply]
  show V c main_arg3 _ = V c main_arg3 y
  congr 1
  funext a
  apply Fin.ext
  obtain ⟨-, -, -, ⟨e0, e1⟩⟩ := tableWindow_index t
  match a with
  | ⟨0, _⟩ => show win1_5.index t 0 * 1 + 1 * (y 0).val = (y 0).val; rw [e0]; omega
  | ⟨1, _⟩ => show win1_5.index t 1 * 32 + 1 * (y 1).val = (y 1).val; rw [e1]; omega

/-! ## What a grid point writes back, one entry at a time -/

/-- Entry `(r, j)` of the block point `t` writes back, for a row `n = 5000 t + r` whose id is instance `k`: the body's
    value with every block read against its whole array. -/
theorem written_apply (c : Dev nD) (t : Fin cfg1.N) (r : Fin 5000) (j : Fin 32) (k : Fin 16) (n : Fin NP)
    (hn : n.val = 5000 * t.val + r.val) (hk : barr V c (ix2 n 0) = BitVec.ofNat 32 k.val) :
    (dat1 (F := Ideal) V c).flushed 6 t (ix2 r j)
      = (xarr V c (ix2 n j) - marr V c (ix2 k j)) * sarr V c (ix2 k j) * warr V c (ix2 0 j) + betarr V c (ix2 0 j) := by
  show (cfg1.win 6).cut (grid1.coords t) ((dat1 V c).after 6 t) (ix2 r j) = _
  rw [after1_6]
  refine (out1_apply (iblk1 V c 0 t) (iblk1 V c 1 t) (iblk1 V c 2 t) (iblk1 V c 3 t) (iblk1 V c 4 t) (iblk1 V c 5 t) r j k ?_).trans ?_
  · rw [idBlock_apply V c t r n hn]; exact hk
  · rw [featureBlock_apply V c t r j n hn, meanBlock_eq V c t, istdBlock_eq V c t, scaleBlock_eq V c t, shiftBlock_eq V c t]

/-! ## From the written blocks to the array -/

/-- Two different grid points write back disjoint blocks of the result array: block `t` is rows `5000 t … 5000 t + 4999`. -/
theorem resultBlocks_disjoint : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (Fin.ext (by
    have h0 : win1_6.index t 0 = win1_6.index t' 0 := congrFun h 0
    rw [(rowWindow_index t).2.2.1, (rowWindow_index t').2.2.1] at h0
    exact h0))

/-- Entry `(r, j)` of the result block at point `t` is entry `(5000 t + r, j)` of the result array. -/
theorem resultBlock_emb (t : Fin cfg1.N) (r : Fin 5000) (j : Fin 32) (n : Fin NP) (hn : n.val = 5000 * t.val + r.val) :
    ((cfg1.win 6).blk t).view.emb (ix2 r j) = (ix2 n j : S2000000x32.Idx) := by
  funext a
  apply Fin.ext
  obtain ⟨-, -, e0, e1⟩ := rowWindow_index t
  match a with
  | ⟨0, _⟩ => show win1_6.index t 0 * 5000 + 1 * r.val = n.val; rw [e0, hn]; omega
  | ⟨1, _⟩ => show win1_6.index t 1 * 32 + 1 * j.val = j.val; rw [e1]; omega

theorem out_final (c : Dev nD) (n : Fin NP) (j : Fin 32) (k : Fin 16)
    (hk : barr V c (ix2 n 0) = BitVec.ofNat 32 k.val) :
    (dat1 (F := Ideal) V c).arrAt 6 cfg1.N (ix2 n j)
      = (xarr V c (ix2 n j) - marr V c (ix2 k j)) * sarr V c (ix2 k j) * warr V c (ix2 0 j) + betarr V c (ix2 0 j) := by
  -- the point that covers row `n` is `n / 5000`, the row inside its block `n % 5000`
  have hN : grid1.N = 400 := N_1
  have hn : n.val < 2000000 := n.isLt
  let t : Fin cfg1.N := ⟨n.val / 5000, by show n.val / 5000 < grid1.N; rw [hN]; omega⟩
  let r : Fin 5000 := ⟨n.val % 5000, Nat.mod_lt _ (by decide)⟩
  have hnr : n.val = 5000 * t.val + r.val := (Nat.div_add_mod n.val 5000).symm
  have e := (dat1 (F := Ideal) V c).arrAt_emb_eq_flushed 6 resultBlocks_disjoint t (flush1_6 t) (ix2 r j)
  rw [resultBlock_emb t r j n hnr, cast_eq] at e
  exact e.trans (written_apply V c t r j k n hnr hk)

end Cert.KernelIdeal.R1

end
-- ==== Proof.KernelValue.lean ====
/-
  The kernel program's result as a function of its four inputs.

  The program is two pallas regions among host stretches. Region 0 leaves, per instance and channel, the sum of the
  features, the sum of their squares and the number of points (the ids reach it as a column: the id vector cast to
  `[n, 1]`). The host stretch between the regions turns them into each instance's mean
  `sum / max count 1` and inverse deviation `1 / sqrt (max (sumsq / max count 1 - mean²) 0 + ε)`. Region 1 reads a
  point's features, its id, the two tables, the scale and the shift, and writes
  `(x - mean[id]) * istd[id] * w + β`. Each region's array after its write-backs is read off the frame's proof data;
  each of region 1's inputs is walked back through the boundaries to what wrote it. Composed, the result at
  `(n, j)` is the specification `outK` of the launch contents.
-/
import proofs.«417694_j75883482186010_3_alg».proof.Proof.Spec
import proofs.«417694_j75883482186010_3_alg».proof.Proof.LibRowCasts
import proofs.«417694_j75883482186010_3_alg».proof.Proof.Gen.KernelIdeal.Frame
import proofs.«417694_j75883482186010_3_alg».proof.Proof.R0Final
import proofs.«417694_j75883482186010_3_alg».proof.Proof.R1Final
import Idealize.ShloMosaic.Lib.Pipeline.Value
import Idealize.ShloMosaic.Lib.StableHlo.Run
import Idealize.ShloMosaic.Lib.ValueIdx

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.InstNorm

variable (m : (ℓ : Loc nD τ sig) → Buf (Elt Ideal) ℓ) (ρ : Dev nD → PrngReg)

/-! ## The arrays at the segment boundaries, by their literal types -/

abbrev featArg (c : Dev nD) : FVec Ideal S2000000x32 .f32 := m ((c : Thread nD τ).loc main_arg0)
abbrev idsArg (c : Dev nD) : IVec S2000000 32 := m ((c : Thread nD τ).loc main_arg1)
abbrev scaleArg (c : Dev nD) : FVec Ideal S1x32 .f32 := m ((c : Thread nD τ).loc main_arg2)
abbrev shiftArg (c : Dev nD) : FVec Ideal S1x32 .f32 := m ((c : Thread nD τ).loc main_arg3)

abbrev feat1 (c : Dev nD) : FVec Ideal S2000000x32 .f32 := V1 m ρ c main_arg0
abbrev idCol1 (c : Dev nD) : IVec S2000000x1 32 := V1 m ρ c main_v0
abbrev sumArr (c : Dev nD) : FVec Ideal S16x32 .f32 := W2 m ρ c (Proc.devRef .tc main_v1_0)
abbrev sqArr (c : Dev nD) : FVec Ideal S16x32 .f32 := W2 m ρ c (Proc.devRef .tc main_v1_1)
abbrev cntArr (c : Dev nD) : FVec Ideal S16x1 .f32 := W2 m ρ c (Proc.devRef .tc main_v1_2)
abbrev feat3 (c : Dev nD) : FVec Ideal S2000000x32 .f32 := V3 m ρ c main_arg0
abbrev idCol3 (c : Dev nD) : IVec S2000000x1 32 := V3 m ρ c main_v0
abbrev meanArr (c : Dev nD) : FVec Ideal S16x32 .f32 := V3 m ρ c main_v5
abbrev istdArr (c : Dev nD) : FVec Ideal S16x32 .f32 := V3 m ρ c main_v16
abbrev scale3 (c : Dev nD) : FVec Ideal S1x32 .f32 := V3 m ρ c main_arg2
abbrev shift3 (c : Dev nD) : FVec Ideal S1x32 .f32 := V3 m ρ c main_arg3

/-! ## The inputs at coordinates -/

/-- Feature `j` of point `n`. -/
def xs (c : Dev nD) : Fin NP → Fin 32 → EReal := fun n j => featArg m c (ix2 n j)
/-- The id word of point `n`. -/
def bs (c : Dev nD) : Fin NP → BitVec 32 := fun n => idsArg m c (ix1 n)
/-- The scale and the shift of channel `j`. -/
def ws (c : Dev nD) : Fin 32 → EReal := fun j => scaleArg m c (ix2 0 j)
def βs (c : Dev nD) : Fin 32 → EReal := fun j => shiftArg m c (ix2 0 j)

/-! ## Region 0's entry: the features as launched, the ids as a column -/

theorem feat1_eq (c : Dev nD) : feat1 m ρ c = featArg m c := by
  show StableHlo.after hostOps0 (W0 m ρ c) (Proc.devRef .tc main_arg0) = _
  after_results

theorem idCol1_eq (c : Dev nD) :
    idCol1 m ρ c = shapeCast S2000000x1 (idsArg m c) shapeCasts_S2000000_S2000000x1 := by
  show StableHlo.after hostOps0 (W0 m ρ c) (Proc.devRef .tc main_v0) = _
  after_results
  rfl

theorem idCol1_at (c : Dev nD) (n : Fin NP) : idCol1 m ρ c (ix2 n 0) = bs m c n := by
  rw [idCol1_eq]
  exact RowCasts.shapeCast_column_apply (idsArg m c) shapeCasts_S2000000_S2000000x1 n 0

/-! ## Region 0's results: the three sums over the instances -/

theorem ids1_fun (c : Dev nD) : (fun n : Fin NP => idCol1 m ρ c (ix2 n 0)) = bs m c :=
  funext fun n => idCol1_at m ρ c n

theorem sum_at (c : Dev nD) (k : Fin 16) (j : Fin 32) :
    sumArr m ρ c (ix2 k j) = seg (bs m c) (fun n => xs m c n j) k := by
  have e : sumArr m ρ c = (dat0 (F := Ideal) (V1 m ρ) c).arrAt 2 cfg0.N := W2_arr m ρ c 2
  have h2 : seg (fun n => idCol1 m ρ c (ix2 n 0)) (fun n => feat1 m ρ c (ix2 n j)) k
      = seg (bs m c) (fun n => xs m c n j) k := by
    rw [ids1_fun, feat1_eq]; rfl
  exact (congrFun e (ix2 k j)).trans ((Cert.KernelIdeal.R0.sum_final (V1 m ρ) c k j).trans h2)

theorem sq_at (c : Dev nD) (k : Fin 16) (j : Fin 32) :
    sqArr m ρ c (ix2 k j) = seg (bs m c) (fun n => xs m c n j * xs m c n j) k := by
  have e : sqArr m ρ c = (dat0 (F := Ideal) (V1 m ρ) c).arrAt 3 cfg0.N := W2_arr m ρ c 3
  have h2 : seg (fun n => idCol1 m ρ c (ix2 n 0)) (fun n => feat1 m ρ c (ix2 n j) * feat1 m ρ c (ix2 n j)) k
      = seg (bs m c) (fun n => xs m c n j * xs m c n j) k := by
    rw [ids1_fun, feat1_eq]; rfl
  exact (congrFun e (ix2 k j)).trans ((Cert.KernelIdeal.R0.sumsq_final (V1 m ρ) c k j).trans h2)

theorem cnt_at (c : Dev nD) (k : Fin 16) :
    cntArr m ρ c (ix2 k 0) = seg (bs m c) (fun _ => 1) k := by
  have e : cntArr m ρ c = (dat0 (F := Ideal) (V1 m ρ) c).arrAt 4 cfg0.N := W2_arr m ρ c 4
  have h2 : seg (fun n => idCol1 m ρ c (ix2 n 0)) (fun _ => 1) k = seg (bs m c) (fun _ => 1) k := by
    rw [ids1_fun]
  exact (congrFun e (ix2 k 0)).trans ((Cert.KernelIdeal.R0.count_final (V1 m ρ) c k).trans h2)

/-! ## The host stretch between the regions: the mean and the inverse deviation of each instance -/

/-- The clipped count, broadcast over the channels. -/
def kArr (cnt : FVec Ideal S16x1 .f32) : FVec Ideal S16x32 .f32 :=
  broadcastInDim S16x32 ![0, 1] bcast_S16x1_S16x32_0_1
    (maximumf cnt (broadcastInDim S16x1 ![] bcast_S_S16x1 (constant (F := Ideal) S_ .f32 0x3F800000#32)))

theorem kArr_apply (cnt : FVec Ideal S16x1 .f32) (k : Fin 16) (j : Fin 32) :
    kArr cnt (ix2 k j) = max (cnt (ix2 k 0)) oneW := by
  unfold kArr
  rw [broadcastInDim_apply ![0, 1] bcast_S16x1_S16x32_0_1 _ (ix2 k j) (ix2 k (0 : Fin 1)) (fun a => by
    match a with
    | ⟨0, _⟩ => rfl
    | ⟨1, _⟩ => rfl)]
  rw [maximumf_apply]
  rw [broadcastInDim_apply ![] bcast_S_S16x1 _ (ix2 k (0 : Fin 1)) ix0 (fun a => a.elim0)]
  rfl

/-- A constant broadcast to the table's shape reads the constant. -/
theorem bcast_const_apply (w : BitVec 32) (k : Fin 16) (j : Fin 32) :
    broadcastInDim S16x32 ![] bcast_S_S16x32 (constant (F := Ideal) S_ .f32 w) (ix2 k j) = Ideal.ofBits .f32 w := by
  rw [broadcastInDim_apply ![] bcast_S_S16x32 _ (ix2 k j) ix0 (fun a => a.elim0)]
  rfl

theorem meanArr_eq (c : Dev nD) :
    meanArr m ρ c = Host.divf (sumArr m ρ c) (kArr (cntArr m ρ c)) := by
  show StableHlo.after hostOps1 (W2 m ρ c) (Proc.devRef .tc main_v5) = _
  after_results
  rfl

theorem istdArr_eq (c : Dev nD) :
    istdArr m ρ c = Host.divf (broadcastInDim S16x32 ![] bcast_S_S16x32 (constant (F := Ideal) S_ .f32 0x3F800000#32))
      (Host.sqrt (addf (maximumf (subf (Host.divf (sqArr m ρ c) (kArr (cntArr m ρ c)))
          (mulf (Host.divf (sumArr m ρ c) (kArr (cntArr m ρ c))) (Host.divf (sumArr m ρ c) (kArr (cntArr m ρ c)))))
        (broadcastInDim S16x32 ![] bcast_S_S16x32 (constant (F := Ideal) S_ .f32 0x00000000#32)))
        (broadcastInDim S16x32 ![] bcast_S_S16x32 (constant (F := Ideal) S_ .f32 0x322BCC77#32)))) := by
  show StableHlo.after hostOps1 (W2 m ρ c) (Proc.devRef .tc main_v16) = _
  after_results
  rfl

theorem hostDivf_apply (a b : FVec Ideal S16x32 .f32) (i : S16x32.Idx) : Host.divf a b i = Ideal.div (a i) (b i) := rfl
theorem hostSqrt_apply (a : FVec Ideal S16x32 .f32) (i : S16x32.Idx) : Host.sqrt a i = Ideal.sqrt (a i) := rfl

theorem mean_at (c : Dev nD) (k : Fin 16) (j : Fin 32) :
    meanArr m ρ c (ix2 k j) = mean (xs m c) (bs m c) k j := by
  rw [meanArr_eq, hostDivf_apply, kArr_apply, sum_at, cnt_at]
  rfl

theorem istd_at (c : Dev nD) (k : Fin 16) (j : Fin 32) :
    istdArr m ρ c (ix2 k j) = istd (varK (xs m c) (bs m c) k j) := by
  rw [istdArr_eq, hostDivf_apply, hostSqrt_apply, addf_apply, maximumf_apply, subf_apply, mulf_apply,
    hostDivf_apply, hostDivf_apply, kArr_apply, sum_at, sq_at, cnt_at,
    bcast_const_apply, bcast_const_apply, bcast_const_apply, Ideal.ofBits_zero_f32]
  rfl

/-! ## Region 1's entry: its six input arrays -/

theorem feat3_eq (c : Dev nD) : feat3 m ρ c = featArg m c := by
  have h1 : W4 m ρ c (Proc.devRef .tc main_arg0) = feat3 m ρ c :=
    (W4_arr m ρ c 0).trans (((dat1 (V3 m ρ) c).arrAt_in 0 rfl _).trans (A_eq1 (V3 m ρ) c 0))
  exact h1.symm.trans (W4_main_arg0 m ρ c)

theorem scale3_eq (c : Dev nD) : scale3 m ρ c = scaleArg m c := by
  have h1 : W4 m ρ c (Proc.devRef .tc main_arg2) = scale3 m ρ c :=
    (W4_arr m ρ c 4).trans (((dat1 (V3 m ρ) c).arrAt_in 4 rfl _).trans (A_eq1 (V3 m ρ) c 4))
  exact h1.symm.trans (W4_main_arg2 m ρ c)

theorem shift3_eq (c : Dev nD) : shift3 m ρ c = shiftArg m c := by
  have h1 : W4 m ρ c (Proc.devRef .tc main_arg3) = shift3 m ρ c :=
    (W4_arr m ρ c 5).trans (((dat1 (V3 m ρ) c).arrAt_in 5 rfl _).trans (A_eq1 (V3 m ρ) c 5))
  exact h1.symm.trans (W4_main_arg3 m ρ c)

theorem idCol3_eq (c : Dev nD) : idCol3 m ρ c = idCol1 m ρ c := by
  have h1 : idCol3 m ρ c = W2 m ρ c (Proc.devRef .tc main_v0) := by
    show StableHlo.after hostOps1 (W2 m ρ c) (Proc.devRef .tc main_v0) = _
    after_results
  exact h1.trans ((W2_arr m ρ c 1).trans (((dat0 (V1 m ρ) c).arrAt_in 1 rfl _).trans (A_eq0 (V1 m ρ) c 1)))

/-! ## The kernel program's result -/

/-- The result buffer at the last segment boundary. -/
abbrev result (c : Dev nD) : FVec Ideal S2000000x32 .f32 := W4 m ρ c (Proc.devRef .tc main_v17)

/-- Where every id is one of `0 … 15`, the result at `(n, j)` is the specification `outK` of the launch contents. -/
theorem kernel_value (c : Dev nD) (hb : ∀ n, bs m c n = BitVec.ofNat 32 (cls (bs m c n)).val) (n : Fin NP) (j : Fin 32) :
    result m ρ c (ix2 n j) = outK (xs m c) (bs m c) (ws m c) (βs m c) n j := by
  have e : result m ρ c = (dat1 (F := Ideal) (V3 m ρ) c).arrAt 6 cfg1.N := W4_arr m ρ c 6
  have hk : idCol3 m ρ c (ix2 n 0) = BitVec.ofNat 32 (cls (bs m c n)).val := by
    rw [idCol3_eq, idCol1_at]; exact hb n
  refine (congrFun e (ix2 n j)).trans ((Cert.KernelIdeal.R1.out_final (V3 m ρ) c n j (cls (bs m c n)) hk).trans ?_)
  show (feat3 m ρ c (ix2 n j) - meanArr m ρ c (ix2 (cls (bs m c n)) j)) * istdArr m ρ c (ix2 (cls (bs m c n)) j)
      * scale3 m ρ c (ix2 0 j) + shift3 m ρ c (ix2 0 j) = _
  rw [feat3_eq, mean_at, istd_at, scale3_eq, shift3_eq]
  rfl

end Cert.KernelIdeal.KValue

end
-- ==== Proof.RefOps.lean ====
/-
  The reference's three data-dependent operations, each read at one entry over the extended reals.
  An accumulating scatter along the instance axis adds to entry `(k, j)` every update row whose id word is `k` (a word
  outside `0 … 15` lands nowhere); a gather along the instance axis reads, at a row whose id word is `k`, row `k` of the
  table.
-/
import proofs.«417694_j75883482186010_3_alg».proof.Proof.Spec
import proofs.«417694_j75883482186010_3_alg».proof.Proof.Gen.ReferenceIdeal.Read
import Idealize.ShloMosaic.Lib.Pipeline.Value
import Idealize.ShloMosaic.Lib.ValueIdxRank1

noncomputable section

namespace Cert.ReferenceIdeal.RefOps

open Cert.ReferenceIdeal Cert.ReferenceIdeal.Gen Idealize.ShloMosaic Idealize.ShloMosaic.TcCoe Idealize.SL.Sem Idealize.ShloMosaic.StableHlo
open Idealize.ShloMosaic.ValueIdx Cert.InstNorm

/-! ## Where an update lands -/

/-- An update lands at `i` exactly when, on every axis, its start plus its window coordinate is the coordinate of `i`. -/
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have h1 : (d.start j idx a + (d.window j a : Int)).toNat = (i a).val :=
        congrArg (fun f : s.Idx => (f a).val) (Option.some.inj he)
      have := (h a).1
      omega
    · intro hall
      refine congrArg some (funext fun a => Fin.ext ?_)
      show (d.start j idx a + (d.window j a : Int)).toNat = (i a).val
      rw [hall a]; exact Int.toNat_natCast _
  · rename_i h
    constructor
    · intro he; exact absurd he (by simp)
    · intro hall
      exact absurd (fun a => by rw [hall a]; exact ⟨Int.natCast_nonneg _, by exact_mod_cast (i a).isLt⟩) h

/-- A 32-bit word whose signed value is a natural number below 16 is that number's word. -/
private theorem toInt_eq_small_iff (v : BitVec 32) (k : Nat) (hk : k < 16) : v.toInt = (k : Int) ↔ v = BitVec.ofNat 32 k := by
  constructor
  · intro h
    apply BitVec.eq_of_toNat_eq
    rw [BitVec.toNat_ofNat]
    have := v.isLt
    rw [BitVec.toInt_eq_toNat_cond] at h
    split at h <;> omega
  · intro h
    subst h
    rw [BitVec.toInt_eq_toNat_cond, BitVec.toNat_ofNat]
    have : k % 2 ^ 32 = k := Nat.mod_eq_of_lt (by omega)
    rw [this]
    split <;> omega

/-! ## The scatter of rows, one update at a time -/

section Rows

/-- On the instance axis the start of update `(n, j')` is the id word of point `n`, read signed. -/
private theorem rows_start0 (I : IVec S2000000x1 32) (n : Fin 2000000) (j' : Fin 32) :
    scatter_S16x32_S2000000x1_S2000000x32_1_0_0_1.start (ix2 n j') I 0 = (I (ix2 n 0)).toInt := by
  unfold ScatterDims.start
  rw [dif_pos (show (0 : Fin 2) ∈ scatter_S16x32_S2000000x1_S2000000x32_1_0_0_1.scatterDimsToOperandDims from
    List.mem_singleton.mpr rfl)]
  refine congrArg (fun i => (I i).toInt) (funext fun b => Fin.ext ?_)
  match b with
  | ⟨0, _⟩ => rfl
  | ⟨1, _⟩ => rfl

/-- On the channel axis the start is zero: the scatter indices do not name it. -/
private theorem rows_start1 (I : IVec S2000000x1 32) (n : Fin 2000000) (j' : Fin 32) :
    scatter_S16x32_S2000000x1_S2000000x32_1_0_0_1.start (ix2 n j') I 1 = 0 := by
  unfold ScatterDims.start
  rw [dif_neg (show (1 : Fin 2) ∉ scatter_S16x32_S2000000x1_S2000000x32_1_0_0_1.scatterDimsToOperandDims by decide)]

/-- The instance axis is inserted: no window coordinate there. -/
private theorem rows_window0 (n : Fin 2000000) (j' : Fin 32) :
    scatter_S16x32_S2000000x1_S2000000x32_1_0_0_1.window (ix2 n j') 0 = 0 := by
  unfold ScatterDims.window
  rw [dif_neg (show (0 : Fin 2) ∉ scatter_S16x32_S2000000x1_S2000000x32_1_0_0_1.sKept by decide)]

/-- The window coordinate on the channel axis is the update's channel. -/
private theorem rows_window1 (n : Fin 2000000) (j' : Fin 32) :
    scatter_S16x32_S2000000x1_S2000000x32_1_0_0_1.window (ix2 n j') 1 = j'.val := by
  unfold ScatterDims.window
  rw [dif_pos (show (1 : Fin 2) ∈ scatter_S16x32_S2000000x1_S2000000x32_1_0_0_1.sKept by decide)]
  rfl

/-- Update `(n, j')` lands at entry `(k, j)` exactly when point `n` carries the word of `k` and the channels agree. -/
private theorem rows_lands_iff (I : IVec S2000000x1 32) (n : Fin 2000000) (j' : Fin 32) (k : Fin 16) (j : Fin 32) :
    scatter_S16x32_S2000000x1_S2000000x32_1_0_0_1.resultIdx? (ix2 n j') I = some (ix2 k j)
      ↔ I (ix2 n 0) = BitVec.ofNat 32 k.val ∧ j' = j := by
  rw [resultIdx?_eq_some_iff, ← toInt_eq_small_iff _ k.val k.isLt]
  constructor
  · intro h
    have h0 := h 0
    have h1 := h 1
    rw [rows_start0, rows_window0] at h0
    rw [rows_start1, rows_window1] at h1
    refine ⟨?_, Fin.ext ?_⟩
    · have : ((ix2 k j : S16x32.Idx) 0).val = k.val := rfl
      rw [this] at h0; simpa using h0
    · have : ((ix2 k j : S16x32.Idx) 1).val = j.val := rfl
      rw [this] at h1; omega
  · rintro ⟨hk, rfl⟩ a
    match a with
    | ⟨0, _⟩ =>
      show scatter_S16x32_S2000000x1_S2000000x32_1_0_0_1.start (ix2 n j') I 0
        + (scatter_S16x32_S2000000x1_S2000000x32_1_0_0_1.window (ix2 n j') 0 : Int) = (k.val : Int)
      rw [rows_start0, rows_window0, hk]; simp
    | ⟨1, _⟩ =>
      show scatter_S16x32_S2000000x1_S2000000x32_1_0_0_1.start (ix2 n j') I 1
        + (scatter_S16x32_S2000000x1_S2000000x32_1_0_0_1.window (ix2 n j') 1 : Int) = (j'.val : Int)
      rw [rows_start1, rows_window1]; simp

end Rows

/-! ## The id words as a column -/

/-- The id words broadcast to a column read, at `(n, 0)`, the word of point `n`. -/
private theorem bcast_ids_apply (B : IVec S2000000 32) (n : Fin 2000000) :
    broadcastInDim S2000000x1 ![0] bcast_S2000000_S2000000x1_0 B (ix2 n 0) = B (ix1 n) := by
  refine broadcastInDim_apply _ bcast_S2000000_S2000000x1_0 B (ix2 n 0) (ix1 n) (fun a => ?_)
  match a with
  | ⟨0, _⟩ =>
    show n.val = if (2000000 : Nat) = 1 then 0 else n.val
    rw [if_neg (by decide)]

/-! ## The scatter of rows at one entry -/

/-- The scatter of rows: entry `(k, j)` of the operand plus channel `j` of the updates of instance `k`. -/
theorem scatter_rows_apply (op : FVec Ideal S16x32 .f32) (B : IVec S2000000 32)
    (U : FVec Ideal S2000000x32 .f32) (k : Fin 16) (j : Fin 32) :
    Host.scatterAdd (F := Ideal) (φ := .f32) scatter_S16x32_S2000000x1_S2000000x32_1_0_0_1 op
        (broadcastInDim S2000000x1 ![0] bcast_S2000000_S2000000x1_0 B) U (ix2 k j)
      = (op : S16x32.Idx → EReal) (ix2 k j)
        + seg (fun n => (B : S2000000.Idx → BitVec 32) (ix1 n)) (fun n => (U : S2000000x32.Idx → EReal) (ix2 n j)) k := by
  show Ideal.hostScatterAdd scatter_S16x32_S2000000x1_S2000000x32_1_0_0_1 op
        (broadcastInDim S2000000x1 ![0] bcast_S2000000_S2000000x1_0 B) U (ix2 k j) = _
  unfold Ideal.hostScatterAdd seg
  refine congrArg (fun t => (op : S16x32.Idx → EReal) (ix2 k j) + t) ?_
  rw [Finset.sum_filter, sum_idx2]
  refine Finset.sum_congr rfl fun n _ => ?_
  simp only [rows_lands_iff]
  rw [bcast_ids_apply B n]
  by_cases hB : (B : S2000000.Idx → BitVec 32) (ix1 n) = BitVec.ofNat 32 k.val
  · rw [if_pos hB]
    simp only [hB, true_and]
    rw [Finset.sum_ite_eq' Finset.univ j, if_pos (Finset.mem_univ j)]
  · rw [if_neg hB]
    simp only [hB, false_and, if_false, Finset.sum_const_zero]

/-! ## The scatter of scalars, one update at a time -/

section Vec

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The start of update `n` is the id word of point `n`, read signed. -/
private theorem vec_start0 (I : IVec S2000000x1 32) (n : Fin 2000000) :
    scatter_S16_S2000000x1_S2000000_n_0_0_1.start (ix1 n) I 0 = (I (ix2 n 0)).toInt := by
  unfold ScatterDims.start
  rw [dif_pos (show (0 : Fin 1) ∈ scatter_S16_S2000000x1_S2000000_n_0_0_1.scatterDimsToOperandDims from
    List.mem_singleton.mpr rfl)]
  refine congrArg (fun i => (I i).toInt) (funext fun b => Fin.ext ?_)
  match b with
  | ⟨0, _⟩ => rfl
  | ⟨1, _⟩ => rfl

/-- The one operand axis is inserted: there is no window. -/
private theorem vec_window0 (n : Fin 2000000) :
    scatter_S16_S2000000x1_S2000000_n_0_0_1.window (ix1 n) 0 = 0 := by
  unfold ScatterDims.window
  rw [dif_neg (show (0 : Fin 1) ∉ scatter_S16_S2000000x1_S2000000_n_0_0_1.sKept by decide)]

/-- Update `n` lands at entry `k` exactly when point `n` carries the word of `k`. -/
private theorem vec_lands_iff (I : IVec S2000000x1 32) (n : Fin 2000000) (k : Fin 16) :
    scatter_S16_S2000000x1_S2000000_n_0_0_1.resultIdx? (ix1 n) I = some (ix1 k)
      ↔ I (ix2 n 0) = BitVec.ofNat 32 k.val := by
  rw [resultIdx?_eq_some_iff, ← toInt_eq_small_iff _ k.val k.isLt]
  constructor
  · intro h
    have h0 := h 0
    rw [vec_start0, vec_window0] at h0
    have : ((ix1 k : S16.Idx) 0).val = k.val := rfl
    rw [this] at h0; simpa using h0
  · intro hk a
    match a with
    | ⟨0, _⟩ =>
      show scatter_S16_S2000000x1_S2000000_n_0_0_1.start (ix1 n) I 0
        + (scatter_S16_S2000000x1_S2000000_n_0_0_1.window (ix1 n) 0 : Int) = (k.val : Int)
      rw [vec_start0, vec_window0, hk]; simp

end Vec

/-! ## The scatter of scalars at one entry -/

/-- The scatter of scalars: entry `k` of the operand plus the updates of instance `k`. -/
theorem scatter_vec_apply (op : FVec Ideal S16 .f32) (B : IVec S2000000 32)
    (U : FVec Ideal S2000000 .f32) (k : Fin 16) :
    Host.scatterAdd (F := Ideal) (φ := .f32) scatter_S16_S2000000x1_S2000000_n_0_0_1 op
        (broadcastInDim S2000000x1 ![0] bcast_S2000000_S2000000x1_0 B) U (ix1 k)
      = (op : S16.Idx → EReal) (ix1 k)
        + seg (fun n => (B : S2000000.Idx → BitVec 32) (ix1 n)) (fun n => (U : S2000000.Idx → EReal) (ix1 n)) k := by
  show Ideal.hostScatterAdd scatter_S16_S2000000x1_S2000000_n_0_0_1 op
        (broadcastInDim S2000000x1 ![0] bcast_S2000000_S2000000x1_0 B) U (ix1 k) = _
  unfold Ideal.hostScatterAdd seg
  refine congrArg (fun t => (op : S16.Idx → EReal) (ix1 k) + t) ?_
  rw [Finset.sum_filter, sum_idx1]
  refine Finset.sum_congr rfl fun n _ => ?_
  simp only [vec_lands_iff]
  rw [bcast_ids_apply B n]

/-! ## The gather of rows at one entry -/

section Gather

/-- On the instance axis the slice of result row `n` starts at the index word of row `n`, read signed and clamped
    into `0 … 15`. -/
private theorem gather_start0 (I : IVec S2000000x1 32) (n : Fin 2000000) (j : Fin 32) :
    gather_S16x32_S2000000x1_S2000000x32_1_0_n_n_0_1_132.start (ix2 n j) I 0 = min (I (ix2 n 0)).toInt.toNat 15 := by
  unfold GatherDims.start
  rw [dif_pos (show (0 : Fin 2) ∈ gather_S16x32_S2000000x1_S2000000x32_1_0_n_n_0_1_132.startIndexMap from
    List.mem_singleton.mpr rfl)]
  refine congrArg (fun i => min (I i).toInt.toNat 15) (funext fun b => Fin.ext ?_)
  match b with
  | ⟨0, _⟩ => rfl
  | ⟨1, _⟩ => rfl

/-- On the channel axis the slice starts at zero: the start indices do not name it. -/
private theorem gather_start1 (I : IVec S2000000x1 32) (n : Fin 2000000) (j : Fin 32) :
    gather_S16x32_S2000000x1_S2000000x32_1_0_n_n_0_1_132.start (ix2 n j) I 1 = 0 := by
  unfold GatherDims.start
  rw [dif_neg (show (1 : Fin 2) ∉ gather_S16x32_S2000000x1_S2000000x32_1_0_n_n_0_1_132.startIndexMap by decide)]

/-- The offset coordinate on the channel axis is the result's channel. -/
private theorem gather_off1 (n : Fin 2000000) (j : Fin 32) :
    gather_S16x32_S2000000x1_S2000000x32_1_0_n_n_0_1_132.offCoord (ix2 n j) 1 = j.val := by
  unfold GatherDims.offCoord
  rw [dif_pos (show (1 : Fin 2) ∈ gather_S16x32_S2000000x1_S2000000x32_1_0_n_n_0_1_132.sKept by decide)]
  rfl

end Gather

/-- The gather of rows: at a row whose index word is `k`, row `k` of the table. -/
theorem gather_rows_apply (T : FVec Ideal S16x32 .f32) (I : IVec S2000000 32)
    (n : Fin NP) (j : Fin 32) (k : Fin 16) (hk : (I : S2000000.Idx → BitVec 32) (ix1 n) = BitVec.ofNat 32 k.val) :
    Host.gather gather_S16x32_S2000000x1_S2000000x32_1_0_n_n_0_1_132 T
        (broadcastInDim S2000000x1 ![0] bcast_S2000000_S2000000x1_0 I) (ix2 n j)
      = (T : S16x32.Idx → EReal) (ix2 k j) := by
  have hI : broadcastInDim S2000000x1 ![0] bcast_S2000000_S2000000x1_0 I (ix2 n 0) = BitVec.ofNat 32 k.val :=
    (bcast_ids_apply I n).trans hk
  unfold Host.gather
  refine congrArg T (funext fun a => Fin.ext ?_)
  match a with
  | ⟨0, _⟩ =>
    show gather_S16x32_S2000000x1_S2000000x32_1_0_n_n_0_1_132.start (ix2 n j) _ 0
        + gather_S16x32_S2000000x1_S2000000x32_1_0_n_n_0_1_132.batchCoord (ix2 n j) 0
        + gather_S16x32_S2000000x1_S2000000x32_1_0_n_n_0_1_132.offCoord (ix2 n j) 0 = k.val
    rw [gather_start0, hI, GatherDims.batchCoord_eq_zero _ _ _ (by decide),
      GatherDims.offCoord_eq_zero _ _ _ (by decide), (toInt_eq_small_iff _ k.val k.isLt).2 rfl]
    have := k.isLt
    rw [Int.toNat_natCast]
    omega
  | ⟨1, _⟩ =>
    show gather_S16x32_S2000000x1_S2000000x32_1_0_n_n_0_1_132.start (ix2 n j) _ 1
        + gather_S16x32_S2000000x1_S2000000x32_1_0_n_n_0_1_132.batchCoord (ix2 n j) 1
        + gather_S16x32_S2000000x1_S2000000x32_1_0_n_n_0_1_132.offCoord (ix2 n j) 1 = j.val
    rw [gather_start1, GatherDims.batchCoord_eq_zero _ _ _ (by decide), gather_off1]
    omega

end Cert.ReferenceIdeal.RefOps

end
-- ==== Proof.RefValue.lean ====
/-
  The reference's result, read at one entry, is the specification `outR`: the instance counts, means and variances are
  scatters along the instance axis, a point's own mean and inverse deviation are gathers at its id, and where every id
  is one of `0 … 15` the gathers read the row the id names.
-/
import proofs.«417694_j75883482186010_3_alg».proof.Proof.Spec
import proofs.«417694_j75883482186010_3_alg».proof.Proof.Gen.ReferenceIdeal.Read
import Idealize.ShloMosaic.Lib.Pipeline.Value
import proofs.«417694_j75883482186010_3_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.InstNorm

set_option maxRecDepth 16384
open Cert.ReferenceIdeal.Read Cert.ReferenceIdeal.RefOps

/-- The feature array read by coordinates. -/
private abbrev xs (X : (⟨S2000000x32, .f32⟩ : BufTy).Contents (Elt Ideal)) : Fin NP → Fin 32 → EReal :=
  fun n j => (X : S2000000x32.Idx → EReal) (ix2 n j)
/-- The id array read by coordinates. -/
private abbrev bs (B : (⟨S2000000, .i32⟩ : BufTy).Contents (Elt Ideal)) : Fin NP → BitVec 32 :=
  fun n => (B : S2000000.Idx → BitVec 32) (ix1 n)

/-! ## The constant arrays -/

private theorem ones_at (i : S2000000.Idx) : val_main_v0 (F := Ideal) i = oneW := by
  rw [val_main_v0_apply, val_main_cst_apply]; rfl

private theorem zeros16_at (i : S16.Idx) : val_main_v1 (F := Ideal) i = 0 := by
  rw [val_main_v1_apply, val_main_cst_0_apply, Ideal.ofBits_def, Ideal.ofBits_zero_f32]

private theorem ones16x1_at (i : S16x1.Idx) : val_main_v5 (F := Ideal) i = oneW := by
  rw [val_main_v5_apply, val_main_cst_1_apply]; rfl

private theorem zeros7_at (i : S16x32.Idx) : val_main_v7 (F := Ideal) i = 0 := by
  rw [val_main_v7_apply, val_main_cst_2_apply, Ideal.ofBits_def, Ideal.ofBits_zero_f32]

private theorem zeros21_at (i : S16x32.Idx) : val_main_v21 (F := Ideal) i = 0 := by
  rw [val_main_v21_apply, val_main_cst_4_apply, Ideal.ofBits_def, Ideal.ofBits_zero_f32]

private theorem eps_at (i : S16x32.Idx) : val_main_v26 (F := Ideal) i = epsW := by
  rw [val_main_v26_apply, val_main_cst_5_apply]; rfl

private theorem ones16x32_at (i : S16x32.Idx) : val_main_v29 (F := Ideal) i = oneW := by
  rw [val_main_v29_apply, val_main_cst_6_apply]; rfl

/-! ## Counts and means -/

/-- The scatter of ones counts the points of each instance. -/
private theorem count_at (B : (⟨S2000000, .i32⟩ : BufTy).Contents (Elt Ideal)) (k : Fin 16) :
    val_main_v3 (F := Ideal) B (ix1 k) = seg (bs B) (fun _ => 1) k := by
  unfold val_main_v3 val_main_v2
  rw [scatter_vec_apply, zeros16_at, zero_add]
  simp only [ones_at, oneW_eq]

/-- The count, at least one. -/
private theorem kmax_at (B : (⟨S2000000, .i32⟩ : BufTy).Contents (Elt Ideal)) (k : Fin 16) (z : Fin 1) :
    val_main_v6 (F := Ideal) B (ix2 k z) = kmax (bs B) k := by
  have e : idx_main_v4 (ix2 k z) = ix1 k := funext fun a => Fin.ext (by match a with | ⟨0, _⟩ => rfl)
  rw [val_main_v6_apply, val_main_v4_apply, e, count_at, ones16x1_at, Ideal.maximumf_def]
  rfl

/-- The count broadcast along the channels. -/
private theorem kmax10_at (B : (⟨S2000000, .i32⟩ : BufTy).Contents (Elt Ideal)) (k : Fin 16) (j : Fin 32) :
    val_main_v10 (F := Ideal) B (ix2 k j) = kmax (bs B) k := by
  have e : idx_main_v10 (ix2 k j) = ix2 k (0 : Fin 1) :=
    funext fun a => Fin.ext (by match a with | ⟨0, _⟩ => rfl | ⟨1, _⟩ => rfl)
  rw [val_main_v10_apply, e, kmax_at]

private theorem kmax24_at (B : (⟨S2000000, .i32⟩ : BufTy).Contents (Elt Ideal)) (k : Fin 16) (j : Fin 32) :
    val_main_v24 (F := Ideal) B (ix2 k j) = kmax (bs B) k := by
  have e : idx_main_v24 (ix2 k j) = ix2 k (0 : Fin 1) :=
    funext fun a => Fin.ext (by match a with | ⟨0, _⟩ => rfl | ⟨1, _⟩ => rfl)
  rw [val_main_v24_apply, e, kmax_at]

/-- The scatter of the features sums each instance's rows. -/
private theorem sum_at (X : (⟨S2000000x32, .f32⟩ : BufTy).Contents (Elt Ideal)) (B : (⟨S2000000, .i32⟩ : BufTy).Contents (Elt Ideal))
    (k : Fin 16) (j : Fin 32) :
    val_main_v9 (F := Ideal) X B (ix2 k j) = seg (bs B) (fun n => xs X n j) k := by
  unfold val_main_v9 val_main_v8
  rw [scatter_rows_apply, zeros7_at, zero_add]

/-- The instance means. -/
private theorem mean_at (X : (⟨S2000000x32, .f32⟩ : BufTy).Contents (Elt Ideal)) (B : (⟨S2000000, .i32⟩ : BufTy).Contents (Elt Ideal))
    (k : Fin 16) (j : Fin 32) :
    val_main_v11 (F := Ideal) X B (ix2 k j) = mean (xs X) (bs B) k j := by
  rw [val_main_v11_apply, Ideal.hostDivf_def, sum_at, kmax10_at]
  rfl

/-! ## The wrapped id -/

/-- One of the words `0 … 15` is not negative. -/
private theorem not_neg_of_cls (v : BitVec 32) (h : v = BitVec.ofNat 32 (cls v).val) :
    IntOp.cmpi .slt v 0#32 = 0#1 := by
  rw [h]; generalize cls v = c; revert c; decide

/-- Where the id is one of `0 … 15` the wrap leaves it alone. -/
private theorem wrap16_at (B : (⟨S2000000, .i32⟩ : BufTy).Contents (Elt Ideal)) (n : Fin NP)
    (h : bs B n = BitVec.ofNat 32 (cls (bs B n)).val) :
    val_main_v16 (F := Ideal) B (ix1 n) = bs B n := by
  rw [val_main_v16_apply, val_main_v13_apply, val_main_v12_apply, val_main_c_apply, not_neg_of_cls _ h, select_zero]

private theorem wrap35_at (B : (⟨S2000000, .i32⟩ : BufTy).Contents (Elt Ideal)) (n : Fin NP)
    (h : bs B n = BitVec.ofNat 32 (cls (bs B n)).val) :
    val_main_v35 (F := Ideal) B (ix1 n) = bs B n := by
  rw [val_main_v35_apply, val_main_v32_apply, val_main_v31_apply, val_main_c_7_apply, not_neg_of_cls _ h, select_zero]

/-! ## The gathered mean, the deviations and the variance -/

section
variable (X : (⟨S2000000x32, .f32⟩ : BufTy).Contents (Elt Ideal)) (B : (⟨S2000000, .i32⟩ : BufTy).Contents (Elt Ideal))
  (hb : ∀ n : Fin NP, bs B n = BitVec.ofNat 32 (cls (bs B n)).val)
include hb

/-- A point reads the mean of its own instance. -/
private theorem ownMean_at (n : Fin NP) (j : Fin 32) :
    val_main_v18 (F := Ideal) X B (ix2 n j) = mean (xs X) (bs B) (cls (bs B n)) j := by
  have hk : (val_main_v16 (F := Ideal) B : S2000000.Idx → BitVec 32) (ix1 n) = BitVec.ofNat 32 (cls (bs B n)).val :=
    (wrap16_at B n (hb n)).trans (hb n)
  unfold val_main_v18 val_main_v17
  rw [gather_rows_apply _ _ n j (cls (bs B n)) hk, mean_at]

/-- The deviation from the own mean. -/
private theorem dev_at (n : Fin NP) (j : Fin 32) :
    val_main_v19 (F := Ideal) X B (ix2 n j) = dev (xs X) (bs B) n j := by
  rw [val_main_v19_apply, Ideal.subf_def, ownMean_at X B hb]
  rfl

/-- Its square. -/
private theorem sq_at (n : Fin NP) (j : Fin 32) :
    val_main_v20 (F := Ideal) X B (ix2 n j) = dev (xs X) (bs B) n j * dev (xs X) (bs B) n j := by
  rw [val_main_v20_apply, Ideal.mulf_def, dev_at X B hb]

/-- The scatter of the squared deviations. -/
private theorem sqsum_at (k : Fin 16) (j : Fin 32) :
    val_main_v23 (F := Ideal) X B (ix2 k j)
      = seg (bs B) (fun n => dev (xs X) (bs B) n j * dev (xs X) (bs B) n j) k := by
  unfold val_main_v23 val_main_v22
  rw [scatter_rows_apply, zeros21_at, zero_add]
  simp only [sq_at X B hb]

/-- The variance as the mean of the squared deviations. -/
private theorem var_at (k : Fin 16) (j : Fin 32) :
    val_main_v25 (F := Ideal) X B (ix2 k j) = varR (xs X) (bs B) k j := by
  rw [val_main_v25_apply, Ideal.hostDivf_def, sqsum_at X B hb, kmax24_at]
  rfl

/-- The inverse standard deviation of an instance. -/
private theorem istd_at (k : Fin 16) (j : Fin 32) :
    val_main_v30 (F := Ideal) X B (ix2 k j) = istd (varR (xs X) (bs B) k j) := by
  rw [val_main_v30_apply, Ideal.hostDivf_def, ones16x32_at, val_main_v28_apply, Ideal.hostUnary_sqrt_def,
    val_main_v27_apply, Ideal.addf_def, var_at X B hb, eps_at]
  rfl

/-- A point reads the inverse standard deviation of its own instance. -/
private theorem ownIstd_at (n : Fin NP) (j : Fin 32) :
    val_main_v37 (F := Ideal) X B (ix2 n j) = istd (varR (xs X) (bs B) (cls (bs B n)) j) := by
  have hk : (val_main_v35 (F := Ideal) B : S2000000.Idx → BitVec 32) (ix1 n) = BitVec.ofNat 32 (cls (bs B n)).val :=
    (wrap35_at B n (hb n)).trans (hb n)
  unfold val_main_v37 val_main_v36
  rw [gather_rows_apply _ _ n j (cls (bs B n)) hk, istd_at X B hb]

end

/-! ## The result -/

/-- A row vector broadcast down the points reads its channel. -/
private theorem row39_at (W : (⟨S1x32, .f32⟩ : BufTy).Contents (Elt Ideal)) (n : Fin NP) (j : Fin 32) :
    val_main_v39 (F := Ideal) W (ix2 n j) = (W : S1x32.Idx → EReal) (ix2 0 j) := by
  have e : idx_main_v39 (ix2 n j) = ix2 (0 : Fin 1) j :=
    funext fun a => Fin.ext (by match a with | ⟨0, _⟩ => rfl | ⟨1, _⟩ => rfl)
  rw [val_main_v39_apply, e]

private theorem row41_at (β : (⟨S1x32, .f32⟩ : BufTy).Contents (Elt Ideal)) (n : Fin NP) (j : Fin 32) :
    val_main_v41 (F := Ideal) β (ix2 n j) = (β : S1x32.Idx → EReal) (ix2 0 j) := by
  have e : idx_main_v41 (ix2 n j) = ix2 (0 : Fin 1) j :=
    funext fun a => Fin.ext (by match a with | ⟨0, _⟩ => rfl | ⟨1, _⟩ => rfl)
  rw [val_main_v41_apply, e]

theorem ref_value (X : (⟨S2000000x32, .f32⟩ : BufTy).Contents (Elt Ideal)) (B : (⟨S2000000, .i32⟩ : BufTy).Contents (Elt Ideal))
    (W β : (⟨S1x32, .f32⟩ : BufTy).Contents (Elt Ideal))
    (hb : ∀ n : Fin NP, (B : S2000000.Idx → BitVec 32) (ix1 n) = BitVec.ofNat 32 (cls ((B : S2000000.Idx → BitVec 32) (ix1 n))).val)
    (n : Fin NP) (j : Fin 32) :
    Cert.ReferenceIdeal.Read.val_main_v42 (F := Ideal) X B W β (ix2 n j)
      = outR (fun n j => (X : S2000000x32.Idx → EReal) (ix2 n j)) (fun n => (B : S2000000.Idx → BitVec 32) (ix1 n))
          (fun j => (W : S1x32.Idx → EReal) (ix2 0 j)) (fun j => (β : S1x32.Idx → EReal) (ix2 0 j)) n j := by
  rw [val_main_v42_apply, Ideal.addf_def, val_main_v40_apply, Ideal.mulf_def, val_main_v38_apply, Ideal.mulf_def,
    dev_at X B hb, ownIstd_at X B hb, row39_at, row41_at]
  rfl

end Cert.ReferenceIdeal.RefValue

end
-- ==== Proof.Algebra.lean ====
/-
  The one law that joins the two programs: over finite features, with every id one of `0 … 15`, the mean of the squares
  less the square of the mean IS the mean of the squared deviations (and is not negative, so clipping it at zero changes
  nothing). With `N` the number of points of an instance, `K = max N 1`, `S₁` and `S₂` the sums of the features and of
  their squares and `μ = S₁ / K`:  `Σ (x - μ)² = S₂ - 2 μ S₁ + N μ²`, which is `S₂ - K μ²` when `N ≥ 1` (then `K = N`) and
  `0 = S₂` when `N = 0`; divide by `K`.

  The law is first proved over the reals for a sum restricted to an arbitrary decidable class of an arbitrary finite
  index type (`rsum`), then carried to the extended reals: a restricted sum of finite values is the coercion of the
  real restricted sum, the count is the coercion of a real that is zero or at least one, and division by the positive
  real `K` is multiplication by the coercion of `1 / K`.
-/
import proofs.«417694_j75883482186010_3_alg».proof.Proof.Spec

noncomputable section

namespace Cert.InstNorm

open Idealize.ShloMosaic

namespace Alg

section Real

variable {ι : Type} [Fintype ι] (p : ι → Prop) [DecidablePred p]

/-- The real sum of `f` over the members of the class `p`. -/
def rsum (f : ι → ℝ) : ℝ := ∑ n, if p n then f n else 0

theorem rsum_add (f g : ι → ℝ) : rsum p (fun n => f n + g n) = rsum p f + rsum p g := by
  unfold rsum
  rw [← Finset.sum_add_distrib]
  refine Finset.sum_congr rfl (fun n _ => ?_)
  split_ifs
  · rfl
  · rw [add_zero]

theorem rsum_sub (f g : ι → ℝ) : rsum p (fun n => f n - g n) = rsum p f - rsum p g := by
  unfold rsum
  rw [← Finset.sum_sub_distrib]
  refine Finset.sum_congr rfl (fun n _ => ?_)
  split_ifs
  · rfl
  · rw [sub_zero]

theorem rsum_const_mul (a : ℝ) (f : ι → ℝ) : rsum p (fun n => a * f n) = a * rsum p f := by
  unfold rsum
  rw [Finset.mul_sum]
  refine Finset.sum_congr rfl (fun n _ => ?_)
  split_ifs
  · rfl
  · rw [mul_zero]

/-- A restricted sum of non-negative terms is non-negative. -/
theorem rsum_nonneg (f : ι → ℝ) (hf : ∀ n, 0 ≤ f n) : 0 ≤ rsum p f := by
  unfold rsum
  refine Finset.sum_nonneg (fun n _ => ?_)
  split_ifs
  · exact hf n
  · exact le_refl 0

/-- The count of a class is zero, and then the class is empty, or it is at least one. -/
theorem rcount_cases : (rsum p (fun _ => (1 : ℝ)) = 0 ∧ ∀ n, ¬ p n) ∨ 1 ≤ rsum p (fun _ => (1 : ℝ)) := by
  by_cases h : ∃ m, p m
  · right
    obtain ⟨m, hm⟩ := h
    unfold rsum
    have h1 : (if p m then (1 : ℝ) else 0) ≤ ∑ n, if p n then (1 : ℝ) else 0 :=
      Finset.single_le_sum (f := fun n => if p n then (1 : ℝ) else 0)
        (fun n _ => by split_ifs <;> norm_num) (Finset.mem_univ m)
    rw [if_pos hm] at h1
    exact h1
  · left
    have h' : ∀ n, ¬ p n := fun n hn => h ⟨n, hn⟩
    refine ⟨?_, h'⟩
    unfold rsum
    exact Finset.sum_eq_zero (fun n _ => if_neg (h' n))

/-- A restricted sum over an empty class is zero. -/
theorem rsum_empty (h : ∀ n, ¬ p n) (f : ι → ℝ) : rsum p f = 0 := by
  unfold rsum
  exact Finset.sum_eq_zero (fun n _ => if_neg (h n))

/-- The sum of the squared deviations from any `μ`, expanded. -/
theorem rsum_sq_dev (xr : ι → ℝ) (μ : ℝ) :
    rsum p (fun n => (xr n - μ) * (xr n - μ))
      = rsum p (fun n => xr n * xr n) - 2 * μ * rsum p xr + μ * μ * rsum p (fun _ => (1 : ℝ)) := by
  have h : (fun n => (xr n - μ) * (xr n - μ))
      = (fun n => (xr n * xr n - 2 * μ * xr n) + μ * μ * 1) := by
    funext n; ring
  rw [h, rsum_add, rsum_sub, rsum_const_mul, rsum_const_mul]

/-- The variance law over the reals. -/
theorem real_var (xr : ι → ℝ) :
    max (rsum p (fun n => xr n * xr n) * (1 / max (rsum p (fun _ => (1 : ℝ))) 1)
          - rsum p xr * (1 / max (rsum p (fun _ => (1 : ℝ))) 1)
            * (rsum p xr * (1 / max (rsum p (fun _ => (1 : ℝ))) 1))) 0
      = rsum p (fun n => (xr n - rsum p xr * (1 / max (rsum p (fun _ => (1 : ℝ))) 1))
                        * (xr n - rsum p xr * (1 / max (rsum p (fun _ => (1 : ℝ))) 1)))
          * (1 / max (rsum p (fun _ => (1 : ℝ))) 1) := by
  have hK : 0 < max (rsum p (fun _ => (1 : ℝ))) 1 := lt_of_lt_of_le one_pos (le_max_right _ _)
  have hnn : 0 ≤ rsum p (fun n => (xr n - rsum p xr * (1 / max (rsum p (fun _ => (1 : ℝ))) 1))
                        * (xr n - rsum p xr * (1 / max (rsum p (fun _ => (1 : ℝ))) 1)))
          * (1 / max (rsum p (fun _ => (1 : ℝ))) 1) :=
    mul_nonneg (rsum_nonneg p _ (fun n => mul_self_nonneg _)) (le_of_lt (one_div_pos.mpr hK))
  have heq : rsum p (fun n => xr n * xr n) * (1 / max (rsum p (fun _ => (1 : ℝ))) 1)
          - rsum p xr * (1 / max (rsum p (fun _ => (1 : ℝ))) 1)
            * (rsum p xr * (1 / max (rsum p (fun _ => (1 : ℝ))) 1))
      = rsum p (fun n => (xr n - rsum p xr * (1 / max (rsum p (fun _ => (1 : ℝ))) 1))
                        * (xr n - rsum p xr * (1 / max (rsum p (fun _ => (1 : ℝ))) 1)))
          * (1 / max (rsum p (fun _ => (1 : ℝ))) 1) := by
    rw [rsum_sq_dev]
    rcases rcount_cases p with ⟨h0, hemp⟩ | h1
    · rw [rsum_empty p hemp xr, rsum_empty p hemp (fun n => xr n * xr n), h0]
      ring
    · rw [max_eq_left h1]
      have hN : rsum p (fun _ => (1 : ℝ)) ≠ 0 := ne_of_gt (lt_of_lt_of_le one_pos h1)
      field_simp
      ring
  rw [heq]
  exact max_eq_left hnn

end Real

section Extended

variable {ι : Type} [Fintype ι] (p : ι → Prop) [DecidablePred p]

/-- A finite sum of coercions of reals is the coercion of the real sum. -/
theorem coe_finset_sum (s : Finset ι) (g : ι → ℝ) :
    ∑ n ∈ s, ((g n : ℝ) : EReal) = ((∑ n ∈ s, g n : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A restricted sum of finite values is the coercion of the real restricted sum. -/
theorem esum_coe (f : ι → ℝ) :
    (∑ n, if p n then ((f n : ℝ) : EReal) else 0) = ((rsum p f : ℝ) : EReal) := by
  unfold rsum
  rw [← coe_finset_sum]
  refine Finset.sum_congr rfl (fun n _ => ?_)
  split_ifs
  · rfl
  · rw [EReal.coe_zero]

theorem coe_max (a c : ℝ) : ((max a c : ℝ) : EReal) = max (a : EReal) (c : EReal) :=
  EReal.coe_strictMono.monotone.map_max

end Extended

/-- The restricted sum of a real-valued feature, as a real. -/
theorem seg_coe (b : Fin NP → BitVec 32) (f : Fin NP → ℝ) (c : Fin 16) :
    seg b (fun n => ((f n : ℝ) : EReal)) c
      = ((rsum (fun n => b n = BitVec.ofNat 32 c.val) f : ℝ) : EReal) := by
  unfold seg
  exact esum_coe (fun n => b n = BitVec.ofNat 32 c.val) f

/-- The count, at least one, as a real. -/
theorem kmax_coe (b : Fin NP → BitVec 32) (c : Fin 16) :
    kmax b c = ((max (rsum (fun n => b n = BitVec.ofNat 32 c.val) (fun _ => (1 : ℝ))) 1 : ℝ) : EReal) := by
  unfold kmax
  rw [oneW_eq, coe_max, EReal.coe_one, ← seg_coe b (fun _ => (1 : ℝ)) c]
  rfl

theorem kpos (b : Fin NP → BitVec 32) (c : Fin 16) :
    max (rsum (fun n => b n = BitVec.ofNat 32 c.val) (fun _ => (1 : ℝ))) 1 ≠ 0 :=
  ne_of_gt (lt_of_lt_of_le one_pos (le_max_right _ _))

/-- The mean of a real-valued feature, as a real. -/
theorem mean_coe (xr : Fin NP → Fin 32 → ℝ) (b : Fin NP → BitVec 32) (c : Fin 16) (j : Fin 32) :
    mean (fun n j => ((xr n j : ℝ) : EReal)) b c j
      = ((rsum (fun n => b n = BitVec.ofNat 32 c.val) (fun n => xr n j)
          * (1 / max (rsum (fun n => b n = BitVec.ofNat 32 c.val) (fun _ => (1 : ℝ))) 1) : ℝ) : EReal) := by
  unfold mean
  rw [kmax_coe, Ideal.div_coe (kpos b c), seg_coe b (fun n => xr n j) c, ← EReal.coe_mul]

/-- The mean of the squares of a real-valued feature, as a real. -/
theorem ex2_coe (xr : Fin NP → Fin 32 → ℝ) (b : Fin NP → BitVec 32) (c : Fin 16) (j : Fin 32) :
    ex2 (fun n j => ((xr n j : ℝ) : EReal)) b c j
      = ((rsum (fun n => b n = BitVec.ofNat 32 c.val) (fun n => xr n j * xr n j)
          * (1 / max (rsum (fun n => b n = BitVec.ofNat 32 c.val) (fun _ => (1 : ℝ))) 1) : ℝ) : EReal) := by
  unfold ex2
  have h : (fun n => ((xr n j : ℝ) : EReal) * ((xr n j : ℝ) : EReal))
      = (fun n => ((xr n j * xr n j : ℝ) : EReal)) := by
    funext n; rw [EReal.coe_mul]
  rw [kmax_coe, Ideal.div_coe (kpos b c), h, seg_coe b (fun n => xr n j * xr n j) c, ← EReal.coe_mul]

/-- The mean of the squared deviations of a real-valued feature, as a real: inside the sum over instance `c` a point's
own instance is `c`, so its deviation is from the mean of `c`. -/
theorem varR_coe (xr : Fin NP → Fin 32 → ℝ) (b : Fin NP → BitVec 32) (c : Fin 16) (j : Fin 32) :
    varR (fun n j => ((xr n j : ℝ) : EReal)) b c j
      = ((rsum (fun n => b n = BitVec.ofNat 32 c.val)
            (fun n => (xr n j - rsum (fun n => b n = BitVec.ofNat 32 c.val) (fun n => xr n j)
                  * (1 / max (rsum (fun n => b n = BitVec.ofNat 32 c.val) (fun _ => (1 : ℝ))) 1))
                * (xr n j - rsum (fun n => b n = BitVec.ofNat 32 c.val) (fun n => xr n j)
                  * (1 / max (rsum (fun n => b n = BitVec.ofNat 32 c.val) (fun _ => (1 : ℝ))) 1)))
          * (1 / max (rsum (fun n => b n = BitVec.ofNat 32 c.val) (fun _ => (1 : ℝ))) 1) : ℝ) : EReal) := by
  unfold varR
  have hseg : seg b (fun n => dev (fun n j => ((xr n j : ℝ) : EReal)) b n j
                  * dev (fun n j => ((xr n j : ℝ) : EReal)) b n j) c
      = seg b (fun n => (((xr n j - rsum (fun n => b n = BitVec.ofNat 32 c.val) (fun n => xr n j)
                  * (1 / max (rsum (fun n => b n = BitVec.ofNat 32 c.val) (fun _ => (1 : ℝ))) 1))
                * (xr n j - rsum (fun n => b n = BitVec.ofNat 32 c.val) (fun n => xr n j)
                  * (1 / max (rsum (fun n => b n = BitVec.ofNat 32 c.val) (fun _ => (1 : ℝ))) 1)) : ℝ) : EReal)) c := by
    unfold seg
    refine Finset.sum_congr rfl (fun n _ => ?_)
    split_ifs with h
    · have hc : cls (b n) = c := by rw [h, cls_ofNat]
      unfold dev
      beta_reduce
      rw [hc, mean_coe, ← EReal.coe_sub, ← EReal.coe_mul]
    · rfl
  rw [hseg, kmax_coe, Ideal.div_coe (kpos b c), seg_coe, ← EReal.coe_mul]

end Alg

theorem varK_eq_varR (x : Fin NP → Fin 32 → EReal) (b : Fin NP → BitVec 32)
    (hfin : ∀ n j, ∃ r : ℝ, x n j = (r : EReal))
    (hb : ∀ n, b n = BitVec.ofNat 32 (cls (b n)).val) (c : Fin 16) (j : Fin 32) :
    varK x b c j = varR x b c j := by
  choose xr hx using hfin
  obtain rfl : x = fun n j => ((xr n j : ℝ) : EReal) := funext (fun n => funext (fun j => hx n j))
  unfold varK
  rw [Alg.varR_coe, Alg.ex2_coe, Alg.mean_coe, ← EReal.coe_mul, ← EReal.coe_sub, ← EReal.coe_zero, ← Alg.coe_max,
    Alg.real_var (fun n => b n = BitVec.ofNat 32 c.val) (fun n => xr n j)]

theorem outK_eq_outR (x : Fin NP → Fin 32 → EReal) (b : Fin NP → BitVec 32) (w β : Fin 32 → EReal)
    (hfin : ∀ n j, ∃ r : ℝ, x n j = (r : EReal))
    (hb : ∀ n, b n = BitVec.ofNat 32 (cls (b n)).val) (n : Fin NP) (j : Fin 32) :
    outK x b w β n j = outR x b w β n j := by
  unfold outK outR
  rw [varK_eq_varR x b hfin hb]

end Cert.InstNorm

end
-- ==== Proof.PreDecode.lean ====
/-
  What the precondition says of the inputs, entry by entry: every feature is a real number (its absolute value is below
  `+∞`), and every id word is one of `0 … 15` (it is at least `0` and below `16` as a signed number).
-/
import proofs.«417694_j75883482186010_3_alg».proof.Proof.Spec
import proofs.«417694_j75883482186010_3_alg».proof.Proof.Gen.Pre_finite_inputs
import proofs.«417694_j75883482186010_3_alg».proof.Pre_finite_inputs
import Idealize.ShloMosaic.Lib.ReduceAll
import Idealize.ShloMosaic.Lib.StableHlo.Predicate

noncomputable section

namespace Cert.Pre_finite_inputs.Decode

open Idealize.ShloMosaic Idealize.ShloMosaic.ValueIdx Cert.Pre_finite_inputs Cert.InstNorm

variable [Cert.Pre_finite_inputs.Facts]

/-- The scalar shape has one index. -/
private instance : Subsingleton S_.Idx := ⟨fun a b => funext fun d => d.elim0⟩

/-- The pattern `0x7F800000` denotes `+∞`. -/
private theorem inf_eq : Ideal.ofBits .f32 0x7F800000#32 = (⊤ : EReal) := by
  simp [Ideal.ofBits, Ideal.ieee]

/-- An extended real whose absolute value `max x (-x)` compares below `+∞` is a real number: at `⊤` the maximum is
    `⊤`, at `⊥` it is `-⊥ = ⊤`, and `⊤ < ⊤` is false. -/
private theorem real_of_abs_lt_inf (x : EReal)
    (h : Ideal.cmp .olt (max x (-x)) (Ideal.ofBits .f32 0x7F800000#32) = 1#1) : ∃ r : ℝ, x = (r : EReal) := by
  rw [inf_eq] at h
  have hlt : max x (-x) < ⊤ := by
    simpa only [Ideal.cmp, StableHlo.Predicate.ofBool_eq_one_iff, decide_eq_true_eq] using h
  induction x using EReal.rec with
  | bot => exact absurd hlt (by simp)
  | coe r => exact ⟨r, rfl⟩
  | top => exact absurd hlt (by simp)

/-- A 32-bit word that is at least `0` and below `16` as a signed number has a value below `16`: a word with its top
    bit set reads negative, so the first comparison rules it out, and below 2³¹ the signed reading is the value. -/
private theorem toNat_lt_16 (b : BitVec 32) (h0 : IntOp.cmpi .sge b 0#32 = 1#1) (h16 : IntOp.cmpi .slt b 16#32 = 1#1) :
    b.toNat < 16 := by
  rw [IntOp.cmpi_sge] at h0
  rw [IntOp.cmpi_slt] at h16
  have e0 : (0#32 : BitVec 32).toInt = 0 := by decide
  have e16 : (16#32 : BitVec 32).toInt = 16 := by decide
  rw [e0] at h0
  rw [e16] at h16
  rw [BitVec.toInt_eq_toNat_cond] at h0 h16
  have hb := b.isLt
  split at h0 <;> omega

/-- The five conjuncts of the printed predicate, of which the three about the features and the id words are kept:
    each is a reduction by `and` over a whole array that came out `1`, so it holds at every entry. -/
private theorem conjuncts (X : FVec Ideal S2000000x32 .f32) (B : IVec S2000000 32) (W β : FVec Ideal S1x32 .f32)
    (h : Cert.Pre_finite_inputs.fn (F := Ideal) X B W β = fun _ => 1#1) :
    (∀ i : S2000000x32.Idx, Ideal.cmp .olt (max (X i) (-(X i))) (Ideal.ofBits .f32 0x7F800000#32) = 1#1)
      ∧ (∀ i : S2000000.Idx, IntOp.cmpi .sge (B i) 0#32 = 1#1)
      ∧ (∀ i : S2000000.Idx, IntOp.cmpi .slt (B i) 16#32 = 1#1) := by
  have h0 := congrFun h ix0
  dsimp only [fn, fn_part1, andi] at h0
  rw [IntOp.andi_eq_one, IntOp.andi_eq_one, IntOp.andi_eq_one, IntOp.andi_eq_one] at h0
  obtain ⟨⟨⟨⟨hX, _⟩, _⟩, hge⟩, hlt⟩ := h0
  exact ⟨fun i => Host.reduce_andi_all _ _ _ _ _ hX i, fun i => Host.reduce_andi_all _ _ _ _ _ hge i,
    fun i => Host.reduce_andi_all _ _ _ _ _ hlt i⟩

theorem finite_of_pre (X : FVec Ideal S2000000x32 .f32) (B : IVec S2000000 32) (W β : FVec Ideal S1x32 .f32)
    (h : Cert.Pre_finite_inputs.fn (F := Ideal) X B W β = fun _ => 1#1) (n : Fin NP) (j : Fin 32) :
    ∃ r : ℝ, (X : S2000000x32.Idx → EReal) (ix2 n j) = (r : EReal) :=
  real_of_abs_lt_inf _ ((conjuncts X B W β h).1 (ix2 n j))

theorem range_of_pre (X : FVec Ideal S2000000x32 .f32) (B : IVec S2000000 32) (W β : FVec Ideal S1x32 .f32)
    (h : Cert.Pre_finite_inputs.fn (F := Ideal) X B W β = fun _ => 1#1) (n : Fin NP) :
    (B : S2000000.Idx → BitVec 32) (ix1 n) = BitVec.ofNat 32 (cls ((B : S2000000.Idx → BitVec 32) (ix1 n))).val := by
  obtain ⟨_, hge, hlt⟩ := conjuncts X B W β h
  have hb := toNat_lt_16 _ (hge (ix1 n)) (hlt (ix1 n))
  apply BitVec.eq_of_toNat_eq
  show (B (ix1 n)).toNat = (BitVec.ofNat 32 ((B (ix1 n)).toNat % 16)).toNat
  rw [BitVec.toNat_ofNat]
  omega

end Cert.Pre_finite_inputs.Decode

end
-- ==== Proof.lean ====
/-
  Instance normalisation of a point cloud: the kernel against its reference, over the extended reals.

  Both programs compute, for every point `n` and channel `j`, `(x - mean) * (1 / sqrt (var + ε)) * w + β` with the mean
  and the variance of the point's own instance (one of sixteen, named by the point's id). The kernel accumulates, per
  instance, the sum of the features, the sum of their squares and the count in one pass over the points, takes the
  variance as the mean of the squares less the square of the mean (clipped at zero), and in a second pass picks each
  point's mean and inverse deviation by a sum of sixteen masked terms. The reference sums by scatters along the
  instance axis, takes the variance as the mean of the squared deviations, and picks by gathers at the id.
  Over finite features the two variances are one real number (Proof/Algebra.lean); where every id is one of
  `0 … 15` the masked sum and the gather pick the same row. The precondition says both: it is "every float input is
  finite" with the ids' evident range `0 ≤ id < 16` added — outside it the reference's gathers index out of range.
  The frames of the two kernel programs are the generated ones; the reference's frame is its generated run; the
  idealization rewrote nothing.
-/
import proofs.«417694_j75883482186010_3_alg».proof.Defs
import proofs.«417694_j75883482186010_3_alg».proof.Proof.Gen.Kernel
import proofs.«417694_j75883482186010_3_alg».proof.Proof.Gen.Kernel.Skeleton
import proofs.«417694_j75883482186010_3_alg».proof.Proof.Gen.Kernel.Launch
import proofs.«417694_j75883482186010_3_alg».proof.Proof.Gen.Kernel.Points
import proofs.«417694_j75883482186010_3_alg».proof.Proof.Gen.Kernel.Frame
import proofs.«417694_j75883482186010_3_alg».proof.Proof.Gen.KernelIdeal
import proofs.«417694_j75883482186010_3_alg».proof.Proof.Gen.KernelIdeal.Skeleton
import proofs.«417694_j75883482186010_3_alg».proof.Proof.Gen.KernelIdeal.Launch
import proofs.«417694_j75883482186010_3_alg».proof.Proof.Gen.KernelIdeal.Points
import proofs.«417694_j75883482186010_3_alg».proof.Proof.Gen.KernelIdeal.Frame
import proofs.«417694_j75883482186010_3_alg».proof.Proof.Gen.ReferenceIdeal
import proofs.«417694_j75883482186010_3_alg».proof.Proof.Gen.ReferenceIdeal.Run
import proofs.«417694_j75883482186010_3_alg».proof.Proof.Gen.ReferenceIdeal.Read
import proofs.«417694_j75883482186010_3_alg».proof.Proof.Gen.Pre_finite_inputs
import proofs.«417694_j75883482186010_3_alg».proof.Proof.RunVal
import proofs.«417694_j75883482186010_3_alg».proof.Proof.KernelValue
import proofs.«417694_j75883482186010_3_alg».proof.Proof.RefValue
import proofs.«417694_j75883482186010_3_alg».proof.Proof.Algebra
import proofs.«417694_j75883482186010_3_alg».proof.Proof.PreDecode
import Idealize.ShloMosaic.Adequacy
import Idealize.ShloMosaic.Init

noncomputable section

namespace Cert.Proof

open Idealize.ShloMosaic Idealize.SL.Sem Idealize.ShloMosaic.ValueIdx Cert.InstNorm

/-- Under the precondition the reference's result term and the kernel program's result buffer are one array: entry by
    entry the reference reads `outR`, the kernel `outK`, of the same launch contents, and the two agree. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (Cert.KernelIdeal.KValue.featArg m c) (Cert.KernelIdeal.KValue.idsArg m c)
      (Cert.KernelIdeal.KValue.scaleArg m c) (Cert.KernelIdeal.KValue.shiftArg m c) = fun _ => 1#1) :
    Cert.ReferenceIdeal.Read.val_main_v42 (F := Ideal) (Cert.KernelIdeal.KValue.featArg m c) (Cert.KernelIdeal.KValue.idsArg m c)
      (Cert.KernelIdeal.KValue.scaleArg m c) (Cert.KernelIdeal.KValue.shiftArg m c)
      = Cert.KernelIdeal.KValue.result m ρ c := by
  have hfin : ∀ n j, ∃ r : ℝ, Cert.KernelIdeal.KValue.xs m c n j = (r : EReal) :=
    fun n j => Cert.Pre_finite_inputs.Decode.finite_of_pre _ _ _ _ hpre n j
  have hrng : ∀ n, Cert.KernelIdeal.KValue.bs m c n = BitVec.ofNat 32 (cls (Cert.KernelIdeal.KValue.bs m c n)).val :=
    fun n => Cert.Pre_finite_inputs.Decode.range_of_pre _ _ _ _ hpre n
  funext idx
  obtain ⟨n, j, rfl⟩ : ∃ (n : Fin NP) (j : Fin 32), idx = ix2 n j := ⟨idx 0, idx 1, eq_ix2 idx⟩
  rw [Cert.ReferenceIdeal.RefValue.ref_value _ _ _ _ hrng n j, Cert.KernelIdeal.KValue.kernel_value m ρ c hrng n j]
  exact (outK_eq_outR _ _ _ _ hfin hrng n j).symm

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run, and from memories agreeing on the four inputs they end with the same result array. -/
theorem algebraic : Cert.algebraic_KernelIdeal_ReferenceIdeal := by
  intro m ρ m' ρ' hpre hagree
  refine ⟨fun c => Cert.KernelIdeal.KValue.result m ρ c, Cert.KernelIdeal.RunVal.run_val (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2.1, (hagree c).2.2.2]
  exact result_eq m ρ c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
